-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S3x4096 : Shape := ⟨2, ![3, 4096]⟩
abbrev S4224x32 : Shape := ⟨2, ![4224, 32]⟩
abbrev S32 : Shape := ⟨1, ![32]⟩
abbrev S32x8 : Shape := ⟨2, ![32, 8]⟩
abbrev S8x32 : Shape := ⟨2, ![8, 32]⟩
abbrev S32x5 : Shape := ⟨2, ![32, 5]⟩
abbrev S5 : Shape := ⟨1, ![5]⟩
abbrev S5x8 : Shape := ⟨2, ![5, 8]⟩
abbrev S8x5 : Shape := ⟨2, ![8, 5]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x4096 : S_.BroadcastsInDim S3x4096 (![] : Fin 0 → Fin S3x4096.rank)
  reducesTo_S3x4096_S_d0_1 : S3x4096.ReducesTo [0, 1] S_
  bcast_S_S4224x32 : S_.BroadcastsInDim S4224x32 (![] : Fin 0 → Fin S4224x32.rank)
  reducesTo_S4224x32_S_d0_1 : S4224x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8x32 : S_.BroadcastsInDim S8x32 (![] : Fin 0 → Fin S8x32.rank)
  reducesTo_S8x32_S_d0_1 : S8x32.ReducesTo [0, 1] S_
  bcast_S_S32x5 : S_.BroadcastsInDim S32x5 (![] : Fin 0 → Fin S32x5.rank)
  reducesTo_S32x5_S_d0_1 : S32x5.ReducesTo [0, 1] S_
  bcast_S_S5 : S_.BroadcastsInDim S5 (![] : Fin 0 → Fin S5.rank)
  reducesTo_S5_S_d0 : S5.ReducesTo [0] S_
  bcast_S_S5x8 : S_.BroadcastsInDim S5x8 (![] : Fin 0 → Fin S5x8.rank)
  reducesTo_S5x8_S_d0_1 : S5x8.ReducesTo [0, 1] S_
  bcast_S_S8x5 : S_.BroadcastsInDim S8x5 (![] : Fin 0 → Fin S8x5.rank)
  reducesTo_S8x5_S_d0_1 : S8x5.ReducesTo [0, 1] S_
  bcast_S_S50000 : S_.BroadcastsInDim S50000 (![] : Fin 0 → Fin S50000.rank)
  reducesTo_S50000_S_d0 : S50000.ReducesTo [0] S_

variable [Facts]

def fn_part3 {F : FTy → Type} [FloatOps F] (main_arg2 : IVec S50000 32) (main_v48 : IVec S_ 1) (main_v50 : IVec S50000 1) : IVec S_ 1 :=
  let main_c_19 : IVec S_ 1 := constantI S_ 1 1#1
  let main_v51 : IVec S_ 1 := (fun x v => Host.reduce IntOp.andi x v reducesTo_S50000_S_d0 h_S_) main_v50 main_c_19
  let main_v52 : IVec S_ 1 := andi main_v48 main_v51
  let main_c_20 : IVec S_ 32 := constantI S_ 32 3#32
  let main_v53 : IVec S50000 32 := broadcastInDim S50000 ![] bcast_S_S50000 main_c_20
  let main_v54 : IVec S50000 1 := cmpi .slt main_arg2 main_v53
  let main_c_21 : IVec S_ 1 := constantI S_ 1 1#1
  let main_v55 : IVec S_ 1 := (fun x v => Host.reduce IntOp.andi x v reducesTo_S50000_S_d0 h_S_) main_v54 main_c_21
  let main_v56 : IVec S_ 1 := andi main_v52 main_v55
  main_v56

def fn_part2 {F : FTy → Type} [FloatOps F] (main_arg2 : IVec S50000 32) (main_arg9 : FVec F S5 .f32) (main_arg10 : FVec F S5x8 .f32) (main_arg11 : FVec F S8x5 .f32) (main_v33 : IVec S_ 1) : IVec S_ 1 :=
  let main_v34 : FVec F S5 .f32 := Host.absf main_arg9
  let main_cst_12 : FVec F S_ .f32 := constant S_ .f32 0x7F800000#32
  let main_v35 : FVec F S5 .f32 := broadcastInDim S5 ![] bcast_S_S5 main_cst_12
  let main_v36 : IVec S5 1 := cmpf .olt main_v34 main_v35
  let main_c_13 : IVec S_ 1 := constantI S_ 1 1#1
  let main_v37 : IVec S_ 1 := (fun x v => Host.reduce IntOp.andi x v reducesTo_S5_S_d0 h_S_) main_v36 main_c_13
  let main_v38 : IVec S_ 1 := andi main_v33 main_v37
  let main_v39 : FVec F S5x8 .f32 := Host.absf main_arg10
  let main_cst_14 : FVec F S_ .f32 := constant S_ .f32 0x7F800000#32
  let main_v40 : FVec F S5x8 .f32 := broadcastInDim S5x8 ![] bcast_S_S5x8 main_cst_14
  let main_v41 : IVec S5x8 1 := cmpf .olt main_v39 main_v40
  let main_c_15 : IVec S_ 1 := constantI S_ 1 1#1
  let main_v42 : IVec S_ 1 := (fun x v => Host.reduce IntOp.andi x v reducesTo_S5x8_S_d0_1 h_S_) main_v41 main_c_15
  let main_v43 : IVec S_ 1 := andi main_v38 main_v42
  let main_v44 : FVec F S8x5 .f32 := Host.absf main_arg11
  let main_cst_16 : FVec F S_ .f32 := constant S_ .f32 0x7F800000#32
  let main_v45 : FVec F S8x5 .f32 := broadcastInDim S8x5 ![] bcast_S_S8x5 main_cst_16
  let main_v46 : IVec S8x5 1 := cmpf .olt main_v44 main_v45
  let main_c_17 : IVec S_ 1 := constantI S_ 1 1#1
  let main_v47 : IVec S_ 1 := (fun x v => Host.reduce IntOp.andi x v reducesTo_S8x5_S_d0_1 h_S_) main_v46 main_c_17
  let main_v48 : IVec S_ 1 := andi main_v43 main_v47
  let main_c_18 : IVec S_ 32 := constantI S_ 32 0#32
  let main_v49 : IVec S50000 32 := broadcastInDim S50000 ![] bcast_S_S50000 main_c_18
  let main_v50 : IVec S50000 1 := cmpi .sge main_arg2 main_v49
  fn_part3 (F := F) main_arg2 main_v48 main_v50

def fn_part1 {F : FTy → Type} [FloatOps F] (main_arg2 : IVec S50000 32) (main_arg6 : FVec F S32x8 .f32) (main_arg7 : FVec F S8x32 .f32) (main_arg8 : FVec F S32x5 .f32) (main_arg9 : FVec F S5 .f32) (main_arg10 : FVec F S5x8 .f32) (main_arg11 : FVec F S8x5 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x8 .f32 := Host.absf main_arg6
  let main_cst_6 : FVec F S_ .f32 := constant S_ .f32 0x7F800000#32
  let main_v20 : FVec F S32x8 .f32 := broadcastInDim S32x8 ![] bcast_S_S32x8 main_cst_6
  let main_v21 : IVec S32x8 1 := cmpf .olt main_v19 main_v20
  let main_c_7 : IVec S_ 1 := constantI S_ 1 1#1
  let main_v22 : IVec S_ 1 := (fun x v => Host.reduce IntOp.andi x v reducesTo_S32x8_S_d0_1 h_S_) main_v21 main_c_7
  let main_v23 : IVec S_ 1 := andi main_v18 main_v22
  let main_v24 : FVec F S8x32 .f32 := Host.absf main_arg7
  let main_cst_8 : FVec F S_ .f32 := constant S_ .f32 0x7F800000#32
  let main_v25 : FVec F S8x32 .f32 := broadcastInDim S8x32 ![] bcast_S_S8x32 main_cst_8
  let main_v26 : IVec S8x32 1 := cmpf .olt main_v24 main_v25
  let main_c_9 : IVec S_ 1 := constantI S_ 1 1#1
  let main_v27 : IVec S_ 1 := (fun x v => Host.reduce IntOp.andi x v reducesTo_S8x32_S_d0_1 h_S_) main_v26 main_c_9
  let main_v28 : IVec S_ 1 := andi main_v23 main_v27
  let main_v29 : FVec F S32x5 .f32 := Host.absf main_arg8
  let main_cst_10 : FVec F S_ .f32 := constant S_ .f32 0x7F800000#32
  let main_v30 : FVec F S32x5 .f32 := broadcastInDim S32x5 ![] bcast_S_S32x5 main_cst_10
  let main_v31 : IVec S32x5 1 := cmpf .olt main_v29 main_v30
  let main_c_11 : IVec S_ 1 := constantI S_ 1 1#1
  let main_v32 : IVec S_ 1 := (fun x v => Host.reduce IntOp.andi x v reducesTo_S32x5_S_d0_1 h_S_) main_v31 main_c_11
  let main_v33 : IVec S_ 1 := andi main_v28 main_v32
  fn_part2 (F := F) main_arg2 main_arg9 main_arg10 main_arg11 main_v33

def fn {F : FTy → Type} [FloatOps F] (main_arg0 : FVec F S50000x128 .f32) (main_arg1 : IVec S2x1600000 32) (main_arg2 : IVec S50000 32) (main_arg3 : FVec F S3x4096 .f32) (main_arg4 : FVec F S4224x32 .f32) (main_arg5 : FVec F S32 .f32) (main_arg6 : FVec F S32x8 .f32) (main_arg7 : FVec F S8x32 .f32) (main_arg8 : FVec F S32x5 .f32) (main_arg9 : FVec F S5 .f32) (main_arg10 : FVec F S5x8 .f32) (main_arg11 : FVec F S8x5 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x4096 .f32 := Host.absf main_arg3
  let main_cst_0 : FVec F S_ .f32 := constant S_ .f32 0x7F800000#32
  let main_v5 : FVec F S3x4096 .f32 := broadcastInDim S3x4096 ![] bcast_S_S3x4096 main_cst_0
  let main_v6 : IVec S3x4096 1 := cmpf .olt main_v4 main_v5
  let main_c_1 : IVec S_ 1 := constantI S_ 1 1#1
  let main_v7 : IVec S_ 1 := (fun x v => Host.reduce IntOp.andi x v reducesTo_S3x4096_S_d0_1 h_S_) main_v6 main_c_1
  let main_v8 : IVec S_ 1 := andi main_v3 main_v7
  let main_v9 : FVec F S4224x32 .f32 := Host.absf main_arg4
  let main_cst_2 : FVec F S_ .f32 := constant S_ .f32 0x7F800000#32
  let main_v10 : FVec F S4224x32 .f32 := broadcastInDim S4224x32 ![] bcast_S_S4224x32 main_cst_2
  let main_v11 : IVec S4224x32 1 := cmpf .olt main_v9 main_v10
  let main_c_3 : IVec S_ 1 := constantI S_ 1 1#1
  let main_v12 : IVec S_ 1 := (fun x v => Host.reduce IntOp.andi x v reducesTo_S4224x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg2 main_arg6 main_arg7 main_arg8 main_arg9 main_arg10 main_arg11 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S3x4096 : Shape := ⟨2, ![3, 4096]⟩
abbrev S4224x32 : Shape := ⟨2, ![4224, 32]⟩
abbrev S32 : Shape := ⟨1, ![32]⟩
abbrev S32x8 : Shape := ⟨2, ![32, 8]⟩
abbrev S8x32 : Shape := ⟨2, ![8, 32]⟩
abbrev S32x5 : Shape := ⟨2, ![32, 5]⟩
abbrev S5 : Shape := ⟨1, ![5]⟩
abbrev S5x8 : Shape := ⟨2, ![5, 8]⟩
abbrev S8x5 : Shape := ⟨2, ![8, 5]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S176 : Shape := ⟨1, ![176]⟩
abbrev S50176 : Shape := ⟨1, ![50176]⟩
abbrev S50176x1 : Shape := ⟨2, ![50176, 1]⟩
abbrev S50176x128 : Shape := ⟨2, ![50176, 128]⟩
abbrev S4096x32 : Shape := ⟨2, ![4096, 32]⟩
abbrev S128x32 : Shape := ⟨2, ![128, 32]⟩
abbrev S3x32 : Shape := ⟨2, ![3, 32]⟩
abbrev S1x32 : Shape := ⟨2, ![1, 32]⟩
abbrev S1x5 : Shape := ⟨2, ![1, 5]⟩
abbrev S50176x32 : Shape := ⟨2, ![50176, 32]⟩
abbrev S1024x128 : Shape := ⟨2, ![1024, 128]⟩
abbrev S1024x1 : Shape := ⟨2, ![1024, 1]⟩
abbrev S1024x32 : Shape := ⟨2, ![1024, 32]⟩
abbrev S1024x3 : Shape := ⟨2, ![1024, 3]⟩
abbrev S50000x32 : Shape := ⟨2, ![50000, 32]⟩
abbrev S1600000x32 : Shape := ⟨2, ![1600000, 32]⟩
abbrev S176x32 : Shape := ⟨2, ![176, 32]⟩
abbrev S50176x5 : Shape := ⟨2, ![50176, 5]⟩
abbrev S1024x5 : Shape := ⟨2, ![1024, 5]⟩
abbrev S1024x8 : Shape := ⟨2, ![1024, 8]⟩
abbrev S50000x5 : Shape := ⟨2, ![50000, 5]⟩
abbrev S1600000x5 : Shape := ⟨2, ![1600000, 5]⟩
abbrev S176x5 : Shape := ⟨2, ![176, 5]⟩
abbrev S1024 : Shape := ⟨1, ![1024]⟩

abbrev nBuf : Space → Nat
  | .hbm => 80
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S3x4096, .f32⟩
  | .hbm, ⟨4, _⟩ => ⟨S4224x32, .f32⟩
  | .hbm, ⟨5, _⟩ => ⟨S32, .f32⟩
  | .hbm, ⟨6, _⟩ => ⟨S32x8, .f32⟩
  | .hbm, ⟨7, _⟩ => ⟨S8x32, .f32⟩
  | .hbm, ⟨8, _⟩ => ⟨S32x5, .f32⟩
  | .hbm, ⟨9, _⟩ => ⟨S5, .f32⟩
  | .hbm, ⟨10, _⟩ => ⟨S5x8, .f32⟩
  | .hbm, ⟨11, _⟩ => ⟨S8x5, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S50000, .f32⟩
  | .hbm, ⟨20, _⟩ => ⟨S1600000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S176, .f32⟩
  | .hbm, ⟨28, _⟩ => ⟨S50176, .f32⟩
  | .hbm, ⟨29, _⟩ => ⟨S50176x1, .f32⟩
  | .hbm, ⟨30, _⟩ => ⟨S_, .i32⟩
  | .hbm, ⟨31, _⟩ => ⟨S_, .f32⟩
  | .hbm, ⟨32, _⟩ => ⟨S50176x128, .f32⟩
  | .hbm, ⟨33, _⟩ => ⟨S_, .i32⟩
  | .hbm, ⟨34, _⟩ => ⟨S_, .i32⟩
  | .hbm, ⟨35, _⟩ => ⟨S50176, .i32⟩
  | .hbm, ⟨36, _⟩ => ⟨S50176x1, .i32⟩
  | .hbm, ⟨37, _⟩ => ⟨S4096x32, .f32⟩
  | .hbm, ⟨38, _⟩ => ⟨S128x32, .f32⟩
  | .hbm, ⟨39, _⟩ => ⟨S3x32, .f32⟩
  | .hbm, ⟨40, _⟩ => ⟨S1x32, .f32⟩
  | .hbm, ⟨41, _⟩ => ⟨S1x5, .f32⟩
  | .hbm, ⟨42, _⟩ => ⟨S50176x32, .f32⟩
  | .hbm, ⟨43, _⟩ => ⟨S50000x32, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x32, .f32⟩
  | .hbm, ⟨53, _⟩ => ⟨S_, .f32⟩
  | .hbm, ⟨54, _⟩ => ⟨S50000x32, .f32⟩
  | .hbm, ⟨55, _⟩ => ⟨S1600000x1, .i32⟩
  | .hbm, ⟨56, _⟩ => ⟨S50000x32, .f32⟩
  | .hbm, ⟨57, _⟩ => ⟨S_, .f32⟩
  | .hbm, ⟨58, _⟩ => ⟨S176x32, .f32⟩
  | .hbm, ⟨59, _⟩ => ⟨S50176x32, .f32⟩
  | .hbm, ⟨60, _⟩ => ⟨S50176x5, .f32⟩
  | .hbm, ⟨61, _⟩ => ⟨S50000x5, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x5, .f32⟩
  | .hbm, ⟨71, _⟩ => ⟨S_, .f32⟩
  | .hbm, ⟨72, _⟩ => ⟨S50000x5, .f32⟩
  | .hbm, ⟨73, _⟩ => ⟨S1600000x1, .i32⟩
  | .hbm, ⟨74, _⟩ => ⟨S50000x5, .f32⟩
  | .hbm, ⟨75, _⟩ => ⟨S_, .f32⟩
  | .hbm, ⟨76, _⟩ => ⟨S176x5, .f32⟩
  | .hbm, ⟨77, _⟩ => ⟨S50176x5, .f32⟩
  | .hbm, ⟨78, _⟩ => ⟨S50176x5, .f32⟩
  | .hbm, ⟨79, _⟩ => ⟨S50000x5, .f32⟩
  | .local _ .vmem, ⟨0, _⟩ => ⟨S1024x128, .f32⟩
  | .local _ .vmem, ⟨1, _⟩ => ⟨S1024x128, .f32⟩
  | .local _ .vmem, ⟨2, _⟩ => ⟨S1024x1, .i32⟩
  | .local _ .vmem, ⟨3, _⟩ => ⟨S1024x1, .i32⟩
  | .local _ .vmem, ⟨4, _⟩ => ⟨S1024x1, .f32⟩
  | .local _ .vmem, ⟨5, _⟩ => ⟨S1024x1, .f32⟩
  | .local _ .vmem, ⟨6, _⟩ => ⟨S3x32, .f32⟩
  | .local _ .vmem, ⟨7, _⟩ => ⟨S128x32, .f32⟩
  | .local _ .vmem, ⟨8, _⟩ => ⟨S1024x32, .f32⟩
  | .local _ .vmem, ⟨9, _⟩ => ⟨S1024x32, .f32⟩
  | .local _ .vmem, ⟨10, _⟩ => ⟨S1024x32, .f32⟩
  | .local _ .vmem, ⟨11, _⟩ => ⟨S1024x32, .f32⟩
  | .local _ .vmem, ⟨12, _⟩ => ⟨S1024x32, .f32⟩
  | .local _ .vmem, ⟨13, _⟩ => ⟨S1024x32, .f32⟩
  | .local _ .vmem, ⟨14, _⟩ => ⟨S1024x1, .f32⟩
  | .local _ .vmem, ⟨15, _⟩ => ⟨S1024x1, .f32⟩
  | .local _ .vmem, ⟨16, _⟩ => ⟨S1x32, .f32⟩
  | .local _ .vmem, ⟨17, _⟩ => ⟨S32x8, .f32⟩
  | .local _ .vmem, ⟨18, _⟩ => ⟨S8x32, .f32⟩
  | .local _ .vmem, ⟨19, _⟩ => ⟨S32x5, .f32⟩
  | .local _ .vmem, ⟨20, _⟩ => ⟨S1024x5, .f32⟩
  | .local _ .vmem, ⟨21, _⟩ => ⟨S1024x5, .f32⟩
  | .local _ .vmem, ⟨22, _⟩ => ⟨S1024x5, .f32⟩
  | .local _ .vmem, ⟨23, _⟩ => ⟨S1024x5, .f32⟩
  | .local _ .vmem, ⟨24, _⟩ => ⟨S1024x5, .f32⟩
  | .local _ .vmem, ⟨25, _⟩ => ⟨S1024x5, .f32⟩
  | .local _ .vmem, ⟨26, _⟩ => ⟨S1024x1, .f32⟩
  | .local _ .vmem, ⟨27, _⟩ => ⟨S1024x1, .f32⟩
  | .local _ .vmem, ⟨28, _⟩ => ⟨S1x5, .f32⟩
  | .local _ .vmem, ⟨29, _⟩ => ⟨S5x8, .f32⟩
  | .local _ .vmem, ⟨30, _⟩ => ⟨S8x5, .f32⟩
  | .local _ .vmem, ⟨31, _⟩ => ⟨S1024x5, .f32⟩
  | .local _ .vmem, ⟨32, _⟩ => ⟨S1024x5, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_call0_v0 : Ref sig .tc := ⟨.hbm, 31, rfl⟩
abbrev main_v14 : Ref sig .tc := ⟨.hbm, 32, rfl⟩
abbrev main_c_3 : Ref sig .tc := ⟨.hbm, 33, rfl⟩
abbrev main_call1_v0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_c_8 : Ref sig .tc := ⟨.hbm, 62, rfl⟩
abbrev main_v38 : Ref sig .tc := ⟨.hbm, 63, rfl⟩
abbrev main_v39 : Ref sig .tc := ⟨.hbm, 64, rfl⟩
abbrev main_c_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x5 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x5 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x5 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x5 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x5 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S5x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x5 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1024x5 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S176 : S_.BroadcastsInDim S176 (![] : Fin 0 → Fin S176.rank)
  concatenates_S50000_S176_S50176_d0 : Shape.Concatenates [S50000, S176] S50176 0
  shapeCasts_S50176_S50176x1 : S50176.ShapeCasts S50176x1
  pads_S50000x128_S50176x128_01760_000 : S50000x128.Pads (![0, 0] : Fin 2 → Nat) ![176, 0] ![0, 0] S50176x128
  h_S_ : 0 < S_.numel
  pads_S50000_S50176_01760 : S50000.Pads (![0] : Fin 1 → Nat) ![176] ![0] S50176
  slices_S4224x32_S4096x32_0_0 : S4224x32.Slices ![0, 0] S4096x32
  slices_S4224x32_S128x32_4096_0 : S4224x32.Slices ![4096, 0] S128x32
  shapeCasts_S32_S1x32 : S32.ShapeCasts S1x32
  shapeCasts_S5_S1x5 : S5.ShapeCasts S1x5
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x3_d1_w32 : S1024x3.Iotas .tc 32 [1]
  broadcasts_S1024x1_S1024x3 : S1024x1.Broadcasts S1024x3
  natLt_1_32 : 1 < 32
  inb_S3x32_S3x32_0_0 : ∀ a, (![0, 0] : Fin 2 → Nat) a + S3x32.size a ≤ S3x32.size a
  h_S3x32 : 0 < S3x32.numel
  shapeCasts_S3x32_S3x32 : S3x32.ShapeCasts S3x32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  iota_S1024x1_d0_w32 : S1024x1.Iotas .tc 32 [0]
  broadcasts_S1024x1_S1024x32 : S1024x1.Broadcasts S1024x32
  inb_S1024x32_S1024x32_0_0 : ∀ a, (![0, 0] : Fin 2 → Nat) a + S1024x32.size a ≤ S1024x32.size a
  h_S1024x32 : 0 < S1024x32.numel
  slices_S50176x32_S50000x32_0_0 : S50176x32.Slices ![0, 0] S50000x32
  bcast_S_S50000x32 : S_.BroadcastsInDim S50000x32 (![] : Fin 0 → Fin S50000x32.rank)
  bcast_S_S176x32 : S_.BroadcastsInDim S176x32 (![] : Fin 0 → Fin S176x32.rank)
  concatenates_S50000x32_S176x32_S50176x32_d0 : Shape.Concatenates [S50000x32, S176x32] S50176x32 0
  shapeCasts_S1024x32_S1024x32 : S1024x32.ShapeCasts S1024x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x8_S32x8_0_0 : ∀ a, (![0, 0] : Fin 2 → Nat) a + S32x8.size a ≤ S32x8.size a
  h_S32x8 : 0 < S32x8.numel
  inb_S8x32_S8x32_0_0 : ∀ a, (![0, 0] : Fin 2 → Nat) a + S8x32.size a ≤ S8x32.size a
  h_S8x32 : 0 < S8x32.numel
  inb_S32x5_S32x5_0_0 : ∀ a, (![0, 0] : Fin 2 → Nat) a + S32x5.size a ≤ S32x5.size a
  h_S32x5 : 0 < S32x5.numel
  broadcasts_S1024x1_S1024x5 : S1024x1.Broadcasts S1024x5
  inb_S1024x5_S1024x5_0_0 : ∀ a, (![0, 0] : Fin 2 → Nat) a + S1024x5.size a ≤ S1024x5.size a
  h_S1024x5 : 0 < S1024x5.numel
  slices_S50176x5_S50000x5_0_0 : S50176x5.Slices ![0, 0] S50000x5
  bcast_S_S50000x5 : S_.BroadcastsInDim S50000x5 (![] : Fin 0 → Fin S50000x5.rank)
  bcast_S_S176x5 : S_.BroadcastsInDim S176x5 (![] : Fin 0 → Fin S176x5.rank)
  concatenates_S50000x5_S176x5_S50176x5_d0 : Shape.Concatenates [S50000x5, S176x5] S50176x5 0
  shapeCasts_S1024x5_S1024x5 : S1024x5.ShapeCasts S1024x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S1024x5 : S1x5.Broadcasts S1024x5
  inb_S5x8_S5x8_0_0 : ∀ a, (![0, 0] : Fin 2 → Nat) a + S5x8.size a ≤ S5x8.size a
  h_S5x8 : 0 < S5x8.numel
  inb_S8x5_S8x5_0_0 : ∀ a, (![0, 0] : Fin 2 → Nat) a + S8x5.size a ≤ S8x5.size a
  h_S8x5 : 0 < S8x5.numel
  reduces_S1024x5_S1024 : S1024x5.Reduces [1] S1024
  shapeCasts_S1024_S1024x1 : S1024.ShapeCasts S1024x1
  scatter_S50000_S1600000x1_S1600000_n_0_0_1_wf : ScatterDims.WF S50000 S1600000x1 S1600000 [] [0] [0] 1
  dot_S3x4096_S4096x32_S3x32_1_0_0_1_n_n_wf : DotDims.WF S3x4096 S4096x32 S3x32 [1] [0] [0] [1] [] []
  dot_S1024x3_S3x32_S1024x32_1_0_0_1_n_n_wf : DotDims.WF S1024x3 S3x32 S1024x32 [1] [0] [0] [1] [] []
  dot_S1024x128_S128x32_S1024x32_1_0_0_1_n_n_wf : DotDims.WF S1024x128 S128x32 S1024x32 [1] [0] [0] [1] [] []
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S1024x32_S32x8_S1024x8_1_0_0_1_n_n_wf : DotDims.WF S1024x32 S32x8 S1024x8 [1] [0] [0] [1] [] []
  dot_S1024x8_S8x32_S1024x32_1_0_0_1_n_n_wf : DotDims.WF S1024x8 S8x32 S1024x32 [1] [0] [0] [1] [] []
  dot_S1024x32_S32x5_S1024x5_1_0_0_1_n_n_wf : DotDims.WF S1024x32 S32x5 S1024x5 [1] [0] [0] [1] [] []
  gather_S50000x5_S1600000x1_S1600000x5_1_0_n_n_0_1_15_wf : GatherDims.WF S50000x5 S1600000x1 S1600000x5 [1] [0] [] [0] [] 1 ![1, 5]
  scatter_S50000x5_S1600000x1_S1600000x5_1_0_0_1_wf : ScatterDims.WF S50000x5 S1600000x1 S1600000x5 [1] [0] [0] 1
  dot_S1024x5_S5x8_S1024x8_1_0_0_1_n_n_wf : DotDims.WF S1024x5 S5x8 S1024x8 [1] [0] [0] [1] [] []
  dot_S1024x8_S8x5_S1024x5_1_0_0_1_n_n_wf : DotDims.WF S1024x8 S8x5 S1024x5 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S50176x128.size a
  hwx0_0 : ∀ i : grid0.Coords, EltTy.bits .f32 = 32 ∨ (Rect.block (s := S50176x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S50176x1.size a
  hwx0_1 : ∀ i : grid0.Coords, EltTy.bits .i32 = 32 ∨ (Rect.block (s := S50176x1) S1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S50176x1.size a
  hwx0_2 : ∀ i : grid0.Coords, EltTy.bits .f32 = 32 ∨ (Rect.block (s := S50176x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x32.size a ≤ S3x32.size a
  hwx0_3 : ∀ i : grid0.Coords, EltTy.bits .f32 = 32 ∨ (Rect.block (s := S3x32) S3x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x32.size a ≤ S50176x32.size a
  hwx0_5 : ∀ i : grid0.Coords, EltTy.bits .f32 = 32 ∨ (Rect.block (s := S50176x32) S1024x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x32.size a ≤ S50176x32.size a
  hwx1_0 : ∀ i : grid1.Coords, EltTy.bits .f32 = 32 ∨ (Rect.block (s := S50176x32) S1024x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x32.size a ≤ S50176x32.size a
  hwx1_1 : ∀ i : grid1.Coords, EltTy.bits .f32 = 32 ∨ (Rect.block (s := S50176x32) S1024x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S50176x1.size a
  hwx1_2 : ∀ i : grid1.Coords, EltTy.bits .f32 = 32 ∨ (Rect.block (s := S50176x1) S1024x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x8.size a ≤ S32x8.size a
  hwx1_4 : ∀ i : grid1.Coords, EltTy.bits .f32 = 32 ∨ (Rect.block (s := S32x8) S32x8.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x32.size a ≤ S8x32.size a
  hwx1_5 : ∀ i : grid1.Coords, EltTy.bits .f32 = 32 ∨ (Rect.block (s := S8x32) S8x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x5.size a ≤ S32x5.size a
  hwx1_6 : ∀ i : grid1.Coords, EltTy.bits .f32 = 32 ∨ (Rect.block (s := S32x5) S32x5.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x5.size a ≤ S50176x5.size a
  hwx1_7 : ∀ i : grid1.Coords, EltTy.bits .f32 = 32 ∨ (Rect.block (s := S50176x5) S1024x5.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x5.size a ≤ S50176x5.size a
  hwx2_0 : ∀ i : grid2.Coords, EltTy.bits .f32 = 32 ∨ (Rect.block (s := S50176x5) S1024x5.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x5.size a ≤ S50176x5.size a
  hwx2_1 : ∀ i : grid2.Coords, EltTy.bits .f32 = 32 ∨ (Rect.block (s := S50176x5) S1024x5.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S50176x1.size a
  hwx2_2 : ∀ i : grid2.Coords, EltTy.bits .f32 = 32 ∨ (Rect.block (s := S50176x1) S1024x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x5.size a ≤ S1x5.size a
  hwx2_3 : ∀ i : grid2.Coords, EltTy.bits .f32 = 32 ∨ (Rect.block (s := S1x5) S1x5.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S5x8.size a ≤ S5x8.size a
  hwx2_4 : ∀ i : grid2.Coords, EltTy.bits .f32 = 32 ∨ (Rect.block (s := S5x8) S5x8.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S8x5.size a ≤ S8x5.size a
  hwx2_5 : ∀ i : grid2.Coords, EltTy.bits .f32 = 32 ∨ (Rect.block (s := S8x5) S8x5.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x5.size a ≤ S50176x5.size a
  hwx2_6 : ∀ i : grid2.Coords, EltTy.bits .f32 = 32 ∨ (Rect.block (s := S50176x5) S1024x5.size (cc2_transform_6 i) (hinb2_6 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S3x4096_S4096x32_S3x32_1_0_0_1_n_n : DotDims S3x4096 S4096x32 S3x32 where
  lhsContracting := [1]
  rhsContracting := [0]
  lhsNonContracting := [0]
  rhsNonContracting := [1]
  lhsBatch := []
  rhsBatch := []
  wf := dot_S3x4096_S4096x32_S3x32_1_0_0_1_n_n_wf
def dot_S1024x3_S3x32_S1024x32_1_0_0_1_n_n : DotDims S1024x3 S3x32 S1024x32 where
  lhsContracting := [1]
  rhsContracting := [0]
  lhsNonContracting := [0]
  rhsNonContracting := [1]
  lhsBatch := []
  rhsBatch := []
  wf := dot_S1024x3_S3x32_S1024x32_1_0_0_1_n_n_wf
def dot_S1024x128_S128x32_S1024x32_1_0_0_1_n_n : DotDims S1024x128 S128x32 S1024x32 where
  lhsContracting := [1]
  rhsContracting := [0]
  lhsNonContracting := [0]
  rhsNonContracting := [1]
  lhsBatch := []
  rhsBatch := []
  wf := dot_S1024x128_S128x32_S1024x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S1024x32_S32x8_S1024x8_1_0_0_1_n_n : DotDims S1024x32 S32x8 S1024x8 where
  lhsContracting := [1]
  rhsContracting := [0]
  lhsNonContracting := [0]
  rhsNonContracting := [1]
  lhsBatch := []
  rhsBatch := []
  wf := dot_S1024x32_S32x8_S1024x8_1_0_0_1_n_n_wf
def dot_S1024x8_S8x32_S1024x32_1_0_0_1_n_n : DotDims S1024x8 S8x32 S1024x32 where
  lhsContracting := [1]
  rhsContracting := [0]
  lhsNonContracting := [0]
  rhsNonContracting := [1]
  lhsBatch := []
  rhsBatch := []
  wf := dot_S1024x8_S8x32_S1024x32_1_0_0_1_n_n_wf
def dot_S1024x32_S32x5_S1024x5_1_0_0_1_n_n : DotDims S1024x32 S32x5 S1024x5 where
  lhsContracting := [1]
  rhsContracting := [0]
  lhsNonContracting := [0]
  rhsNonContracting := [1]
  lhsBatch := []
  rhsBatch := []
  wf := dot_S1024x32_S32x5_S1024x5_1_0_0_1_n_n_wf
def gather_S50000x5_S1600000x1_S1600000x5_1_0_n_n_0_1_15 : GatherDims S50000x5 S1600000x1 S1600000x5 where
  offsetDims := [1]
  collapsedSliceDims := [0]
  operandBatchingDims := []
  startIndicesBatchingDims := []
  startIndexMap := [0]
  indexVectorDim := 1
  sliceSizes := ![1, 5]
  wf := gather_S50000x5_S1600000x1_S1600000x5_1_0_n_n_0_1_15_wf
def scatter_S50000x5_S1600000x1_S1600000x5_1_0_0_1 : ScatterDims S50000x5 S1600000x1 S1600000x5 where
  updateWindowDims := [1]
  insertedWindowDims := [0]
  scatterDimsToOperandDims := [0]
  indexVectorDim := 1
  wf := scatter_S50000x5_S1600000x1_S1600000x5_1_0_0_1_wf
def dot_S1024x5_S5x8_S1024x8_1_0_0_1_n_n : DotDims S1024x5 S5x8 S1024x8 where
  lhsContracting := [1]
  rhsContracting := [0]
  lhsNonContracting := [0]
  rhsNonContracting := [1]
  lhsBatch := []
  rhsBatch := []
  wf := dot_S1024x5_S5x8_S1024x8_1_0_0_1_n_n_wf
def dot_S1024x8_S8x5_S1024x5_1_0_0_1_n_n : DotDims S1024x8 S8x5 S1024x5 where
  lhsContracting := [1]
  rhsContracting := [0]
  lhsNonContracting := [0]
  rhsNonContracting := [1]
  lhsBatch := []
  rhsBatch := []
  wf := dot_S1024x8_S8x5_S1024x5_1_0_0_1_n_n_wf

abbrev win0_0 : Pipeline.Window sig grid0 :=
  Pipeline.Window.ofSpec (Memref.whole main_v14) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S3x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1024x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S1024x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S1024x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S32x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S8x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S32x5.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1024x5.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v36) S1024x5.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1024x5.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1024x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x5.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S5x8.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S8x5.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S1024x5.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S3x4096 : Shape := ⟨2, ![3, 4096]⟩
abbrev S4224x32 : Shape := ⟨2, ![4224, 32]⟩
abbrev S32 : Shape := ⟨1, ![32]⟩
abbrev S32x8 : Shape := ⟨2, ![32, 8]⟩
abbrev S8x32 : Shape := ⟨2, ![8, 32]⟩
abbrev S32x5 : Shape := ⟨2, ![32, 5]⟩
abbrev S5 : Shape := ⟨1, ![5]⟩
abbrev S5x8 : Shape := ⟨2, ![5, 8]⟩
abbrev S8x5 : Shape := ⟨2, ![8, 5]⟩
abbrev S1x1600000 : Shape := ⟨2, ![1, 1600000]⟩
abbrev S1600000 : Shape := ⟨1, ![1600000]⟩
abbrev S_ : Shape := ⟨0, ![]⟩
abbrev S50000x1 : Shape := ⟨2, ![50000, 1]⟩
abbrev S50000x4096 : Shape := ⟨2, ![50000, 4096]⟩
abbrev S50000x4224 : Shape := ⟨2, ![50000, 4224]⟩
abbrev S50000x32 : Shape := ⟨2, ![50000, 32]⟩
abbrev S1600000x1 : Shape := ⟨2, ![1600000, 1]⟩
abbrev S1600000x32 : Shape := ⟨2, ![1600000, 32]⟩
abbrev S1x32 : Shape := ⟨2, ![1, 32]⟩
abbrev S50000x8 : Shape := ⟨2, ![50000, 8]⟩
abbrev S50000x5 : Shape := ⟨2, ![50000, 5]⟩
abbrev S1600000x5 : Shape := ⟨2, ![1600000, 5]⟩
abbrev S1x5 : Shape := ⟨2, ![1, 5]⟩

abbrev nBuf : Space → Nat
  | .hbm => 162
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S3x4096, .f32⟩
  | 4 => ⟨S4224x32, .f32⟩
  | 5 => ⟨S32, .f32⟩
  | 6 => ⟨S32x8, .f32⟩
  | 7 => ⟨S8x32, .f32⟩
  | 8 => ⟨S32x5, .f32⟩
  | 9 => ⟨S5, .f32⟩
  | 10 => ⟨S5x8, .f32⟩
  | 11 => ⟨S8x5, .f32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S50000, .i32⟩
  | 18 => ⟨S50000, .i1⟩
  | 19 => ⟨S_, .i32⟩
  | 20 => ⟨S50000, .i32⟩
  | 21 => ⟨S50000, .i32⟩
  | 22 => ⟨S50000, .i32⟩
  | 23 => ⟨S50000x1, .i32⟩
  | 24 => ⟨S50000x4096, .f32⟩
  | 25 => ⟨S50000x4224, .f32⟩
  | 26 => ⟨S50000x32, .f32⟩
  | 27 => ⟨S_, .f32⟩
  | 28 => ⟨S1600000, .f32⟩
  | 29 => ⟨S_, .f32⟩
  | 30 => ⟨S50000, .f32⟩
  | 31 => ⟨S1600000x1, .i32⟩
  | 32 => ⟨S50000, .f32⟩
  | 33 => ⟨S_, .f32⟩
  | 34 => ⟨S50000, .f32⟩
  | 35 => ⟨S50000, .f32⟩
  | 36 => ⟨S50000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .f32⟩
  | 56 => ⟨S1600000x1, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x32, .f32⟩
  | 66 => ⟨S1600000x32, .f32⟩
  | 67 => ⟨S1600000x32, .f32⟩
  | 68 => ⟨S_, .f32⟩
  | 69 => ⟨S50000x32, .f32⟩
  | 70 => ⟨S1600000x1, .i32⟩
  | 71 => ⟨S50000x32, .f32⟩
  | 72 => ⟨S50000, .f32⟩
  | 73 => ⟨S50000x1, .f32⟩
  | 74 => ⟨S50000x32, .f32⟩
  | 75 => ⟨S50000x32, .f32⟩
  | 76 => ⟨S50000x32, .f32⟩
  | 77 => ⟨S1x32, .f32⟩
  | 78 => ⟨S50000x32, .f32⟩
  | 79 => ⟨S50000x32, .f32⟩
  | 80 => ⟨S50000x8, .f32⟩
  | 81 => ⟨S50000x32, .f32⟩
  | 82 => ⟨S_, .f32⟩
  | 83 => ⟨S50000x32, .f32⟩
  | 84 => ⟨S50000x32, .f32⟩
  | 85 => ⟨S_, .f32⟩
  | 86 => ⟨S50000x32, .f32⟩
  | 87 => ⟨S50000x32, .f32⟩
  | 88 => ⟨S50000x5, .f32⟩
  | 89 => ⟨S_, .f32⟩
  | 90 => ⟨S1600000, .f32⟩
  | 91 => ⟨S_, .f32⟩
  | 92 => ⟨S50000, .f32⟩
  | 93 => ⟨S1600000x1, .i32⟩
  | 94 => ⟨S50000, .f32⟩
  | 95 => ⟨S_, .f32⟩
  | 96 => ⟨S50000, .f32⟩
  | 97 => ⟨S50000, .f32⟩
  | 98 => ⟨S50000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000, .f32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000, .f32⟩
  | 117 => ⟨S1600000, .f32⟩
  | 118 => ⟨S1600000x1, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x5, .f32⟩
  | _ => ⟨S50000x128, .f32⟩

abbrev hbmTy0_1 (i : Nat) : BufTy := match i % 128 with
  | 0 => ⟨S1600000x5, .f32⟩
  | 1 => ⟨S1600000x5, .f32⟩
  | 2 => ⟨S_, .f32⟩
  | 3 => ⟨S50000x5, .f32⟩
  | 4 => ⟨S1600000x1, .i32⟩
  | 5 => ⟨S50000x5, .f32⟩
  | 6 => ⟨S50000, .f32⟩
  | 7 => ⟨S50000x1, .f32⟩
  | 8 => ⟨S50000x5, .f32⟩
  | 9 => ⟨S50000x5, .f32⟩
  | 10 => ⟨S50000x5, .f32⟩
  | 11 => ⟨S1x5, .f32⟩
  | 12 => ⟨S50000x5, .f32⟩
  | 13 => ⟨S50000x5, .f32⟩
  | 14 => ⟨S50000x8, .f32⟩
  | 15 => ⟨S50000x5, .f32⟩
  | 16 => ⟨S_, .f32⟩
  | 17 => ⟨S50000x5, .f32⟩
  | 18 => ⟨S50000x5, .f32⟩
  | 19 => ⟨S_, .f32⟩
  | 20 => ⟨S50000, .f32⟩
  | 21 => ⟨S_, .f32⟩
  | 22 => ⟨S50000, .f32⟩
  | 23 => ⟨S50000, .f32⟩
  | 24 => ⟨S50000x1, .f32⟩
  | 25 => ⟨S50000x5, .f32⟩
  | 26 => ⟨S50000x5, .f32⟩
  | 27 => ⟨S50000x5, .f32⟩
  | 28 => ⟨S_, .f32⟩
  | 29 => ⟨S50000, .f32⟩
  | 30 => ⟨S50000x1, .f32⟩
  | 31 => ⟨S50000x1, .f32⟩
  | 32 => ⟨S50000x5, .f32⟩
  | 33 => ⟨S50000x5, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_call0_cst : Ref sig .tc := ⟨.hbm, 85, rfl⟩
abbrev main_call0_v0 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_14 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_16 : Ref sig .tc := ⟨.hbm, 108, rfl⟩
abbrev main_v76 : Ref sig .tc := ⟨.hbm, 109, rfl⟩
abbrev main_v77 : Ref sig .tc := ⟨.hbm, 110, rfl⟩
abbrev main_c_17 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_18 : Ref sig .tc := ⟨.hbm, 119, rfl⟩
abbrev main_v85 : Ref sig .tc := ⟨.hbm, 120, rfl⟩
abbrev main_v86 : Ref sig .tc := ⟨.hbm, 121, rfl⟩
abbrev main_c_19 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_20 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_21 : Ref sig .tc := ⟨.hbm, 144, rfl⟩
abbrev main_v107 : Ref sig .tc := ⟨.hbm, 145, rfl⟩
abbrev main_v108 : Ref sig .tc := ⟨.hbm, 146, rfl⟩
abbrev main_call1_cst : Ref sig .tc := ⟨.hbm, 147, rfl⟩
abbrev main_call1_v0 : Ref sig .tc := ⟨.hbm, 148, rfl⟩
abbrev main_call1_cst_0 : Ref sig .tc := ⟨.hbm, 149, rfl⟩
abbrev main_call1_v1 : Ref sig .tc := ⟨.hbm, 150, rfl⟩
abbrev main_call1_v2 : Ref sig .tc := ⟨.hbm, 151, rfl⟩
abbrev main_call1_v3 : Ref sig .tc := ⟨.hbm, 152, rfl⟩
abbrev main_call1_v4 : Ref sig .tc := ⟨.hbm, 153, rfl⟩
abbrev main_call1_v5 : Ref sig .tc := ⟨.hbm, 154, rfl⟩
abbrev main_call1_v6 : Ref sig .tc := ⟨.hbm, 155, rfl⟩
abbrev main_call1_cst_1 : Ref sig .tc := ⟨.hbm, 156, rfl⟩
abbrev main_call1_v7 : Ref sig .tc := ⟨.hbm, 157, rfl⟩
abbrev main_call1_v8 : Ref sig .tc := ⟨.hbm, 158, rfl⟩
abbrev main_call1_v9 : Ref sig .tc := ⟨.hbm, 159, rfl⟩
abbrev main_call1_v10 : Ref sig .tc := ⟨.hbm, 160, rfl⟩
abbrev main_v109 : Ref sig .tc := ⟨.hbm, 161, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S50000_S50000x1_0 : S50000.BroadcastsInDim S50000x1 (![0] : Fin 1 → Fin S50000x1.rank)
  concatenates_S50000x4096_S50000x128_S50000x4224_d1 : Shape.Concatenates [S50000x4096, S50000x128] S50000x4224 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S1600000x1_S1600000x5_0_1 : S1600000x1.BroadcastsInDim S1600000x5 (![0, 1] : Fin 2 → Fin S1600000x5.rank)
  bcast_S_S50000x5 : S_.BroadcastsInDim S50000x5 (![] : Fin 0 → Fin S50000x5.rank)
  bcast_S50000x1_S50000x5_0_1 : S50000x1.BroadcastsInDim S50000x5 (![0, 1] : Fin 2 → Fin S50000x5.rank)
  bcast_S5_S1x5_1 : S5.BroadcastsInDim S1x5 (![1] : Fin 1 → Fin S1x5.rank)
  bcast_S1x5_S50000x5_0_1 : S1x5.BroadcastsInDim S50000x5 (![0, 1] : Fin 2 → Fin S50000x5.rank)
  reducesTo_S50000x5_S50000_d1 : S50000x5.ReducesTo [1] S50000
  h_S_ : 0 < S_.numel
  gather_S3x4096_S50000x1_S50000x4096_1_0_n_n_0_1_14096_wf : GatherDims.WF S3x4096 S50000x1 S50000x4096 [1] [0] [] [0] [] 1 ![1, 4096]
  dot_S50000x4224_S4224x32_S50000x32_1_0_0_1_n_n_wf : DotDims.WF S50000x4224 S4224x32 S50000x32 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S50000x32_S32x8_S50000x8_1_0_0_1_n_n_wf : DotDims.WF S50000x32 S32x8 S50000x8 [1] [0] [0] [1] [] []
  dot_S50000x8_S8x32_S50000x32_1_0_0_1_n_n_wf : DotDims.WF S50000x8 S8x32 S50000x32 [1] [0] [0] [1] [] []
  dot_S50000x32_S32x5_S50000x5_1_0_0_1_n_n_wf : DotDims.WF S50000x32 S32x5 S50000x5 [1] [0] [0] [1] [] []
  gather_S50000x5_S1600000x1_S1600000x5_1_0_n_n_0_1_15_wf : GatherDims.WF S50000x5 S1600000x1 S1600000x5 [1] [0] [] [0] [] 1 ![1, 5]
  scatter_S50000x5_S1600000x1_S1600000x5_1_0_0_1_wf : ScatterDims.WF S50000x5 S1600000x1 S1600000x5 [1] [0] [0] 1
  dot_S50000x5_S5x8_S50000x8_1_0_0_1_n_n_wf : DotDims.WF S50000x5 S5x8 S50000x8 [1] [0] [0] [1] [] []
  dot_S50000x8_S8x5_S50000x5_1_0_0_1_n_n_wf : DotDims.WF S50000x8 S8x5 S50000x5 [1] [0] [0] [1] [] []

variable [Facts₀]

def gather_S3x4096_S50000x1_S50000x4096_1_0_n_n_0_1_14096 : GatherDims S3x4096 S50000x1 S50000x4096 where
  offsetDims := [1]
  collapsedSliceDims := [0]
  operandBatchingDims := []
  startIndicesBatchingDims := []
  startIndexMap := [0]
  indexVectorDim := 1
  sliceSizes := ![1, 4096]
  wf := gather_S3x4096_S50000x1_S50000x4096_1_0_n_n_0_1_14096_wf
def dot_S50000x4224_S4224x32_S50000x32_1_0_0_1_n_n : DotDims S50000x4224 S4224x32 S50000x32 where
  lhsContracting := [1]
  rhsContracting := [0]
  lhsNonContracting := [0]
  rhsNonContracting := [1]
  lhsBatch := []
  rhsBatch := []
  wf := dot_S50000x4224_S4224x32_S50000x32_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S50000x32_S32x8_S50000x8_1_0_0_1_n_n : DotDims S50000x32 S32x8 S50000x8 where
  lhsContracting := [1]
  rhsContracting := [0]
  lhsNonContracting := [0]
  rhsNonContracting := [1]
  lhsBatch := []
  rhsBatch := []
  wf := dot_S50000x32_S32x8_S50000x8_1_0_0_1_n_n_wf
def dot_S50000x8_S8x32_S50000x32_1_0_0_1_n_n : DotDims S50000x8 S8x32 S50000x32 where
  lhsContracting := [1]
  rhsContracting := [0]
  lhsNonContracting := [0]
  rhsNonContracting := [1]
  lhsBatch := []
  rhsBatch := []
  wf := dot_S50000x8_S8x32_S50000x32_1_0_0_1_n_n_wf
def dot_S50000x32_S32x5_S50000x5_1_0_0_1_n_n : DotDims S50000x32 S32x5 S50000x5 where
  lhsContracting := [1]
  rhsContracting := [0]
  lhsNonContracting := [0]
  rhsNonContracting := [1]
  lhsBatch := []
  rhsBatch := []
  wf := dot_S50000x32_S32x5_S50000x5_1_0_0_1_n_n_wf
def gather_S50000x5_S1600000x1_S1600000x5_1_0_n_n_0_1_15 : GatherDims S50000x5 S1600000x1 S1600000x5 where
  offsetDims := [1]
  collapsedSliceDims := [0]
  operandBatchingDims := []
  startIndicesBatchingDims := []
  startIndexMap := [0]
  indexVectorDim := 1
  sliceSizes := ![1, 5]
  wf := gather_S50000x5_S1600000x1_S1600000x5_1_0_n_n_0_1_15_wf
def scatter_S50000x5_S1600000x1_S1600000x5_1_0_0_1 : ScatterDims S50000x5 S1600000x1 S1600000x5 where
  updateWindowDims := [1]
  insertedWindowDims := [0]
  scatterDimsToOperandDims := [0]
  indexVectorDim := 1
  wf := scatter_S50000x5_S1600000x1_S1600000x5_1_0_0_1_wf
def dot_S50000x5_S5x8_S50000x8_1_0_0_1_n_n : DotDims S50000x5 S5x8 S50000x8 where
  lhsContracting := [1]
  rhsContracting := [0]
  lhsNonContracting := [0]
  rhsNonContracting := [1]
  lhsBatch := []
  rhsBatch := []
  wf := dot_S50000x5_S5x8_S50000x8_1_0_0_1_n_n_wf
def dot_S50000x8_S8x5_S50000x5_1_0_0_1_n_n : DotDims S50000x8 S8x5 S50000x5 where
  lhsContracting := [1]
  rhsContracting := [0]
  lhsNonContracting := [0]
  rhsNonContracting := [1]
  lhsBatch := []
  rhsBatch := []
  wf := dot_S50000x8_S8x5_S50000x5_1_0_0_1_n_n_wf

class Facts : Prop extends Facts₀ where

variable [Facts]
-- ==== Proof.Spec.lean ====
/-
  The two programs as functions of the argument arrays, entry by entry, over the extended reals.

  A graph of 50000 nodes and 1600000 directed edges (edge e goes from node src e to node dst e, both read off the
  2 × 1600000 index array). Every node has the degree deg v = (number of edges into v) + 1 and the weight
  dis v = deg v ^ (-1/2). One layer of the network takes a node table h and returns, at node v,
      Σ_{e into v} dis (src e) · dis v · h (src e)  +  dis v · dis v · h v  +  b ,
  the symmetric-normalised neighbour sum with a self loop. The first layer's table is [emb[dom v] | x v] · W1, the
  result goes through a rank-8 factorisation scaled by 1/8 and a relu into the second layer's table (· W2), and the
  second layer's result through another rank-8 factorisation into a row-wise log-softmax.

  THE REFERENCE computes exactly that (`outR`). THE KERNEL (`outK`) scales each table by dis once (hs = h · dis),
  sums the scaled rows over the incoming edges with weight one, adds the node's own scaled row and multiplies by dis v;
  and it forms emb[dom v] · W1[:4096] as a one-hot row times the 3 × 32 product emb · W1[:4096].
  An index word that names a node is read signed, wrapped by one addition of the table's height when negative, and
  clamped into the table (`node`, `row3`); an edge whose target word is not a node's number is dropped from every sum.
-/
import Idealize.ShloMosaic.Lib.ValueIdx
import Idealize.ShloMosaic.PureOps.Ideal

noncomputable section

namespace Cert.Spec

open Idealize.ShloMosaic Idealize.ShloMosaic.ValueIdx

/-- A rank-2 array of extended reals, a rank-1 one, and the same of 32-bit words. -/
abbrev Arr2 (a b : Nat) := (⟨2, ![a, b]⟩ : Shape).Idx → EReal
abbrev Arr1 (a : Nat) := (⟨1, ![a]⟩ : Shape).Idx → EReal
abbrev IArr2 (a b : Nat) := (⟨2, ![a, b]⟩ : Shape).Idx → BitVec 32
abbrev IArr1 (a : Nat) := (⟨1, ![a]⟩ : Shape).Idx → BitVec 32

/-- The float words the programs share: 1, 1/8, −∞. -/
def oneW : EReal := Ideal.ofBits .f32 0x3F800000#32
def c125 : EReal := Ideal.ofBits .f32 0x3E000000#32
def ninf : EReal := Ideal.ofBits .f32 0xFF800000#32

/-- An index word made a position in a table of height `n`: a negative word gets `n` added once. -/
def wrapI (n s : BitVec 32) : BitVec 32 := Scalar.select (IntOp.cmpi .slt s 0#32) (IntOp.addi s n) s
/-- The node an index word names: wrapped, read signed, clamped into 0 … 49999. -/
def node (s : BitVec 32) : Fin 50000 := ⟨min (wrapI 50000#32 s).toInt.toNat 49999, by omega⟩
/-- The row of the 3-row embedding table a domain word names: wrapped, read signed, clamped into 0 … 2. -/
def row3 (s : BitVec 32) : Fin 3 := ⟨min (wrapI 3#32 s).toInt.toNat 2, by omega⟩

section Graph
variable (ei : IArr2 2 1600000)

/-- Source and target words of edge `e`. -/
def src (e : Fin 1600000) : BitVec 32 := ei (ix2 (0 : Fin 2) e)
def dst (e : Fin 1600000) : BitVec 32 := ei (ix2 (1 : Fin 2) e)

/-- deg v = (the number of edges whose target word is v) + 1, and dis v = deg v ^ (−1/2). -/
def deg (v : Fin 50000) : EReal := (∑ e : Fin 1600000, if (dst ei e).toInt = (v.val : ℤ) then oneW else 0) + oneW
def dis (v : Fin 50000) : EReal := Ideal.rsqrt (deg ei v)

/-- The kernel's neighbour sum of a node table: the rows named by the sources of the edges into `v`, weight one. -/
def nbr {C : Nat} (t : Fin 50000 → Fin C → EReal) (v : Fin 50000) (j : Fin C) : EReal :=
  ∑ e : Fin 1600000, if (dst ei e).toInt = (v.val : ℤ) then t (node (src ei e)) j else 0
/-- The reference's: each row weighted by dis at the source and dis at the target. -/
def nbrR {C : Nat} (h : Fin 50000 → Fin C → EReal) (v : Fin 50000) (j : Fin C) : EReal :=
  ∑ e : Fin 1600000, if (dst ei e).toInt = (v.val : ℤ) then (dis ei (node (src ei e)) * dis ei (node (dst ei e))) * h (node (src ei e)) j else 0

/-- One layer, as the kernel computes it from the SCALED table `hs` = h · dis. -/
def aggK {C : Nat} (hs : Fin 50000 → Fin C → EReal) (b : Arr1 C) (v : Fin 50000) (j : Fin C) : EReal :=
  dis ei v * (nbr ei hs v j + hs v j) + b (ix1 j)
/-- One layer, as the reference computes it from the table `h`. -/
def aggR {C : Nat} (h : Fin 50000 → Fin C → EReal) (b : Arr1 C) (v : Fin 50000) (j : Fin C) : EReal :=
  (nbrR ei h v j + (dis ei v * dis ei v) * h v j) + b (ix1 j)
end Graph

/-- The rank-8 factorisation scaled by 1/8: ((a · A) · B) · 1/8. -/
def lora {C : Nat} (a : Fin 50000 → Fin C → EReal) (A : Arr2 C 8) (B : Arr2 8 C) (v : Fin 50000) (j : Fin C) : EReal :=
  (∑ l : Fin 8, (∑ i : Fin C, a v i * A (ix2 i l)) * B (ix2 l j)) * c125

/-- The second layer's table: relu of the factorised first layer, times W2. -/
def h2 (a : Fin 50000 → Fin 32 → EReal) (A1 : Arr2 32 8) (B1 : Arr2 8 32) (W2 : Arr2 32 5) (v : Fin 50000) (j : Fin 5) : EReal :=
  ∑ l : Fin 32, max (lora a A1 B1 v l) 0 * W2 (ix2 l j)

/-- A row's maximum, folded from −∞. -/
def rowMax (z : Fin 50000 → Fin 5 → EReal) (v : Fin 50000) : EReal :=
  (Finset.univ : Finset (Fin 5)).fold max ninf (fun k => z v k)
/-- The row-wise log-softmax shifted by `M v`. -/
def lsm (z : Fin 50000 → Fin 5 → EReal) (M : Fin 50000 → EReal) (v : Fin 50000) (j : Fin 5) : EReal :=
  (z v j - M v) - Ideal.log (∑ k : Fin 5, Ideal.exp (z v k - M v))

section Programs
variable (x : Arr2 50000 128) (ei : IArr2 2 1600000) (dom : IArr1 50000) (emb : Arr2 3 4096) (W1 : Arr2 4224 32) (b1 : Arr1 32)
  (A1 : Arr2 32 8) (B1 : Arr2 8 32) (W2 : Arr2 32 5) (b2 : Arr1 5) (A2 : Arr2 5 8) (B2 : Arr2 8 5)

/-! ### The kernel -/

/-- The one-hot row of a domain word: 1 at the column equal to the word, 0 elsewhere. -/
def oneh (w : BitVec 32) (t : Fin 3) : EReal := if w = BitVec.ofNat 32 t.val then 1 else 0
/-- emb · W1[:4096], a 3 × 32 table. -/
def embP (t : Fin 3) (j : Fin 32) : EReal := ∑ k : Fin 4096, emb (ix2 t k) * W1 (ix2 (⟨k.val, by omega⟩ : Fin 4224) j)
/-- The first table as the kernel forms it: one-hot row · embP + x · W1[4096:]. -/
def h1K (v : Fin 50000) (j : Fin 32) : EReal :=
  (∑ t : Fin 3, oneh (dom (ix1 v)) t * embP emb W1 t j) + ∑ k : Fin 128, x (ix2 v k) * W1 (ix2 (⟨4096 + k.val, by omega⟩ : Fin 4224) j)
def hs1K (v : Fin 50000) (j : Fin 32) : EReal := h1K x dom emb W1 v j * dis ei v
def hs2K (v : Fin 50000) (j : Fin 5) : EReal := h2 (aggK ei (hs1K x ei dom emb W1) b1) A1 B1 W2 v j * dis ei v
def zK (v : Fin 50000) (j : Fin 5) : EReal := lora (aggK ei (hs2K x ei dom emb W1 b1 A1 B1 W2) b2) A2 B2 v j
def outK (v : Fin 50000) (j : Fin 5) : EReal :=
  lsm (zK x ei dom emb W1 b1 A1 B1 W2 b2 A2 B2) (rowMax (zK x ei dom emb W1 b1 A1 B1 W2 b2 A2 B2)) v j

/-! ### The reference -/

/-- Row `v` of [emb[dom v] | x v], 4224 wide. -/
def cat (v : Fin 50000) (k : Fin 4224) : EReal :=
  if h : k.val < 4096 then emb (ix2 (row3 (dom (ix1 v))) (⟨k.val, h⟩ : Fin 4096)) else x (ix2 v (⟨k.val - 4096, by omega⟩ : Fin 128))
def h1R (v : Fin 50000) (j : Fin 32) : EReal := ∑ k : Fin 4224, cat x dom emb v k * W1 (ix2 k j)
def h2R (v : Fin 50000) (j : Fin 5) : EReal := h2 (aggR ei (h1R x dom emb W1) b1) A1 B1 W2 v j
def zR (v : Fin 50000) (j : Fin 5) : EReal := lora (aggR ei (h2R x ei dom emb W1 b1 A1 B1 W2) b2) A2 B2 v j
def outR (v : Fin 50000) (j : Fin 5) : EReal :=
  lsm (zR x ei dom emb W1 b1 A1 B1 W2 b2 A2 B2) (fun v => max ninf (rowMax (zR x ei dom emb W1 b1 A1 B1 W2 b2 A2 B2) v)) v j

end Programs

end Cert.Spec

end
-- ==== Proof.LibKeepdims.lean ====
/-
  Layout and reduction lemmas for rank-2 arrays read by coordinates, in the style of the library's
  `Lib/ValueLayout.lean`: the keepdims COLUMN forms (a vector cast to one column, a column broadcast
  along the rows), and a one-axis reduction of an `[a, b]` array — a kernel's `vector.multi_reduction`
  by `add` or `maximumf` over either axis, the host's one-operand `stablehlo.reduce` by `maximum`
  over the second axis — as a `Fin`-indexed sum or fold of the entries `(i, k)` / `(k, j)`.
  Program-independent: only shapes `[a]`, `[a, 1]`, `[a, b]` with the extents as variables.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    omega)

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

variable {φ : FTy}

/-- A float `multi_reduction <add>` of an `[a, b]` array over its second axis, at row `i`: the row's sum. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = ∑ k : Fin b, src (ix2 i k)
  refine Finset.sum_congr rfl fun k _ => congrArg src (funext fun ax => Fin.ext ?_)
  match ax with
  | ⟨0, _⟩ => rfl
  | ⟨1, _⟩ => rfl

/-- A float `multi_reduction <add>` of an `[a, b]` array over its first axis, at column `j`: the column's sum. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  show ∑ k : Fin a, src (h.lift (ix1 j) k) = ∑ k : Fin a, src (ix2 k j)
  refine Finset.sum_congr rfl fun k _ => congrArg src (funext fun ax => Fin.ext ?_)
  match ax with
  | ⟨0, _⟩ => rfl
  | ⟨1, _⟩ => rfl

/-- A float `multi_reduction <maximumf>` of an `[a, b]` array over its second axis, at row `i`: the fold of
    `max` from the accumulator's value over the row. -/
theorem multiReduction_max_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  show (Finset.univ : Finset (Fin b)).fold max (Ideal.ofBits φ acc) (fun k => src (h.lift (ix1 i) k)) = _
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

/-- The host's one-operand `stablehlo.reduce` by `maximum` of an `[a, b]` array over its second axis, at row
    `i`, read at the extended reals: the fold of `max` from the initial value over the row. -/
theorem hostReduce_max_rows {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩) (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  show (Finset.univ : Finset (Fin b)).fold max (init (Shape.Idx.first hu)) (fun k => x (h.lift (ix1 i) k)) = _
  refine congrArg (fun f => (Finset.univ : Finset (Fin b)).fold max (init (Shape.Idx.first hu)) f)
    (funext fun k => congrArg x (funext fun ax => Fin.ext ?_))
  match ax with
  | ⟨0, _⟩ => rfl
  | ⟨1, _⟩ => rfl

/-! ### The same at `f32` with the accumulator's word written out

At `f32` the neutral word of `add` is `0x00000000` and that of `maximumf` is `0xFF800000` (`-∞`): with the
accumulator written as that word, the evidence that it is the kind's neutral word is the word's equation with itself. -/

theorem add_rows_f32 {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ k : Fin b, src (ix2 i k) :=
  multiReduction_add_rows src _ h hφ hacc i

theorem add_cols_f32 {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (j : Fin b) :
    multiReduction .add [0] ⟨1, ![b]⟩ src 0x00000000#32 h hφ hacc (ix1 j) = ∑ k : Fin a, src (ix2 k j) :=
  multiReduction_add_cols src _ h hφ hacc j

theorem max_rows_f32 {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) :=
  multiReduction_max_rows src _ h hφ hacc i

/-- The one entry of a `[1, 1]` array, extracted at `[0, 0]`. -/
theorem extractAt_11 (x : (⟨2, ![1, 1]⟩ : Shape).Idx → α) (h : ∀ a, (![0, 0] : Fin 2 → ℕ) a < (⟨2, ![1, 1]⟩ : Shape).size a) :
    extractAt ![0, 0] x h = x (ix2 (0 : Fin 1) (0 : Fin 1)) := by
  unfold extractAt
  refine congrArg x (funext fun ax => Fin.ext ?_)
  match ax with
  | ⟨0, _⟩ => rfl
  | ⟨1, _⟩ => rfl

end Cert.Keepdims

end
-- ==== Proof.Region0.lean ====
import proofs.«421985_j63694364999884_3_alg».proof.Proof.FrameKI
import proofs.«421985_j63694364999884_3_alg».proof.Proof.Spec
import proofs.«421985_j63694364999884_3_alg».proof.Proof.LibKeepdims

set_option maxRecDepth 16384

noncomputable section

namespace Cert.KernelIdeal.R0

open Idealize.ShloMosaic Idealize.ShloMosaic.TcCoe Idealize.ShloMosaic.ValueIdx Idealize.SL.Sem
open Cert.KernelIdeal Cert.KernelIdeal.Gen Cert.KernelIdeal.GenP

/-! ### The body's arithmetic at an index -/

/-- The 1024 × 3 by 3 × 32 product's operand indices at a result index and a contracted index, axis by axis: the left
    operand is read at (row, k), the right at (k, column). -/
theorem lhsE_0 (i : S1024x32.Idx) (q : dot_S1024x3_S3x32_S1024x32_1_0_0_1_n_n.contr.Idx) :
    (dot_S1024x3_S3x32_S1024x32_1_0_0_1_n_n.lhsIdx i q 0).val = (i 0).val := by
  unfold DotDims.lhsIdx
  rw [dif_neg (show ¬(0 : Fin S1024x3.rank) ∈ dot_S1024x3_S3x32_S1024x32_1_0_0_1_n_n.lhsBatch by decide), dif_pos (show (0 : Fin S1024x3.rank) ∈ dot_S1024x3_S3x32_S1024x32_1_0_0_1_n_n.lhsNonContracting by decide)]
  rfl
theorem lhsE_1 (i : S1024x32.Idx) (q : dot_S1024x3_S3x32_S1024x32_1_0_0_1_n_n.contr.Idx) :
    (dot_S1024x3_S3x32_S1024x32_1_0_0_1_n_n.lhsIdx i q 1).val = (q ⟨0, by decide⟩).val :=
  dot_S1024x3_S3x32_S1024x32_1_0_0_1_n_n.lhsIdx_val_of_single rfl i q
theorem rhsE_0 (i : S1024x32.Idx) (q : dot_S1024x3_S3x32_S1024x32_1_0_0_1_n_n.contr.Idx) :
    (dot_S1024x3_S3x32_S1024x32_1_0_0_1_n_n.rhsIdx i q 0).val = (q ⟨0, by decide⟩).val :=
  dot_S1024x3_S3x32_S1024x32_1_0_0_1_n_n.rhsIdx_val_of_single rfl i q
theorem rhsE_1 (i : S1024x32.Idx) (q : dot_S1024x3_S3x32_S1024x32_1_0_0_1_n_n.contr.Idx) :
    (dot_S1024x3_S3x32_S1024x32_1_0_0_1_n_n.rhsIdx i q 1).val = (i 1).val := by
  unfold DotDims.rhsIdx
  rw [dif_neg (show ¬(1 : Fin S3x32.rank) ∈ dot_S1024x3_S3x32_S1024x32_1_0_0_1_n_n.rhsBatch by decide), dif_pos (show (1 : Fin S3x32.rank) ∈ dot_S1024x3_S3x32_S1024x32_1_0_0_1_n_n.rhsNonContracting by decide)]
  rfl

/-- The product into a zero accumulator, read at (r, j): the sum over the contracted axis. -/
theorem matmulE_apply (a : FVec Ideal S1024x3 .f32) (b : FVec Ideal S3x32 .f32) (r : Fin 1024) (j : Fin 32) :
    matmul dot_S1024x3_S3x32_S1024x32_1_0_0_1_n_n none a b (constant S1024x32 .f32 0x00000000#32) (ix2 r j)
      = ∑ k : Fin 3, a (ix2 r k) * b (ix2 k j) := by
  refine (Ideal.matmul_constant_zero_apply dot_S1024x3_S3x32_S1024x32_1_0_0_1_n_n none a b (ix2 r j)).trans ?_
  rw [← Equiv.sum_comp (ValueIdx.contrEquiv1 dot_S1024x3_S3x32_S1024x32_1_0_0_1_n_n 3 rfl rfl).symm]
  refine Finset.sum_congr rfl fun k _ => ?_
  have hk := ValueIdx.contrEquiv1_symm_val dot_S1024x3_S3x32_S1024x32_1_0_0_1_n_n 3 rfl rfl k
  have el : dot_S1024x3_S3x32_S1024x32_1_0_0_1_n_n.lhsIdx (ix2 r j) ((ValueIdx.contrEquiv1 dot_S1024x3_S3x32_S1024x32_1_0_0_1_n_n 3 rfl rfl).symm k) = ix2 r k := funext fun ax => Fin.ext (by
    match ax with
    | ⟨0, _⟩ => exact lhsE_0 _ _
    | ⟨1, _⟩ => exact (lhsE_1 _ _).trans hk)
  have er : dot_S1024x3_S3x32_S1024x32_1_0_0_1_n_n.rhsIdx (ix2 r j) ((ValueIdx.contrEquiv1 dot_S1024x3_S3x32_S1024x32_1_0_0_1_n_n 3 rfl rfl).symm k) = ix2 k j := funext fun ax => Fin.ext (by
    match ax with
    | ⟨0, _⟩ => exact (rhsE_0 _ _).trans hk
    | ⟨1, _⟩ => exact rhsE_1 _ _)
  rw [el, er]

/-- The same for the 1024 × 128 by 128 × 32 product. -/
theorem lhsX_0 (i : S1024x32.Idx) (q : dot_S1024x128_S128x32_S1024x32_1_0_0_1_n_n.contr.Idx) :
    (dot_S1024x128_S128x32_S1024x32_1_0_0_1_n_n.lhsIdx i q 0).val = (i 0).val := by
  unfold DotDims.lhsIdx
  rw [dif_neg (show ¬(0 : Fin S1024x128.rank) ∈ dot_S1024x128_S128x32_S1024x32_1_0_0_1_n_n.lhsBatch by decide), dif_pos (show (0 : Fin S1024x128.rank) ∈ dot_S1024x128_S128x32_S1024x32_1_0_0_1_n_n.lhsNonContracting by decide)]
  rfl
theorem lhsX_1 (i : S1024x32.Idx) (q : dot_S1024x128_S128x32_S1024x32_1_0_0_1_n_n.contr.Idx) :
    (dot_S1024x128_S128x32_S1024x32_1_0_0_1_n_n.lhsIdx i q 1).val = (q ⟨0, by decide⟩).val :=
  dot_S1024x128_S128x32_S1024x32_1_0_0_1_n_n.lhsIdx_val_of_single rfl i q
theorem rhsX_0 (i : S1024x32.Idx) (q : dot_S1024x128_S128x32_S1024x32_1_0_0_1_n_n.contr.Idx) :
    (dot_S1024x128_S128x32_S1024x32_1_0_0_1_n_n.rhsIdx i q 0).val = (q ⟨0, by decide⟩).val :=
  dot_S1024x128_S128x32_S1024x32_1_0_0_1_n_n.rhsIdx_val_of_single rfl i q
theorem rhsX_1 (i : S1024x32.Idx) (q : dot_S1024x128_S128x32_S1024x32_1_0_0_1_n_n.contr.Idx) :
    (dot_S1024x128_S128x32_S1024x32_1_0_0_1_n_n.rhsIdx i q 1).val = (i 1).val := by
  unfold DotDims.rhsIdx
  rw [dif_neg (show ¬(1 : Fin S128x32.rank) ∈ dot_S1024x128_S128x32_S1024x32_1_0_0_1_n_n.rhsBatch by decide), dif_pos (show (1 : Fin S128x32.rank) ∈ dot_S1024x128_S128x32_S1024x32_1_0_0_1_n_n.rhsNonContracting by decide)]
  rfl

/-- The product into a zero accumulator, read at (r, j): the sum over the contracted axis. -/
theorem matmulX_apply (a : FVec Ideal S1024x128 .f32) (b : FVec Ideal S128x32 .f32) (r : Fin 1024) (j : Fin 32) :
    matmul dot_S1024x128_S128x32_S1024x32_1_0_0_1_n_n none a b (constant S1024x32 .f32 0x00000000#32) (ix2 r j)
      = ∑ k : Fin 128, a (ix2 r k) * b (ix2 k j) := by
  refine (Ideal.matmul_constant_zero_apply dot_S1024x128_S128x32_S1024x32_1_0_0_1_n_n none a b (ix2 r j)).trans ?_
  rw [← Equiv.sum_comp (ValueIdx.contrEquiv1 dot_S1024x128_S128x32_S1024x32_1_0_0_1_n_n 128 rfl rfl).symm]
  refine Finset.sum_congr rfl fun k _ => ?_
  have hk := ValueIdx.contrEquiv1_symm_val dot_S1024x128_S128x32_S1024x32_1_0_0_1_n_n 128 rfl rfl k
  have el : dot_S1024x128_S128x32_S1024x32_1_0_0_1_n_n.lhsIdx (ix2 r j) ((ValueIdx.contrEquiv1 dot_S1024x128_S128x32_S1024x32_1_0_0_1_n_n 128 rfl rfl).symm k) = ix2 r k := funext fun ax => Fin.ext (by
    match ax with
    | ⟨0, _⟩ => exact lhsX_0 _ _
    | ⟨1, _⟩ => exact (lhsX_1 _ _).trans hk)
  have er : dot_S1024x128_S128x32_S1024x32_1_0_0_1_n_n.rhsIdx (ix2 r j) ((ValueIdx.contrEquiv1 dot_S1024x128_S128x32_S1024x32_1_0_0_1_n_n 128 rfl rfl).symm k) = ix2 k j := funext fun ax => Fin.ext (by
    match ax with
    | ⟨0, _⟩ => exact (rhsX_0 _ _).trans hk
    | ⟨1, _⟩ => exact rhsX_1 _ _)
  rw [el, er]

/-- The float of a one-bit flag widened to a word: 1 when set, 0 when clear. -/
theorem sitofp_flag (p : Bool) :
    (FloatOps.sitofp (F := Ideal) .f32 ((BitVec.ofBool p).setWidth 32) : EReal) = if p then 1 else 0 := by
  show (((((BitVec.ofBool p).setWidth 32).toInt : ℤ) : ℝ) : EReal) = _
  cases p
  · show (((0 : ℤ) : ℝ) : EReal) = _
    simp
  · show (((1 : ℤ) : ℝ) : EReal) = _
    simp

/-- Row `a * 1024 + r` of the padded array against the 50000 real rows, as words read signed: no overflow below 2^31. -/
theorem slt_row (a r : ℕ) (ha : a < 49) (hr : r < 1024) :
    (IntOp.addi (Scalar.muli (BitVec.ofNat 32 a) 1024#32) (BitVec.ofNat 32 r)).slt 50000#32 = decide (a * 1024 + r < 50000) := by
  have e : IntOp.addi (Scalar.muli (BitVec.ofNat 32 a) 1024#32) (BitVec.ofNat 32 r) = BitVec.ofNat 32 (a * 1024 + r) := by
    apply BitVec.eq_of_toNat_eq
    simp [IntOp.addi, Scalar.muli, IntOp.muli]
  rw [e]
  have h1 : (BitVec.ofNat 32 (a * 1024 + r)).toInt = ((a * 1024 + r : ℕ) : ℤ) := by
    have hn : (BitVec.ofNat 32 (a * 1024 + r)).toNat = a * 1024 + r := by
      rw [BitVec.toNat_ofNat]; omega
    rw [BitVec.toInt_eq_toNat_of_lt (by rw [hn]; omega), hn]
  have h2 : (50000#32 : BitVec 32).toInt = 50000 := by decide
  rw [BitVec.slt, h1, h2]
  congr 1
  apply propext
  omega

/-- The one-hot row: a domain column broadcast along three columns and compared with the column number, as a float. -/
theorem oneh_apply (v1 : IVec S1024x1 32) (r : Fin 1024) (t : Fin 3) :
    (sitofp .f32 (extui 32 (cmpi .eq (broadcastTo S1024x3 v1 broadcasts_S1024x1_S1024x3) (iota .tc S1024x3 32 [1] iota_S1024x3_d1_w32)) natLt_1_32) : FVec Ideal S1024x3 .f32) (ix2 r t)
      = Spec.oneh (v1 (ix2 r (0 : Fin 1))) t := by
  show FloatOps.sitofp (F := Ideal) .f32 ((IntOp.cmpi .eq (broadcastTo S1024x3 v1 broadcasts_S1024x1_S1024x3 (ix2 r t)) (iota .tc S1024x3 32 [1] iota_S1024x3_d1_w32 (ix2 r t))).setWidth 32) = _
  rw [Cert.Keepdims.broadcastTo_a1_ab_apply, iota_single_apply]
  show FloatOps.sitofp (F := Ideal) .f32 ((BitVec.ofBool (v1 (ix2 r (0 : Fin 1)) == BitVec.ofNat 32 t.val)).setWidth 32) = _
  rw [sitofp_flag]
  unfold Spec.oneh
  simp only [beq_iff_eq]

/-- The validity flag of row r of block a: row a * 1024 + r is one of the 50000 real rows. -/
theorem valid_apply (i : grid0.Coords) (r : Fin 1024) :
    (sitofp .f32 (extui 32 (cmpi .slt (addi (broadcast S1024x1 (Scalar.muli (BitVec.ofNat 32 (i 0).val) 1024#32)) (iota .tc S1024x1 32 [0] iota_S1024x1_d0_w32)) (broadcast S1024x1 50000#32)) natLt_1_32) : FVec Ideal S1024x1 .f32) (ix2 r (0 : Fin 1))
      = if (i 0).val * 1024 + r.val < 50000 then 1 else 0 := by
  show FloatOps.sitofp (F := Ideal) .f32 ((IntOp.cmpi .slt (IntOp.addi (Scalar.muli (BitVec.ofNat 32 (i 0).val) 1024#32) (iota .tc S1024x1 32 [0] iota_S1024x1_d0_w32 (ix2 r (0 : Fin 1)))) 50000#32).setWidth 32) = _
  rw [iota_single_apply]
  show FloatOps.sitofp (F := Ideal) .f32 ((BitVec.ofBool ((IntOp.addi (Scalar.muli (BitVec.ofNat 32 (i 0).val) 1024#32) (BitVec.ofNat 32 r.val)).slt 50000#32)).setWidth 32) = _
  rw [sitofp_flag, slt_row _ _ (i 0).isLt r.isLt]
  simp only [decide_eq_true_eq]

/-- THE BODY'S RESULT AT (r, j) of the block at grid coordinate i: (one-hot row · the 3 × 32 table + the feature row ·
    the 128 × 32 table) · the weight of the row · the validity flag of the row. -/
theorem pay_apply (i : grid0.Coords) (v1 : Vec Ideal S1024x1 .i32) (v8 : Vec Ideal S3x32 .f32) (v11 : Vec Ideal S1024x128 .f32)
    (v13 : Vec Ideal S128x32 .f32) (v24 : Vec Ideal S1024x1 .f32) (r : Fin 1024) (j : Fin 32) :
    k0_pay1 (F := Ideal) i v1 v8 v11 v13 v24 (ix2 r j)
      = ((∑ t : Fin 3, Spec.oneh (v1 (ix2 r (0 : Fin 1))) t * v8 (ix2 t j)) + ∑ k : Fin 128, v11 (ix2 r k) * v13 (ix2 k j))
          * v24 (ix2 r (0 : Fin 1)) * (if (i 0).val * 1024 + r.val < 50000 then 1 else 0) := by
  unfold k0_pay1
  dsimp only
  rw [mulf_apply, mulf_apply, addf_apply, Cert.Keepdims.broadcastTo_a1_ab_apply, Cert.Keepdims.broadcastTo_a1_ab_apply,
    valid_apply, matmulE_apply, matmulX_apply]
  simp only [shapeCast_self]
  refine congrArg (fun s => (s + ∑ k : Fin 128, v11 (ix2 r k) * v13 (ix2 k j)) * v24 (ix2 r (0 : Fin 1)) * (if (i 0).val * 1024 + r.val < 50000 then (1 : EReal) else 0)) ?_
  exact Finset.sum_congr rfl fun t _ => congrArg (· * v8 (ix2 t j)) (oneh_apply v1 r t)

variable (V : (c : Dev nD) → (b : Ref sig .tc) → Buf (Elt Ideal) ((c : Thread nD τ).loc b))

/-- Region 0's arrays as the region finds them, by their literal types: the padded features, the padded domain
    column, the padded weight column dis, the 3 × 32 product emb · W1[:4096], and W1[4096:]. -/
abbrev xpad (c : Dev nD) : Spec.Arr2 50176 128 := V c main_v14
abbrev dompad (c : Dev nD) : Spec.IArr2 50176 1 := V c main_v16
abbrev dis2d (c : Dev nD) : Spec.Arr2 50176 1 := V c main_v13
abbrev embproj (c : Dev nD) : Spec.Arr2 3 32 := V c main_v19
abbrev xw1 (c : Dev nD) : Spec.Arr2 128 32 := V c main_v18
/-- A node's row in a padded array. -/
abbrev up (v : Fin 50000) : Fin 50176 := ⟨v.val, by omega⟩
/-- Region 0's output array after the region. -/
abbrev outArr (c : Dev nD) : Spec.Arr2 50176 32 := (dat0 V c).arrAt 5 cfg0.N

/-! ### From the 49 blocks to the whole array -/

/-- Row a, column j of the region's result as a function of the five arrays it reads: (one-hot row · E + feature row · W)
    · the row's weight · the row's validity flag (1 on the 50000 real rows, 0 on the padding rows). -/
def rowVal (X : Spec.Arr2 50176 128) (D : Spec.IArr2 50176 1) (S : Spec.Arr2 50176 1) (E : Spec.Arr2 3 32) (W : Spec.Arr2 128 32)
    (a : Fin 50176) (j : Fin 32) : EReal :=
  ((∑ t : Fin 3, Spec.oneh (D (ix2 a (0 : Fin 1))) t * E (ix2 t j)) + ∑ k : Fin 128, X (ix2 a k) * W (ix2 k j))
    * S (ix2 a (0 : Fin 1)) * (if a.val < 50000 then 1 else 0)

/-- The whole result array. -/
def G0 (c : Dev nD) : Spec.Arr2 50176 32 := fun idx =>
  rowVal (xpad V c) (dompad V c) (dis2d V c) (embproj V c) (xw1 V c) (idx 0) (idx 1)

/-- The body's result at (p, q) of the block at grid coordinate n, when its five input blocks are the rows
    n * 1024 + p of the row-blocked arrays and the whole of the two tables: row n * 1024 + p of the result. -/
theorem point_eq (i : grid0.Coords) (n : ℕ) (hi : (i 0).val = n)
    (x0 : Vec Ideal S1024x128 .f32) (x1 : Vec Ideal S1024x1 .i32) (x2 : Vec Ideal S1024x1 .f32) (x3 : Vec Ideal S3x32 .f32) (x4 : Vec Ideal S128x32 .f32)
    (X : Spec.Arr2 50176 128) (D : Spec.IArr2 50176 1) (S : Spec.Arr2 50176 1) (E : Spec.Arr2 3 32) (W : Spec.Arr2 128 32)
    (p : Fin 1024) (q : Fin 32) (a : Fin 50176) (b : Fin 32) (ha : a.val = n * 1024 + p.val)
    (h0 : ∀ k, x0 (ix2 p k) = X (ix2 a k)) (h1 : x1 (ix2 p (0 : Fin 1)) = D (ix2 a (0 : Fin 1))) (h2 : x2 (ix2 p (0 : Fin 1)) = S (ix2 a (0 : Fin 1)))
    (h3 : ∀ t, x3 (ix2 t q) = E (ix2 t b)) (h4 : ∀ k, x4 (ix2 k q) = W (ix2 k b)) :
    k0_pay1 (F := Ideal) i x1 x3 x0 x4 x2 (ix2 p q) = rowVal X D S E W a b := by
  rw [pay_apply, h1, h2]
  simp only [h0, h3, h4]
  unfold rowVal
  rw [hi, ← ha]

theorem hz : (![0, 0] : Fin 2 → Nat) = fun _ => 0 := funext fun a => by fin_cases a <;> rfl

/-- The index maps, decided over the 49 grid points: the four row-blocked windows are at block (t, 0), the two tables at
    block (0, 0), and the point's grid coordinate is its number. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ ((grid0.coords t) 0).val = t.val :=
  (by decide +kernel : ∀ t : Fin grid0.N, _)

/-! Each input window's block at point t, read off its array. -/

theorem iblk0_0_apply (c : Dev nD) (t : Fin cfg0.N) (x : S1024x128.Idx) (k : S50176x128.Idx)
    (hk0 : (k 0).val = t.val * 1024 + (x 0).val) (hk1 : (k 1).val = (x 1).val) :
    (iblk0 V c 0 t : Vec Ideal S1024x128 .f32) x = xpad V c k := by
  have e0 := (idx_facts t).1
  have e1 := (idx_facts t).2.1
  unfold iblk0
  rw [View.read_apply]
  refine congrArg (xpad V c) (funext fun a => Fin.ext ?_)
  match a with
  | ⟨0, _⟩ => show win0_0.index t (0 : Fin 2) * 1024 + 1 * (x 0).val = (k 0).val; rw [e0, hk0]; omega
  | ⟨1, _⟩ => show win0_0.index t (1 : Fin 2) * 128 + 1 * (x 1).val = (k 1).val; rw [e1, hk1]; omega

theorem iblk0_1_apply (c : Dev nD) (t : Fin cfg0.N) (x : S1024x1.Idx) (k : S50176x1.Idx)
    (hk0 : (k 0).val = t.val * 1024 + (x 0).val) (hk1 : (k 1).val = (x 1).val) :
    (iblk0 V c 1 t : Vec Ideal S1024x1 .i32) x = dompad V c k := by
  have e0 := (idx_facts t).2.2.1
  have e1 := (idx_facts t).2.2.2.1
  unfold iblk0
  rw [View.read_apply]
  refine congrArg (dompad V c) (funext fun a => Fin.ext ?_)
  match a with
  | ⟨0, _⟩ => show win0_1.index t (0 : Fin 2) * 1024 + 1 * (x 0).val = (k 0).val; rw [e0, hk0]; omega
  | ⟨1, _⟩ => show win0_1.index t (1 : Fin 2) * 1 + 1 * (x 1).val = (k 1).val; rw [e1, hk1]; omega

theorem iblk0_2_apply (c : Dev nD) (t : Fin cfg0.N) (x : S1024x1.Idx) (k : S50176x1.Idx)
    (hk0 : (k 0).val = t.val * 1024 + (x 0).val) (hk1 : (k 1).val = (x 1).val) :
    (iblk0 V c 2 t : Vec Ideal S1024x1 .f32) x = dis2d V c k := by
  have e0 := (idx_facts t).2.2.2.2.1
  have e1 := (idx_facts t).2.2.2.2.2.1
  unfold iblk0
  rw [View.read_apply]
  refine congrArg (dis2d V c) (funext fun a => Fin.ext ?_)
  match a with
  | ⟨0, _⟩ => show win0_2.index t (0 : Fin 2) * 1024 + 1 * (x 0).val = (k 0).val; rw [e0, hk0]; omega
  | ⟨1, _⟩ => show win0_2.index t (1 : Fin 2) * 1 + 1 * (x 1).val = (k 1).val; rw [e1, hk1]; omega

theorem iblk0_3_apply (c : Dev nD) (t : Fin cfg0.N) (x : S3x32.Idx) (k : S3x32.Idx)
    (hk0 : (k 0).val = (x 0).val) (hk1 : (k 1).val = (x 1).val) :
    (iblk0 V c 3 t : Vec Ideal S3x32 .f32) x = embproj V c k := by
  have e0 := (idx_facts t).2.2.2.2.2.2.1
  have e1 := (idx_facts t).2.2.2.2.2.2.2.1
  unfold iblk0
  rw [View.read_apply]
  refine congrArg (embproj V c) (funext fun a => Fin.ext ?_)
  match a with
  | ⟨0, _⟩ => show win0_3.index t (0 : Fin 2) * 3 + 1 * (x 0).val = (k 0).val; rw [e0, hk0]; omega
  | ⟨1, _⟩ => show win0_3.index t (1 : Fin 2) * 32 + 1 * (x 1).val = (k 1).val; rw [e1, hk1]; omega

theorem iblk0_4_apply (c : Dev nD) (t : Fin cfg0.N) (x : S128x32.Idx) (k : S128x32.Idx)
    (hk0 : (k 0).val = (x 0).val) (hk1 : (k 1).val = (x 1).val) :
    (iblk0 V c 4 t : Vec Ideal S128x32 .f32) x = xw1 V c k := by
  have e0 := (idx_facts t).2.2.2.2.2.2.2.2.1
  have e1 := (idx_facts t).2.2.2.2.2.2.2.2.2.1
  unfold iblk0
  rw [View.read_apply]
  refine congrArg (xw1 V c) (funext fun a => Fin.ext ?_)
  match a with
  | ⟨0, _⟩ => show win0_4.index t (0 : Fin 2) * 128 + 1 * (x 0).val = (k 0).val; rw [e0, hk0]; omega
  | ⟨1, _⟩ => show win0_4.index t (1 : Fin 2) * 32 + 1 * (x 1).val = (k 1).val; rw [e1, hk1]; omega

/-- WHAT POINT t WRITES BACK: the body's result of the point's five input blocks is block t of the whole result array. -/
theorem flushed_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S1024x1) hz, View.ld_unit_zero (S := S3x32) hz, View.ld_unit_zero (S := S1024x128) hz,
    View.ld_unit_zero (S := S128x32) hz]
  have e10 := (idx_facts t).2.2.2.2.2.2.2.2.2.2.1
  have e11 := (idx_facts t).2.2.2.2.2.2.2.2.2.2.2.1
  have e12 := (idx_facts t).2.2.2.2.2.2.2.2.2.2.2.2
  refine funext fun (y : S1024x32.Idx) => ?_
  obtain ⟨p, q, rfl⟩ : ∃ (p : Fin 1024) (q : Fin 32), y = ix2 p q := ⟨y 0, y 1, eq_ix2 y⟩
  rw [View.read_apply]
  show k0_pay1 (F := Ideal) (grid0.coords t) (iblk0 V c 1 t) (iblk0 V c 3 t) (iblk0 V c 0 t) (iblk0 V c 4 t) (iblk0 V c 2 t) (ix2 p q)
      = rowVal (xpad V c) (dompad V c) (dis2d V c) (embproj V c) (xw1 V c)
          ((((cfg0.win 5).blk t).view.emb (ix2 p q)) 0) ((((cfg0.win 5).blk t).view.emb (ix2 p q)) 1)
  have ha : ((((cfg0.win 5).blk t).view.emb (ix2 p q)) 0).val = t.val * 1024 + p.val := by
    show win0_5.index t (0 : Fin 2) * 1024 + 1 * p.val = _
    rw [e10]; omega
  have hb : ((((cfg0.win 5).blk t).view.emb (ix2 p q)) 1).val = q.val := by
    show win0_5.index t (1 : Fin 2) * 32 + 1 * q.val = _
    rw [e11]; omega
  refine point_eq (grid0.coords t) t.val e12 (iblk0 V c 0 t) (iblk0 V c 1 t) (iblk0 V c 2 t) (iblk0 V c 3 t) (iblk0 V c 4 t)
    (xpad V c) (dompad V c) (dis2d V c) (embproj V c) (xw1 V c) p q _ _ ha
    (fun k => iblk0_0_apply V c t (ix2 p k) (ix2 _ k) ha rfl)
    (iblk0_1_apply V c t (ix2 p (0 : Fin 1)) (ix2 _ (0 : Fin 1)) ha rfl)
    (iblk0_2_apply V c t (ix2 p (0 : Fin 1)) (ix2 _ (0 : Fin 1)) ha rfl)
    (fun s => iblk0_3_apply V c t (ix2 s q) (ix2 s _) rfl hb)
    (fun k => iblk0_4_apply V c t (ix2 k q) (ix2 k _) rfl hb)

/-- An index of the result array is in point t's block iff each coordinate is in the block's range on its axis. -/
theorem mem_blk (t : Fin cfg0.N) (i : S50176x32.Idx) :
    i ∈ ((cfg0.win 5).blk t).view.set ↔ ∀ a : Fin 2, win0_5.index t a * S1024x32.size a ≤ (i a).val ∧ (i a).val < win0_5.index t a * S1024x32.size a + S1024x32.size a := by
  show i ∈ ((View.whole main_v22).slice (win0_5.rect t)).set ↔ _
  rw [View.set_slice_whole, Rect.mem_set_unit]
  exact Iff.rfl

/-- Row r of the result array lies in the block of point r / 1024, and every point writes its block back: the 49 blocks
    of 1024 rows tile the 50176 rows. -/
theorem cover (i : S50176x32.Idx) : ∃ t : Fin cfg0.N, (cfg0.win 5).flush t = true ∧ i ∈ ((cfg0.win 5).blk t).view.set := by
  have h0 : (i 0).val < 50176 := (i 0).isLt
  have h1 : (i 1).val < 32 := (i 1).isLt
  have hN : cfg0.N = 49 := N_0
  have ht : (i 0).val / 1024 < cfg0.N := by omega
  have e10 := (idx_facts ⟨(i 0).val / 1024, ht⟩).2.2.2.2.2.2.2.2.2.2.1
  have e11 := (idx_facts ⟨(i 0).val / 1024, ht⟩).2.2.2.2.2.2.2.2.2.2.2.1
  refine ⟨⟨(i 0).val / 1024, ht⟩, flush0_5 _, ?_⟩
  rw [mem_blk]
  intro a
  match a with
  | ⟨0, _⟩ =>
    show win0_5.index ⟨(i 0).val / 1024, ht⟩ (0 : Fin 2) * 1024 ≤ (i 0).val ∧ (i 0).val < win0_5.index ⟨(i 0).val / 1024, ht⟩ (0 : Fin 2) * 1024 + 1024
    rw [e10]
    show (i 0).val / 1024 * 1024 ≤ (i 0).val ∧ (i 0).val < (i 0).val / 1024 * 1024 + 1024
    omega
  | ⟨1, _⟩ =>
    show win0_5.index ⟨(i 0).val / 1024, ht⟩ (1 : Fin 2) * 32 ≤ (i 1).val ∧ (i 1).val < win0_5.index ⟨(i 0).val / 1024, ht⟩ (1 : Fin 2) * 32 + 32
    rw [e11]
    omega

/-- THE RESULT ARRAY after the region, whole: every entry is the row function of the five arrays the region reads. -/
theorem final (c : Dev nD) : outArr V c = G0 V c :=
  (dat0 V c).arrAt_eq_of_cover 5 (G0 V c) (fun t _ => flushed_eq V c t) cover

/-- Row v < 50000 of region 0's output: (one-hot row · embproj + x row · xw1) · dis v (the validity factor is 1 there). -/
theorem final_row (c : Dev nD) (v : Fin 50000) (j : Fin 32) :
    outArr V c (ix2 (up v) j)
      = ((∑ t : Fin 3, Spec.oneh (dompad V c (ix2 (up v) (0 : Fin 1))) t * embproj V c (ix2 t j))
         + ∑ k : Fin 128, xpad V c (ix2 (up v) k) * xw1 V c (ix2 k j)) * dis2d V c (ix2 (up v) (0 : Fin 1)) := by
  refine (congrFun (final V c) (ix2 (up v) j)).trans ?_
  show rowVal (xpad V c) (dompad V c) (dis2d V c) (embproj V c) (xw1 V c) (up v) j = _
  unfold rowVal
  rw [if_pos (show (up v).val < 50000 from v.isLt), mul_one]

end Cert.KernelIdeal.R0

end
-- ==== Proof.Region1.lean ====
import proofs.«421985_j63694364999884_3_alg».proof.Proof.FrameKI
import proofs.«421985_j63694364999884_3_alg».proof.Proof.Spec
import proofs.«421985_j63694364999884_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.R1

open Idealize.ShloMosaic Idealize.ShloMosaic.TcCoe Idealize.ShloMosaic.ValueIdx Idealize.SL.Sem
open Cert.KernelIdeal Cert.KernelIdeal.Gen Cert.KernelIdeal.GenP

/-! ## The body's value at an entry of a block

The body of region 1 takes a block of 1024 rows of the neighbour sums, of the scaled table and of the weight
column, and the whole of the bias row, A1, B1 and W2. It forms the layer's result
a = dis · (neighbour sum + own row) + bias, the rank-8 factorisation ((a · A1) · B1) · 1/8, its relu, the
product with W2, and multiplies by dis and by the mask of the rows that are rows of the graph. -/

/-! The product S1024x32 · S32x8: where its two operands are read for the entry (r, c) and the summand k. -/
theorem lhsA_0 (i : S1024x8.Idx) (q : dot_S1024x32_S32x8_S1024x8_1_0_0_1_n_n.contr.Idx) :
    (dot_S1024x32_S32x8_S1024x8_1_0_0_1_n_n.lhsIdx i q 0).val = (i 0).val := by
  unfold DotDims.lhsIdx
  rw [dif_neg (show ¬(0 : Fin S1024x32.rank) ∈ dot_S1024x32_S32x8_S1024x8_1_0_0_1_n_n.lhsBatch by decide), dif_pos (show (0 : Fin S1024x32.rank) ∈ dot_S1024x32_S32x8_S1024x8_1_0_0_1_n_n.lhsNonContracting by decide)]
  rfl
theorem lhsA_1 (i : S1024x8.Idx) (q : dot_S1024x32_S32x8_S1024x8_1_0_0_1_n_n.contr.Idx) :
    (dot_S1024x32_S32x8_S1024x8_1_0_0_1_n_n.lhsIdx i q 1).val = (q ⟨0, by decide⟩).val :=
  dot_S1024x32_S32x8_S1024x8_1_0_0_1_n_n.lhsIdx_val_of_single rfl i q
theorem rhsA_0 (i : S1024x8.Idx) (q : dot_S1024x32_S32x8_S1024x8_1_0_0_1_n_n.contr.Idx) :
    (dot_S1024x32_S32x8_S1024x8_1_0_0_1_n_n.rhsIdx i q 0).val = (q ⟨0, by decide⟩).val :=
  dot_S1024x32_S32x8_S1024x8_1_0_0_1_n_n.rhsIdx_val_of_single rfl i q
theorem rhsA_1 (i : S1024x8.Idx) (q : dot_S1024x32_S32x8_S1024x8_1_0_0_1_n_n.contr.Idx) :
    (dot_S1024x32_S32x8_S1024x8_1_0_0_1_n_n.rhsIdx i q 1).val = (i 1).val := by
  unfold DotDims.rhsIdx
  rw [dif_neg (show ¬(1 : Fin S32x8.rank) ∈ dot_S1024x32_S32x8_S1024x8_1_0_0_1_n_n.rhsBatch by decide), dif_pos (show (1 : Fin S32x8.rank) ∈ dot_S1024x32_S32x8_S1024x8_1_0_0_1_n_n.rhsNonContracting by decide)]
  rfl

/-- Into a zero accumulator the product's entry (r, c) is the sum over k of x (r, k) · y (k, c). -/
theorem mmA_apply (x : FVec Ideal S1024x32 .f32) (y : FVec Ideal S32x8 .f32) (r : Fin 1024) (c : Fin 8) :
    matmul dot_S1024x32_S32x8_S1024x8_1_0_0_1_n_n none x y (constant (F := Ideal) S1024x8 .f32 0x00000000#32) (ix2 r c)
      = ∑ k : Fin 32, x (ix2 r k) * y (ix2 k c) := by
  refine (Ideal.matmul_constant_zero_apply dot_S1024x32_S32x8_S1024x8_1_0_0_1_n_n none x y (ix2 r c)).trans ?_
  rw [← Equiv.sum_comp (contrEquiv1 dot_S1024x32_S32x8_S1024x8_1_0_0_1_n_n 32 rfl rfl).symm]
  refine Finset.sum_congr rfl fun k _ => ?_
  have hk := contrEquiv1_symm_val dot_S1024x32_S32x8_S1024x8_1_0_0_1_n_n 32 rfl rfl k
  have el : dot_S1024x32_S32x8_S1024x8_1_0_0_1_n_n.lhsIdx (ix2 r c) ((contrEquiv1 dot_S1024x32_S32x8_S1024x8_1_0_0_1_n_n 32 rfl rfl).symm k) = ix2 r k := funext fun a => Fin.ext (by
    match a with
    | ⟨0, _⟩ => exact lhsA_0 _ _
    | ⟨1, _⟩ => exact (lhsA_1 _ _).trans hk)
  have er : dot_S1024x32_S32x8_S1024x8_1_0_0_1_n_n.rhsIdx (ix2 r c) ((contrEquiv1 dot_S1024x32_S32x8_S1024x8_1_0_0_1_n_n 32 rfl rfl).symm k) = ix2 k c := funext fun a => Fin.ext (by
    match a with
    | ⟨0, _⟩ => exact (rhsA_0 _ _).trans hk
    | ⟨1, _⟩ => exact rhsA_1 _ _)
  rw [el, er]

/-! The product S1024x8 · S8x32: where its two operands are read for the entry (r, c) and the summand k. -/
theorem lhsB_0 (i : S1024x32.Idx) (q : dot_S1024x8_S8x32_S1024x32_1_0_0_1_n_n.contr.Idx) :
    (dot_S1024x8_S8x32_S1024x32_1_0_0_1_n_n.lhsIdx i q 0).val = (i 0).val := by
  unfold DotDims.lhsIdx
  rw [dif_neg (show ¬(0 : Fin S1024x8.rank) ∈ dot_S1024x8_S8x32_S1024x32_1_0_0_1_n_n.lhsBatch by decide), dif_pos (show (0 : Fin S1024x8.rank) ∈ dot_S1024x8_S8x32_S1024x32_1_0_0_1_n_n.lhsNonContracting by decide)]
  rfl
theorem lhsB_1 (i : S1024x32.Idx) (q : dot_S1024x8_S8x32_S1024x32_1_0_0_1_n_n.contr.Idx) :
    (dot_S1024x8_S8x32_S1024x32_1_0_0_1_n_n.lhsIdx i q 1).val = (q ⟨0, by decide⟩).val :=
  dot_S1024x8_S8x32_S1024x32_1_0_0_1_n_n.lhsIdx_val_of_single rfl i q
theorem rhsB_0 (i : S1024x32.Idx) (q : dot_S1024x8_S8x32_S1024x32_1_0_0_1_n_n.contr.Idx) :
    (dot_S1024x8_S8x32_S1024x32_1_0_0_1_n_n.rhsIdx i q 0).val = (q ⟨0, by decide⟩).val :=
  dot_S1024x8_S8x32_S1024x32_1_0_0_1_n_n.rhsIdx_val_of_single rfl i q
theorem rhsB_1 (i : S1024x32.Idx) (q : dot_S1024x8_S8x32_S1024x32_1_0_0_1_n_n.contr.Idx) :
    (dot_S1024x8_S8x32_S1024x32_1_0_0_1_n_n.rhsIdx i q 1).val = (i 1).val := by
  unfold DotDims.rhsIdx
  rw [dif_neg (show ¬(1 : Fin S8x32.rank) ∈ dot_S1024x8_S8x32_S1024x32_1_0_0_1_n_n.rhsBatch by decide), dif_pos (show (1 : Fin S8x32.rank) ∈ dot_S1024x8_S8x32_S1024x32_1_0_0_1_n_n.rhsNonContracting by decide)]
  rfl

/-- Into a zero accumulator the product's entry (r, c) is the sum over k of x (r, k) · y (k, c). -/
theorem mmB_apply (x : FVec Ideal S1024x8 .f32) (y : FVec Ideal S8x32 .f32) (r : Fin 1024) (c : Fin 32) :
    matmul dot_S1024x8_S8x32_S1024x32_1_0_0_1_n_n none x y (constant (F := Ideal) S1024x32 .f32 0x00000000#32) (ix2 r c)
      = ∑ k : Fin 8, x (ix2 r k) * y (ix2 k c) := by
  refine (Ideal.matmul_constant_zero_apply dot_S1024x8_S8x32_S1024x32_1_0_0_1_n_n none x y (ix2 r c)).trans ?_
  rw [← Equiv.sum_comp (contrEquiv1 dot_S1024x8_S8x32_S1024x32_1_0_0_1_n_n 8 rfl rfl).symm]
  refine Finset.sum_congr rfl fun k _ => ?_
  have hk := contrEquiv1_symm_val dot_S1024x8_S8x32_S1024x32_1_0_0_1_n_n 8 rfl rfl k
  have el : dot_S1024x8_S8x32_S1024x32_1_0_0_1_n_n.lhsIdx (ix2 r c) ((contrEquiv1 dot_S1024x8_S8x32_S1024x32_1_0_0_1_n_n 8 rfl rfl).symm k) = ix2 r k := funext fun a => Fin.ext (by
    match a with
    | ⟨0, _⟩ => exact lhsB_0 _ _
    | ⟨1, _⟩ => exact (lhsB_1 _ _).trans hk)
  have er : dot_S1024x8_S8x32_S1024x32_1_0_0_1_n_n.rhsIdx (ix2 r c) ((contrEquiv1 dot_S1024x8_S8x32_S1024x32_1_0_0_1_n_n 8 rfl rfl).symm k) = ix2 k c := funext fun a => Fin.ext (by
    match a with
    | ⟨0, _⟩ => exact (rhsB_0 _ _).trans hk
    | ⟨1, _⟩ => exact rhsB_1 _ _)
  rw [el, er]

/-! The product S1024x32 · S32x5: where its two operands are read for the entry (r, c) and the summand k. -/
theorem lhsW_0 (i : S1024x5.Idx) (q : dot_S1024x32_S32x5_S1024x5_1_0_0_1_n_n.contr.Idx) :
    (dot_S1024x32_S32x5_S1024x5_1_0_0_1_n_n.lhsIdx i q 0).val = (i 0).val := by
  unfold DotDims.lhsIdx
  rw [dif_neg (show ¬(0 : Fin S1024x32.rank) ∈ dot_S1024x32_S32x5_S1024x5_1_0_0_1_n_n.lhsBatch by decide), dif_pos (show (0 : Fin S1024x32.rank) ∈ dot_S1024x32_S32x5_S1024x5_1_0_0_1_n_n.lhsNonContracting by decide)]
  rfl
theorem lhsW_1 (i : S1024x5.Idx) (q : dot_S1024x32_S32x5_S1024x5_1_0_0_1_n_n.contr.Idx) :
    (dot_S1024x32_S32x5_S1024x5_1_0_0_1_n_n.lhsIdx i q 1).val = (q ⟨0, by decide⟩).val :=
  dot_S1024x32_S32x5_S1024x5_1_0_0_1_n_n.lhsIdx_val_of_single rfl i q
theorem rhsW_0 (i : S1024x5.Idx) (q : dot_S1024x32_S32x5_S1024x5_1_0_0_1_n_n.contr.Idx) :
    (dot_S1024x32_S32x5_S1024x5_1_0_0_1_n_n.rhsIdx i q 0).val = (q ⟨0, by decide⟩).val :=
  dot_S1024x32_S32x5_S1024x5_1_0_0_1_n_n.rhsIdx_val_of_single rfl i q
theorem rhsW_1 (i : S1024x5.Idx) (q : dot_S1024x32_S32x5_S1024x5_1_0_0_1_n_n.contr.Idx) :
    (dot_S1024x32_S32x5_S1024x5_1_0_0_1_n_n.rhsIdx i q 1).val = (i 1).val := by
  unfold DotDims.rhsIdx
  rw [dif_neg (show ¬(1 : Fin S32x5.rank) ∈ dot_S1024x32_S32x5_S1024x5_1_0_0_1_n_n.rhsBatch by decide), dif_pos (show (1 : Fin S32x5.rank) ∈ dot_S1024x32_S32x5_S1024x5_1_0_0_1_n_n.rhsNonContracting by decide)]
  rfl

/-- Into a zero accumulator the product's entry (r, c) is the sum over k of x (r, k) · y (k, c). -/
theorem mmW_apply (x : FVec Ideal S1024x32 .f32) (y : FVec Ideal S32x5 .f32) (r : Fin 1024) (c : Fin 5) :
    matmul dot_S1024x32_S32x5_S1024x5_1_0_0_1_n_n none x y (constant (F := Ideal) S1024x5 .f32 0x00000000#32) (ix2 r c)
      = ∑ k : Fin 32, x (ix2 r k) * y (ix2 k c) := by
  refine (Ideal.matmul_constant_zero_apply dot_S1024x32_S32x5_S1024x5_1_0_0_1_n_n none x y (ix2 r c)).trans ?_
  rw [← Equiv.sum_comp (contrEquiv1 dot_S1024x32_S32x5_S1024x5_1_0_0_1_n_n 32 rfl rfl).symm]
  refine Finset.sum_congr rfl fun k _ => ?_
  have hk := contrEquiv1_symm_val dot_S1024x32_S32x5_S1024x5_1_0_0_1_n_n 32 rfl rfl k
  have el : dot_S1024x32_S32x5_S1024x5_1_0_0_1_n_n.lhsIdx (ix2 r c) ((contrEquiv1 dot_S1024x32_S32x5_S1024x5_1_0_0_1_n_n 32 rfl rfl).symm k) = ix2 r k := funext fun a => Fin.ext (by
    match a with
    | ⟨0, _⟩ => exact lhsW_0 _ _
    | ⟨1, _⟩ => exact (lhsW_1 _ _).trans hk)
  have er : dot_S1024x32_S32x5_S1024x5_1_0_0_1_n_n.rhsIdx (ix2 r c) ((contrEquiv1 dot_S1024x32_S32x5_S1024x5_1_0_0_1_n_n 32 rfl rfl).symm k) = ix2 k c := funext fun a => Fin.ext (by
    match a with
    | ⟨0, _⟩ => exact (rhsW_0 _ _).trans hk
    | ⟨1, _⟩ => exact rhsW_1 _ _)
  rw [el, er]

/-- The layer's result at row r of a block, column i: dis r · (neighbour sum + own scaled row) + bias. -/
abbrev layerAt (nsb hsb : FVec Ideal S1024x32 .f32) (db : FVec Ideal S1024x1 .f32) (bb : FVec Ideal S1x32 .f32)
    (r : Fin 1024) (i : Fin 32) : EReal :=
  db (ix2 r (0 : Fin 1)) * (nsb (ix2 r i) + hsb (ix2 r i)) + bb (ix2 (0 : Fin 1) i)

theorem pay2_apply (v1 v3 : FVec Ideal S1024x32 .f32) (v6 : FVec Ideal S1024x1 .f32) (v10 : FVec Ideal S1x32 .f32)
    (v14 : FVec Ideal S32x8 .f32) (v16 : FVec Ideal S8x32 .f32) (v22 : FVec Ideal S32x5 .f32) (v31 : FVec Ideal S1024x1 .f32)
    (r : Fin 1024) (j : Fin 5) :
    k1_pay2 (F := Ideal) v1 v3 v6 v10 v14 v16 v22 v31 (ix2 r j)
      = (∑ l : Fin 32, max ((∑ k : Fin 8, (∑ i : Fin 32, layerAt v1 v3 v6 v10 r i * v14 (ix2 i k)) * v16 (ix2 k l)) * Spec.c125) 0
            * v22 (ix2 l j)) * v31 (ix2 r (0 : Fin 1)) := by
  unfold k1_pay2
  simp only [shapeCast_self]
  rw [mulf_apply, Cert.Keepdims.broadcastTo_a1_ab_apply, mmW_apply]
  refine congrArg (· * v31 (ix2 r (0 : Fin 1))) (Finset.sum_congr rfl fun l _ => ?_)
  rw [maximumf_apply, mulf_apply, broadcast_apply, broadcast_apply, mmB_apply]
  have h0 : (FloatOps.ofBits (F := Ideal) .f32 0x00000000#32 : EReal) = 0 := Ideal.ofBits_zero_f32
  rw [h0]
  refine congrArg (fun z => max (z * Spec.c125) 0 * v22 (ix2 l j)) (Finset.sum_congr rfl fun k _ => ?_)
  rw [mmA_apply]
  refine congrArg (· * v16 (ix2 k l)) (Finset.sum_congr rfl fun i _ => ?_)
  rw [addf_apply, mulf_apply, addf_apply, Cert.Keepdims.broadcastTo_a1_ab_apply, broadcastTo_1b_ab_apply]

/-! ### The row mask: 1 on the rows of a block that are rows of the graph, 0 on the padding -/

/-- The word the comparison leaves at row r of block n: block n starts at row 1024 n, and the row's number
    is below 2 ^ 31, so the signed comparison with 50000 is the comparison of the numbers. -/
theorem mask_word (n r : ℕ) (hn : n < 49) (hr : r < 1024) :
    IntOp.cmpi .slt (IntOp.addi (Scalar.muli (BitVec.ofNat 32 n) 1024#32) (BitVec.ofNat 32 (0 * 1024 + r))) 50000#32
      = if n * 1024 + r < 50000 then 1#1 else 0#1 := by
  have hx : (IntOp.addi (Scalar.muli (BitVec.ofNat 32 n) 1024#32) (BitVec.ofNat 32 (0 * 1024 + r))).toNat = n * 1024 + r := by
    show ((BitVec.ofNat 32 n * 1024#32) + BitVec.ofNat 32 (0 * 1024 + r)).toNat = _
    rw [BitVec.toNat_add, BitVec.toNat_mul, BitVec.toNat_ofNat, BitVec.toNat_ofNat, BitVec.toNat_ofNat]
    omega
  have hi : (IntOp.addi (Scalar.muli (BitVec.ofNat 32 n) 1024#32) (BitVec.ofNat 32 (0 * 1024 + r))).toInt = ((n * 1024 + r : ℕ) : ℤ) := by
    rw [BitVec.toInt_eq_toNat_of_lt (by rw [hx]; omega), hx]
  show BitVec.ofBool (BitVec.slt _ _) = _
  rw [BitVec.slt_eq_decide, hi]
  have h5 : (50000#32 : BitVec 32).toInt = 50000 := by decide
  rw [h5]
  by_cases h : n * 1024 + r < 50000
  · rw [if_pos h, decide_eq_true (by omega)]; rfl
  · rw [if_neg h, decide_eq_false (by omega)]; rfl

theorem pay3_apply (i : grid1.Coords) (r : Fin 1024) (j : Fin 5) :
    k1_pay3 (F := Ideal) i (ix2 r j) = if (i 0).val * 1024 + r.val < 50000 then 1 else 0 := by
  unfold k1_pay3
  dsimp only
  rw [Cert.Keepdims.broadcastTo_a1_ab_apply, sitofp_apply, extui_apply]
  have hw : cmpi .slt (addi (broadcast S1024x1 (Scalar.muli (BitVec.ofNat 32 (i 0).val) 1024#32))
        (iota .tc S1024x1 32 [0] iota_S1024x1_d0_w32)) (broadcast S1024x1 50000#32) (ix2 r (0 : Fin 1))
      = if (i 0).val * 1024 + r.val < 50000 then 1#1 else 0#1 := mask_word (i 0).val r.val (i 0).isLt r.isLt
  rw [hw]
  by_cases h : (i 0).val * 1024 + r.val < 50000
  · rw [if_pos h, if_pos h]
    show (((((1#1 : BitVec 1).setWidth 32).toInt : ℤ) : ℝ) : EReal) = 1
    rw [show ((1#1 : BitVec 1).setWidth 32).toInt = 1 by decide]
    norm_num
  · rw [if_neg h, if_neg h]
    show (((((0#1 : BitVec 1).setWidth 32).toInt : ℤ) : ℝ) : EReal) = 0
    rw [show ((0#1 : BitVec 1).setWidth 32).toInt = 0 by decide]
    norm_num

theorem pay1_apply (a b : FVec Ideal S1024x5 .f32) (y : S1024x5.Idx) : k1_pay1 (F := Ideal) a b y = a y * b y := rfl

variable (V : (c : Dev nD) → (b : Ref sig .tc) → Buf (Elt Ideal) ((c : Thread nD τ).loc b))

/-- Region 1's arrays as the region finds them, by their literal types: the scaled first table, its neighbour
    sums, the weight column dis, the bias row b1, and A1, B1, W2. -/
abbrev hs (c : Dev nD) : Spec.Arr2 50176 32 := V c main_v22
abbrev ns (c : Dev nD) : Spec.Arr2 50176 32 := V c main_v35
abbrev dis2d (c : Dev nD) : Spec.Arr2 50176 1 := V c main_v13
abbrev brow (c : Dev nD) : Spec.Arr2 1 32 := V c main_v20
abbrev A1 (c : Dev nD) : Spec.Arr2 32 8 := V c main_arg6
abbrev B1 (c : Dev nD) : Spec.Arr2 8 32 := V c main_arg7
abbrev W2 (c : Dev nD) : Spec.Arr2 32 5 := V c main_arg8
abbrev up (v : Fin 50000) : Fin 50176 := ⟨v.val, by omega⟩
/-- Region 1's output array after the region. -/
abbrev outArr (c : Dev nD) : Spec.Arr2 50176 5 := (dat1 V c).arrAt 7 cfg1.N
/-- The layer's result at node v, column i: dis v · (neighbour sum + own scaled row) + bias. -/
abbrev agg (c : Dev nD) (v : Fin 50000) (i : Fin 32) : EReal :=
  dis2d V c (ix2 (up v) (0 : Fin 1)) * (ns V c (ix2 (up v) i) + hs V c (ix2 (up v) i)) + brow V c (ix2 (0 : Fin 1) i)

/-! ## The whole output array as one function, and what each point writes back -/

theorem hz : (![0, 0] : Fin 2 → Nat) = fun _ => 0 := funext fun a => by fin_cases a <;> rfl

/-- The entry (R, j) of the array the region leaves, from the arrays it finds: relu of the factorised layer
    result of row R, times W2, times dis R, times the row mask. -/
def cell (hsA nsA : Spec.Arr2 50176 32) (dA : Spec.Arr2 50176 1) (bA : Spec.Arr2 1 32) (A : Spec.Arr2 32 8)
    (B : Spec.Arr2 8 32) (W : Spec.Arr2 32 5) (R : Fin 50176) (j : Fin 5) : EReal :=
  ((∑ l : Fin 32, max ((∑ k : Fin 8, (∑ i : Fin 32,
        (dA (ix2 R (0 : Fin 1)) * (nsA (ix2 R i) + hsA (ix2 R i)) + bA (ix2 (0 : Fin 1) i)) * A (ix2 i k)) * B (ix2 k l)) * Spec.c125) 0
      * W (ix2 l j)) * dA (ix2 R (0 : Fin 1))) * (if R.val < 50000 then 1 else 0)

/-- The whole output array as one function of the arrays the region finds. -/
def wholeOut (c : Dev nD) : Spec.Arr2 50176 5 := fun y =>
  cell (hs V c) (ns V c) (dis2d V c) (brow V c) (A1 V c) (B1 V c) (W2 V c) (y 0) (y 1)

/-- The block index maps, decided over the 49 points: the row-blocked windows are at block (t, 0), the
    small operands at block (0, 0), and the body's grid coordinate is the point's number. -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ (grid1.coords t 0).val = t.val ∧ t.val < 49 :=
  (by decide +kernel : ∀ t : Fin grid1.N, _)

/-- Row r of block t is row 1024 t + r of the array. -/
def rowOf (t : Fin cfg1.N) (r : Fin 1024) : Fin 50176 := ⟨t.val * 1024 + r.val, by
  have h := (idx_facts t).2.2.2.2.2.2.2.2.2.2.2.2.2.2.2.2.2; omega⟩

/-! ### The blocks the body loads, read off the arrays the region finds -/

theorem hs_blk (c : Dev nD) (t : Fin cfg1.N) (r : Fin 1024) (i : Fin 32) :
    (iblk1 V c 0 t : FVec Ideal S1024x32 .f32) (ix2 r i) = hs V c (ix2 (rowOf t r) i) := by
  have e0 : win1_0.index t (0 : Fin 2) = t.val := (idx_facts t).1
  have e1 : win1_0.index t (1 : Fin 2) = 0 := (idx_facts t).2.1
  show V c main_v22 (((cfg1.win 0).blk t).view.emb (ix2 r i)) = V c main_v22 (ix2 (rowOf t r) i)
  refine congrArg (V c main_v22) (funext fun a => Fin.ext ?_)
  match a with
  | ⟨0, _⟩ => show win1_0.index t (0 : Fin 2) * 1024 + 1 * r.val = t.val * 1024 + r.val; omega
  | ⟨1, _⟩ => show win1_0.index t (1 : Fin 2) * 32 + 1 * i.val = i.val; omega

theorem ns_blk (c : Dev nD) (t : Fin cfg1.N) (r : Fin 1024) (i : Fin 32) :
    (iblk1 V c 1 t : FVec Ideal S1024x32 .f32) (ix2 r i) = ns V c (ix2 (rowOf t r) i) := by
  have e0 : win1_1.index t (0 : Fin 2) = t.val := (idx_facts t).2.2.1
  have e1 : win1_1.index t (1 : Fin 2) = 0 := (idx_facts t).2.2.2.1
  show V c main_v35 (((cfg1.win 1).blk t).view.emb (ix2 r i)) = V c main_v35 (ix2 (rowOf t r) i)
  refine congrArg (V c main_v35) (funext fun a => Fin.ext ?_)
  match a with
  | ⟨0, _⟩ => show win1_1.index t (0 : Fin 2) * 1024 + 1 * r.val = t.val * 1024 + r.val; omega
  | ⟨1, _⟩ => show win1_1.index t (1 : Fin 2) * 32 + 1 * i.val = i.val; omega

theorem dis_blk (c : Dev nD) (t : Fin cfg1.N) (r : Fin 1024) (i : Fin 1) :
    (iblk1 V c 2 t : FVec Ideal S1024x1 .f32) (ix2 r i) = dis2d V c (ix2 (rowOf t r) i) := by
  have e0 : win1_2.index t (0 : Fin 2) = t.val := (idx_facts t).2.2.2.2.1
  have e1 : win1_2.index t (1 : Fin 2) = 0 := (idx_facts t).2.2.2.2.2.1
  show V c main_v13 (((cfg1.win 2).blk t).view.emb (ix2 r i)) = V c main_v13 (ix2 (rowOf t r) i)
  refine congrArg (V c main_v13) (funext fun a => Fin.ext ?_)
  match a with
  | ⟨0, _⟩ => show win1_2.index t (0 : Fin 2) * 1024 + 1 * r.val = t.val * 1024 + r.val; omega
  | ⟨1, _⟩ => show win1_2.index t (1 : Fin 2) * 1 + 1 * i.val = i.val; omega

theorem brow_blk (c : Dev nD) (t : Fin cfg1.N) (p : Fin 1) (i : Fin 32) :
    (iblk1 V c 3 t : FVec Ideal S1x32 .f32) (ix2 p i) = brow V c (ix2 p i) := by
  have e0 : win1_3.index t (0 : Fin 2) = 0 := (idx_facts t).2.2.2.2.2.2.1
  have e1 : win1_3.index t (1 : Fin 2) = 0 := (idx_facts t).2.2.2.2.2.2.2.1
  show V c main_v20 (((cfg1.win 3).blk t).view.emb (ix2 p i)) = V c main_v20 (ix2 p i)
  refine congrArg (V c main_v20) (funext fun a => Fin.ext ?_)
  match a with
  | ⟨0, _⟩ => show win1_3.index t (0 : Fin 2) * 1 + 1 * p.val = p.val; omega
  | ⟨1, _⟩ => show win1_3.index t (1 : Fin 2) * 32 + 1 * i.val = i.val; omega

theorem A1_blk (c : Dev nD) (t : Fin cfg1.N) (p : Fin 32) (i : Fin 8) :
    (iblk1 V c 4 t : FVec Ideal S32x8 .f32) (ix2 p i) = A1 V c (ix2 p i) := by
  have e0 : win1_4.index t (0 : Fin 2) = 0 := (idx_facts t).2.2.2.2.2.2.2.2.1
  have e1 : win1_4.index t (1 : Fin 2) = 0 := (idx_facts t).2.2.2.2.2.2.2.2.2.1
  show V c main_arg6 (((cfg1.win 4).blk t).view.emb (ix2 p i)) = V c main_arg6 (ix2 p i)
  refine congrArg (V c main_arg6) (funext fun a => Fin.ext ?_)
  match a with
  | ⟨0, _⟩ => show win1_4.index t (0 : Fin 2) * 32 + 1 * p.val = p.val; omega
  | ⟨1, _⟩ => show win1_4.index t (1 : Fin 2) * 8 + 1 * i.val = i.val; omega

theorem B1_blk (c : Dev nD) (t : Fin cfg1.N) (p : Fin 8) (i : Fin 32) :
    (iblk1 V c 5 t : FVec Ideal S8x32 .f32) (ix2 p i) = B1 V c (ix2 p i) := by
  have e0 : win1_5.index t (0 : Fin 2) = 0 := (idx_facts t).2.2.2.2.2.2.2.2.2.2.1
  have e1 : win1_5.index t (1 : Fin 2) = 0 := (idx_facts t).2.2.2.2.2.2.2.2.2.2.2.1
  show V c main_arg7 (((cfg1.win 5).blk t).view.emb (ix2 p i)) = V c main_arg7 (ix2 p i)
  refine congrArg (V c main_arg7) (funext fun a => Fin.ext ?_)
  match a with
  | ⟨0, _⟩ => show win1_5.index t (0 : Fin 2) * 8 + 1 * p.val = p.val; omega
  | ⟨1, _⟩ => show win1_5.index t (1 : Fin 2) * 32 + 1 * i.val = i.val; omega

theorem W2_blk (c : Dev nD) (t : Fin cfg1.N) (p : Fin 32) (i : Fin 5) :
    (iblk1 V c 6 t : FVec Ideal S32x5 .f32) (ix2 p i) = W2 V c (ix2 p i) := by
  have e0 : win1_6.index t (0 : Fin 2) = 0 := (idx_facts t).2.2.2.2.2.2.2.2.2.2.2.2.1
  have e1 : win1_6.index t (1 : Fin 2) = 0 := (idx_facts t).2.2.2.2.2.2.2.2.2.2.2.2.2.1
  show V c main_arg8 (((cfg1.win 6).blk t).view.emb (ix2 p i)) = V c main_arg8 (ix2 p i)
  refine congrArg (V c main_arg8) (funext fun a => Fin.ext ?_)
  match a with
  | ⟨0, _⟩ => show win1_6.index t (0 : Fin 2) * 32 + 1 * p.val = p.val; omega
  | ⟨1, _⟩ => show win1_6.index t (1 : Fin 2) * 5 + 1 * i.val = i.val; omega

/-- Where an entry of output block t sits in the array. -/
theorem out_emb (t : Fin cfg1.N) (r : Fin 1024) (j : Fin 5) :
    ((cfg1.win 7).blk t).view.emb (ix2 r j) = (ix2 (rowOf t r) j : S50176x5.Idx) := by
  have e0 : win1_7.index t (0 : Fin 2) = t.val := (idx_facts t).2.2.2.2.2.2.2.2.2.2.2.2.2.2.1
  have e1 : win1_7.index t (1 : Fin 2) = 0 := (idx_facts t).2.2.2.2.2.2.2.2.2.2.2.2.2.2.2.1
  refine funext fun a => Fin.ext ?_
  match a with
  | ⟨0, _⟩ => show win1_7.index t (0 : Fin 2) * 1024 + 1 * r.val = t.val * 1024 + r.val; omega
  | ⟨1, _⟩ => show win1_7.index t (1 : Fin 2) * 5 + 1 * j.val = j.val; omega

/-- What point t writes back is block t of the whole-array function. -/
theorem flushed_eq (c : Dev nD) (t : Fin cfg1.N) :
    (dat1 V c).flushed 7 t = ((cfg1.win 7).blk t).view.read (Elt Ideal) (wholeOut V c) := by
  show (cfg1.win 7).cut (grid1.coords t) ((dat1 V c).after 7 t) = _
  rw [after1_7]
  unfold out1_7
  rw [View.canon_unit_zero hz]
  simp only [View.ld_unit_zero (S := S1024x32) hz, View.ld_unit_zero (S := S1024x1) hz, View.ld_unit_zero (S := S1x32) hz,
    View.ld_unit_zero (S := S32x8) hz, View.ld_unit_zero (S := S8x32) hz, View.ld_unit_zero (S := S32x5) hz]
  funext y
  obtain ⟨r, j, rfl⟩ : ∃ (r : Fin 1024) (j : Fin 5), y = (ix2 r j : S1024x5.Idx) := ⟨y 0, y 1, eq_ix2 (n0 := 1024) (n1 := 5) y⟩
  show k1_pay1 (F := Ideal) (k1_pay2 (F := Ideal) (iblk1 V c 1 t) (iblk1 V c 0 t) (iblk1 V c 2 t) (iblk1 V c 3 t) (iblk1 V c 4 t) (iblk1 V c 5 t)
          (iblk1 V c 6 t) (iblk1 V c 2 t)) (k1_pay3 (F := Ideal) (grid1.coords t)) (ix2 r j)
      = wholeOut V c (((cfg1.win 7).blk t).view.emb (ix2 r j))
  rw [out_emb]
  refine (pay1_apply _ _ _).trans ?_
  rw [pay3_apply, pay2_apply]
  have eg : (grid1.coords t 0).val = t.val := (idx_facts t).2.2.2.2.2.2.2.2.2.2.2.2.2.2.2.2.1
  rw [eg]
  show _ = cell (hs V c) (ns V c) (dis2d V c) (brow V c) (A1 V c) (B1 V c) (W2 V c) (rowOf t r) j
  unfold cell
  simp only [layerAt, hs_blk, ns_blk, dis_blk, brow_blk, A1_blk, B1_blk, W2_blk]
  rfl

/-! ### From the blocks to the array -/

/-- An index of the array is in point t's block iff each coordinate is in the block's range on its axis. -/
theorem mem_blk (t : Fin cfg1.N) (i : S50176x5.Idx) :
    i ∈ ((cfg1.win 7).blk t).view.set ↔ ∀ a : Fin 2, win1_7.index t a * S1024x5.size a ≤ (i a).val ∧ (i a).val < win1_7.index t a * S1024x5.size a + S1024x5.size a := by
  show i ∈ ((View.whole main_v36).slice (win1_7.rect t)).set ↔ _
  rw [View.set_slice_whole, Rect.mem_set_unit]
  exact Iff.rfl

/-- Row R of the array is in the block of point R / 1024, which is written back. -/
theorem cover (i : S50176x5.Idx) :
    ∃ t : Fin cfg1.N, (cfg1.win 7).flush t = true ∧ i ∈ ((cfg1.win 7).blk t).view.set := by
  have hi0 : (i 0).val < 50176 := (i 0).isLt
  have hi1 : (i 1).val < 5 := (i 1).isLt
  have hN : grid1.N = 49 := N_1
  have hlt : (i 0).val / 1024 < cfg1.N := by show _ < grid1.N; rw [hN]; omega
  refine ⟨⟨(i 0).val / 1024, hlt⟩, flush1_7 _, ?_⟩
  rw [mem_blk]
  have e0 : win1_7.index ⟨(i 0).val / 1024, hlt⟩ (0 : Fin 2) = (i 0).val / 1024 := (idx_facts ⟨(i 0).val / 1024, hlt⟩).2.2.2.2.2.2.2.2.2.2.2.2.2.2.1
  have e1 : win1_7.index ⟨(i 0).val / 1024, hlt⟩ (1 : Fin 2) = 0 := (idx_facts ⟨(i 0).val / 1024, hlt⟩).2.2.2.2.2.2.2.2.2.2.2.2.2.2.2.1
  intro a
  match a with
  | ⟨0, _⟩ =>
    show win1_7.index ⟨(i 0).val / 1024, hlt⟩ (0 : Fin 2) * 1024 ≤ (i 0).val ∧ (i 0).val < win1_7.index ⟨(i 0).val / 1024, hlt⟩ (0 : Fin 2) * 1024 + 1024
    omega
  | ⟨1, _⟩ =>
    show win1_7.index ⟨(i 0).val / 1024, hlt⟩ (1 : Fin 2) * 5 ≤ (i 1).val ∧ (i 1).val < win1_7.index ⟨(i 0).val / 1024, hlt⟩ (1 : Fin 2) * 5 + 5
    omega

/-- The array after the region is the whole-array function. -/
theorem final (c : Dev nD) : (dat1 V c).arrAt 7 cfg1.N = wholeOut V c :=
  (dat1 V c).arrAt_eq_of_cover 7 (wholeOut V c) (fun t _ => flushed_eq V c t) cover

/-- Row v < 50000 of region 1's output: relu of the factorised layer result, times W2, times dis v. -/
theorem final_row (c : Dev nD) (v : Fin 50000) (j : Fin 5) :
    outArr V c (ix2 (up v) j)
      = Spec.h2 (agg V c) (A1 V c) (B1 V c) (W2 V c) v j * dis2d V c (ix2 (up v) (0 : Fin 1)) := by
  show (dat1 V c).arrAt 7 cfg1.N (ix2 (up v) j) = _
  rw [final]
  show cell (hs V c) (ns V c) (dis2d V c) (brow V c) (A1 V c) (B1 V c) (W2 V c) (up v) j = _
  unfold cell Spec.h2 Spec.lora
  rw [if_pos (show (up v).val < 50000 from v.isLt), mul_one]

end Cert.KernelIdeal.R1

end
-- ==== Proof.Region2.lean ====
import proofs.«421985_j63694364999884_3_alg».proof.Proof.FrameKI
import proofs.«421985_j63694364999884_3_alg».proof.Proof.Spec
import proofs.«421985_j63694364999884_3_alg».proof.Proof.LibKeepdims

set_option maxRecDepth 16384

noncomputable section

namespace Cert.KernelIdeal.R2

open Idealize.ShloMosaic Idealize.ShloMosaic.TcCoe Idealize.ShloMosaic.ValueIdx Idealize.SL.Sem
open Cert.KernelIdeal Cert.KernelIdeal.Gen Cert.KernelIdeal.GenP

/-! ### The body's arithmetic at an index

The body of region 2 works on a block of 1024 rows. It forms the layer's result
a(r, i) = dis r · (n(r, i) + h(r, i)) + b i, multiplies by the 5 × 8 and the 8 × 5 factor, scales by 1/8, and takes
the row-wise log-softmax shifted by the row's maximum. Each stage is read here at an index (r, j) of the block. -/

/-- The first product's operand indices: the left one is (row of the output, contraction coordinate), … -/
theorem lhsA_0 (i : S1024x8.Idx) (q : dot_S1024x5_S5x8_S1024x8_1_0_0_1_n_n.contr.Idx) :
    (dot_S1024x5_S5x8_S1024x8_1_0_0_1_n_n.lhsIdx i q 0).val = (i 0).val := by
  unfold DotDims.lhsIdx
  rw [dif_neg (show ¬(0 : Fin S1024x5.rank) ∈ dot_S1024x5_S5x8_S1024x8_1_0_0_1_n_n.lhsBatch by decide), dif_pos (show (0 : Fin S1024x5.rank) ∈ dot_S1024x5_S5x8_S1024x8_1_0_0_1_n_n.lhsNonContracting by decide)]
  rfl
theorem lhsA_1 (i : S1024x8.Idx) (q : dot_S1024x5_S5x8_S1024x8_1_0_0_1_n_n.contr.Idx) :
    (dot_S1024x5_S5x8_S1024x8_1_0_0_1_n_n.lhsIdx i q 1).val = (q ⟨0, by decide⟩).val :=
  dot_S1024x5_S5x8_S1024x8_1_0_0_1_n_n.lhsIdx_val_of_single rfl i q
/-- … the right one (contraction coordinate, column of the output). -/
theorem rhsA_0 (i : S1024x8.Idx) (q : dot_S1024x5_S5x8_S1024x8_1_0_0_1_n_n.contr.Idx) :
    (dot_S1024x5_S5x8_S1024x8_1_0_0_1_n_n.rhsIdx i q 0).val = (q ⟨0, by decide⟩).val :=
  dot_S1024x5_S5x8_S1024x8_1_0_0_1_n_n.rhsIdx_val_of_single rfl i q
theorem rhsA_1 (i : S1024x8.Idx) (q : dot_S1024x5_S5x8_S1024x8_1_0_0_1_n_n.contr.Idx) :
    (dot_S1024x5_S5x8_S1024x8_1_0_0_1_n_n.rhsIdx i q 1).val = (i 1).val := by
  unfold DotDims.rhsIdx
  rw [dif_neg (show ¬(1 : Fin S5x8.rank) ∈ dot_S1024x5_S5x8_S1024x8_1_0_0_1_n_n.rhsBatch by decide), dif_pos (show (1 : Fin S5x8.rank) ∈ dot_S1024x5_S5x8_S1024x8_1_0_0_1_n_n.rhsNonContracting by decide)]
  rfl

/-- The [1024, 5] × [5, 8] product into a zero accumulator, at (r, k): the sum over the 5 contraction coordinates. -/
theorem matmulA_apply (x : FVec Ideal S1024x5 .f32) (w : FVec Ideal S5x8 .f32) (r : Fin 1024) (k : Fin 8) :
    matmul dot_S1024x5_S5x8_S1024x8_1_0_0_1_n_n none x w (constant (F := Ideal) S1024x8 .f32 0x00000000#32) (ix2 r k)
      = ∑ i : Fin 5, x (ix2 r i) * w (ix2 i k) := by
  simp only [matmul]
  rw [Ideal.matmul_constant_zero_apply, ← Equiv.sum_comp (contrEquiv1 dot_S1024x5_S5x8_S1024x8_1_0_0_1_n_n 5 rfl rfl).symm]
  refine Finset.sum_congr rfl fun i _ => ?_
  have hk := contrEquiv1_symm_val dot_S1024x5_S5x8_S1024x8_1_0_0_1_n_n 5 rfl rfl i
  have el : dot_S1024x5_S5x8_S1024x8_1_0_0_1_n_n.lhsIdx (ix2 r k) ((contrEquiv1 dot_S1024x5_S5x8_S1024x8_1_0_0_1_n_n 5 rfl rfl).symm i) = ix2 r i := funext fun a => Fin.ext (by
    match a with
    | ⟨0, _⟩ => exact lhsA_0 _ _
    | ⟨1, _⟩ => exact (lhsA_1 _ _).trans hk)
  have er : dot_S1024x5_S5x8_S1024x8_1_0_0_1_n_n.rhsIdx (ix2 r k) ((contrEquiv1 dot_S1024x5_S5x8_S1024x8_1_0_0_1_n_n 5 rfl rfl).symm i) = ix2 i k := funext fun a => Fin.ext (by
    match a with
    | ⟨0, _⟩ => exact (rhsA_0 _ _).trans hk
    | ⟨1, _⟩ => exact rhsA_1 _ _)
  rw [el, er]

/-- The second product's operand indices. -/
theorem lhsB_0 (i : S1024x5.Idx) (q : dot_S1024x8_S8x5_S1024x5_1_0_0_1_n_n.contr.Idx) :
    (dot_S1024x8_S8x5_S1024x5_1_0_0_1_n_n.lhsIdx i q 0).val = (i 0).val := by
  unfold DotDims.lhsIdx
  rw [dif_neg (show ¬(0 : Fin S1024x8.rank) ∈ dot_S1024x8_S8x5_S1024x5_1_0_0_1_n_n.lhsBatch by decide), dif_pos (show (0 : Fin S1024x8.rank) ∈ dot_S1024x8_S8x5_S1024x5_1_0_0_1_n_n.lhsNonContracting by decide)]
  rfl
theorem lhsB_1 (i : S1024x5.Idx) (q : dot_S1024x8_S8x5_S1024x5_1_0_0_1_n_n.contr.Idx) :
    (dot_S1024x8_S8x5_S1024x5_1_0_0_1_n_n.lhsIdx i q 1).val = (q ⟨0, by decide⟩).val :=
  dot_S1024x8_S8x5_S1024x5_1_0_0_1_n_n.lhsIdx_val_of_single rfl i q
theorem rhsB_0 (i : S1024x5.Idx) (q : dot_S1024x8_S8x5_S1024x5_1_0_0_1_n_n.contr.Idx) :
    (dot_S1024x8_S8x5_S1024x5_1_0_0_1_n_n.rhsIdx i q 0).val = (q ⟨0, by decide⟩).val :=
  dot_S1024x8_S8x5_S1024x5_1_0_0_1_n_n.rhsIdx_val_of_single rfl i q
theorem rhsB_1 (i : S1024x5.Idx) (q : dot_S1024x8_S8x5_S1024x5_1_0_0_1_n_n.contr.Idx) :
    (dot_S1024x8_S8x5_S1024x5_1_0_0_1_n_n.rhsIdx i q 1).val = (i 1).val := by
  unfold DotDims.rhsIdx
  rw [dif_neg (show ¬(1 : Fin S8x5.rank) ∈ dot_S1024x8_S8x5_S1024x5_1_0_0_1_n_n.rhsBatch by decide), dif_pos (show (1 : Fin S8x5.rank) ∈ dot_S1024x8_S8x5_S1024x5_1_0_0_1_n_n.rhsNonContracting by decide)]
  rfl

/-- The [1024, 8] × [8, 5] product into a zero accumulator, at (r, j): the sum over the 8 contraction coordinates. -/
theorem matmulB_apply (x : FVec Ideal S1024x8 .f32) (w : FVec Ideal S8x5 .f32) (r : Fin 1024) (j : Fin 5) :
    matmul dot_S1024x8_S8x5_S1024x5_1_0_0_1_n_n none x w (constant (F := Ideal) S1024x5 .f32 0x00000000#32) (ix2 r j)
      = ∑ k : Fin 8, x (ix2 r k) * w (ix2 k j) := by
  simp only [matmul]
  rw [Ideal.matmul_constant_zero_apply, ← Equiv.sum_comp (contrEquiv1 dot_S1024x8_S8x5_S1024x5_1_0_0_1_n_n 8 rfl rfl).symm]
  refine Finset.sum_congr rfl fun k _ => ?_
  have hk := contrEquiv1_symm_val dot_S1024x8_S8x5_S1024x5_1_0_0_1_n_n 8 rfl rfl k
  have el : dot_S1024x8_S8x5_S1024x5_1_0_0_1_n_n.lhsIdx (ix2 r j) ((contrEquiv1 dot_S1024x8_S8x5_S1024x5_1_0_0_1_n_n 8 rfl rfl).symm k) = ix2 r k := funext fun a => Fin.ext (by
    match a with
    | ⟨0, _⟩ => exact lhsB_0 _ _
    | ⟨1, _⟩ => exact (lhsB_1 _ _).trans hk)
  have er : dot_S1024x8_S8x5_S1024x5_1_0_0_1_n_n.rhsIdx (ix2 r j) ((contrEquiv1 dot_S1024x8_S8x5_S1024x5_1_0_0_1_n_n 8 rfl rfl).symm k) = ix2 k j := funext fun a => Fin.ext (by
    match a with
    | ⟨0, _⟩ => exact (rhsB_0 _ _).trans hk
    | ⟨1, _⟩ => exact rhsB_1 _ _)
  rw [el, er]

/-- The layer's result on the block, as the body forms it: the weight column broadcast along the rows, times the sum of
    the two row blocks, plus the bias row broadcast down the block. -/
def aggBlk (v0 v2 : FVec Ideal S1024x5 .f32) (v5 : FVec Ideal S1024x1 .f32) (v9 : FVec Ideal S1x5 .f32) : FVec Ideal S1024x5 .f32 :=
  addf (mulf (broadcastTo S1024x5 (shapeCast S1024x1 v5 shapeCasts_S1024x1_S1024x1) broadcasts_S1024x1_S1024x5)
      (addf (shapeCast S1024x5 v0 shapeCasts_S1024x5_S1024x5) (shapeCast S1024x5 v2 shapeCasts_S1024x5_S1024x5)))
    (broadcastTo S1024x5 (shapeCast S1x5 v9 shapeCasts_S1x5_S1x5) broadcasts_S1x5_S1024x5)

theorem aggBlk_apply (v0 v2 : FVec Ideal S1024x5 .f32) (v5 : FVec Ideal S1024x1 .f32) (v9 : FVec Ideal S1x5 .f32) (r : Fin 1024) (i : Fin 5) :
    aggBlk v0 v2 v5 v9 (ix2 r i) = v5 (ix2 r (0 : Fin 1)) * (v0 (ix2 r i) + v2 (ix2 r i)) + v9 (ix2 (0 : Fin 1) i) := by
  unfold aggBlk
  rw [addf_apply, mulf_apply, addf_apply, Cert.Keepdims.broadcastTo_a1_ab_apply, broadcastTo_1b_ab_apply,
    shapeCast_self, shapeCast_self, shapeCast_self, shapeCast_self]

/-- The factorised result on the block: ((x · A) · B) · 1/8, both products into zero accumulators. -/
def zBlk (x : FVec Ideal S1024x5 .f32) (v13 : FVec Ideal S5x8 .f32) (v15 : FVec Ideal S8x5 .f32) : FVec Ideal S1024x5 .f32 :=
  mulf (matmul dot_S1024x8_S8x5_S1024x5_1_0_0_1_n_n none
      (matmul dot_S1024x5_S5x8_S1024x8_1_0_0_1_n_n none x v13 (constant (F := Ideal) S1024x8 .f32 0x00000000#32))
      v15 (constant (F := Ideal) S1024x5 .f32 0x00000000#32))
    (broadcast S1024x5 (Scalar.ofBits (F := Ideal) .f32 0x3E000000#32))

theorem zBlk_apply (x : FVec Ideal S1024x5 .f32) (v13 : FVec Ideal S5x8 .f32) (v15 : FVec Ideal S8x5 .f32) (r : Fin 1024) (j : Fin 5) :
    zBlk x v13 v15 (ix2 r j) = (∑ k : Fin 8, (∑ i : Fin 5, x (ix2 r i) * v13 (ix2 i k)) * v15 (ix2 k j)) * Spec.c125 := by
  unfold zBlk
  rw [mulf_apply, matmulB_apply]
  refine congrArg₂ (· * ·) (Finset.sum_congr rfl fun k _ => ?_) rfl
  rw [matmulA_apply]

/-- The row-wise log-softmax on the block, shifted by the row's maximum: z − M − log Σ exp (z − M), the maximum and the
    sum taken over the second axis and put back as columns. -/
def lsmBlk (z : FVec Ideal S1024x5 .f32) : FVec Ideal S1024x5 .f32 :=
  subf (subf z (broadcastTo S1024x5 (shapeCast S1024x1 (multiReduction (F := Ideal) .maximumf [1] S1024 z 0xFF800000#32 reduces_S1024x5_S1024 (.inl rfl) rfl) shapeCasts_S1024_S1024x1) broadcasts_S1024x1_S1024x5))
    (broadcastTo S1024x5 (log (shapeCast S1024x1 (multiReduction (F := Ideal) .add [1] S1024
        (exp (subf z (broadcastTo S1024x5 (shapeCast S1024x1 (multiReduction (F := Ideal) .maximumf [1] S1024 z 0xFF800000#32 reduces_S1024x5_S1024 (.inl rfl) rfl) shapeCasts_S1024_S1024x1) broadcasts_S1024x1_S1024x5)))
        0x00000000#32 reduces_S1024x5_S1024 (.inl rfl) rfl) shapeCasts_S1024_S1024x1)) broadcasts_S1024x1_S1024x5)

/-- A row's maximum on the block, folded from −∞. -/
def rowMaxBlk (z : FVec Ideal S1024x5 .f32) (r : Fin 1024) : EReal :=
  (Finset.univ : Finset (Fin 5)).fold max Spec.ninf (fun k => z (ix2 r k))

theorem lsmBlk_apply (z : FVec Ideal S1024x5 .f32) (r : Fin 1024) (j : Fin 5) :
    lsmBlk z (ix2 r j) = (z (ix2 r j) - rowMaxBlk z r) - Ideal.log (∑ k : Fin 5, Ideal.exp (z (ix2 r k) - rowMaxBlk z r)) := by
  have hM : ∀ c : Fin 5, broadcastTo S1024x5 (shapeCast S1024x1 (multiReduction (F := Ideal) .maximumf [1] S1024 z 0xFF800000#32 reduces_S1024x5_S1024 (.inl rfl) rfl) shapeCasts_S1024_S1024x1) broadcasts_S1024x1_S1024x5 (ix2 r c) = rowMaxBlk z r := fun c => by
    rw [Cert.Keepdims.broadcastTo_a1_ab_apply, Cert.Keepdims.shapeCast_a_a1_apply, Cert.Keepdims.max_rows_f32]
    rfl
  unfold lsmBlk
  rw [subf_apply, subf_apply, hM, Cert.Keepdims.broadcastTo_a1_ab_apply]
  refine congrArg (fun t => (z (ix2 r j) - rowMaxBlk z r) - t) ?_
  show FloatOps.log _ = _
  rw [Ideal.log_def, Cert.Keepdims.shapeCast_a_a1_apply, Cert.Keepdims.add_rows_f32]
  refine congrArg Ideal.log (Finset.sum_congr rfl fun k _ => ?_)
  show FloatOps.exp _ = _
  rw [Ideal.exp_def, subf_apply, hM]

/-- The body's result is these three stages composed: the two sides unfold to the same term. -/
theorem pay_eq (v0 v2 : FVec Ideal S1024x5 .f32) (v5 : FVec Ideal S1024x1 .f32) (v9 : FVec Ideal S1x5 .f32) (v13 : FVec Ideal S5x8 .f32) (v15 : FVec Ideal S8x5 .f32) :
    k2_pay1 (F := Ideal) v0 v2 v5 v9 v13 v15 = lsmBlk (zBlk (aggBlk v0 v2 v5 v9) v13 v15) := rfl

variable (V : (c : Dev nD) → (b : Ref sig .tc) → Buf (Elt Ideal) ((c : Thread nD τ).loc b))

/-- Region 2's arrays as the region finds them, by their literal types: the scaled second table, its neighbour
    sums, the weight column dis, the bias row b2, and A2, B2. -/
abbrev hs (c : Dev nD) : Spec.Arr2 50176 5 := V c main_v36
abbrev ns (c : Dev nD) : Spec.Arr2 50176 5 := V c main_v49
abbrev dis2d (c : Dev nD) : Spec.Arr2 50176 1 := V c main_v13
abbrev brow (c : Dev nD) : Spec.Arr2 1 5 := V c main_v21
abbrev A2 (c : Dev nD) : Spec.Arr2 5 8 := V c main_arg10
abbrev B2 (c : Dev nD) : Spec.Arr2 8 5 := V c main_arg11
abbrev up (v : Fin 50000) : Fin 50176 := ⟨v.val, by omega⟩
/-- Region 2's output array after the region. -/
abbrev outArr (c : Dev nD) : Spec.Arr2 50176 5 := (dat2 V c).arrAt 6 cfg2.N
/-- The layer's result at node v, column i: dis v · (neighbour sum + own scaled row) + bias. -/
abbrev agg (c : Dev nD) (v : Fin 50000) (i : Fin 5) : EReal :=
  dis2d V c (ix2 (up v) (0 : Fin 1)) * (ns V c (ix2 (up v) i) + hs V c (ix2 (up v) i)) + brow V c (ix2 (0 : Fin 1) i)
/-- The factorised layer result. -/
abbrev z (c : Dev nD) : Fin 50000 → Fin 5 → EReal := Spec.lora (agg V c) (A2 V c) (B2 V c)

/-! ### The output array as one function of the region's arrays

Row R of the padded arrays (R < 50176 = 49 · 1024) goes through the same arithmetic whatever block it lies in, so
the blocks the 49 grid points write back are the restrictions of one function `G` of the whole arrays. -/

/-- The layer's result at row R of the padded arrays, column i. -/
def aggRow (c : Dev nD) (R : Fin 50176) (i : Fin 5) : EReal :=
  dis2d V c (ix2 R (0 : Fin 1)) * (ns V c (ix2 R i) + hs V c (ix2 R i)) + brow V c (ix2 (0 : Fin 1) i)
/-- Its factorisation ((a · A2) · B2) · 1/8 at row R, column j. -/
def zRow (c : Dev nD) (R : Fin 50176) (j : Fin 5) : EReal :=
  (∑ l : Fin 8, (∑ i : Fin 5, aggRow V c R i * A2 V c (ix2 i l)) * B2 V c (ix2 l j)) * Spec.c125
/-- Row R's maximum, folded from −∞. -/
def maxRow (c : Dev nD) (R : Fin 50176) : EReal :=
  (Finset.univ : Finset (Fin 5)).fold max Spec.ninf (fun k => zRow V c R k)
/-- The whole output array: the log-softmax of every row, shifted by the row's maximum. -/
def G (c : Dev nD) : Spec.Arr2 50176 5 := fun i =>
  (zRow V c (i 0) (i 1) - maxRow V c (i 0)) - Ideal.log (∑ k : Fin 5, Ideal.exp (zRow V c (i 0) k - maxRow V c (i 0)))

theorem hz0 : (![0, 0] : Fin 2 → Nat) = fun _ => 0 := funext fun a => by fin_cases a <;> rfl

/-- The block index maps over the 49 grid points: the row-blocked windows sit at block (t, 0), the small operands at
    block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Block t of the scaled table is its rows 1024 t … 1024 t + 1023. -/
theorem blk0_apply (c : Dev nD) (t : Fin cfg2.N) (p : Fin 1024) (i : Fin 5) (R : Fin 50176) (hR : R.val = t.val * 1024 + p.val) :
    (iblk2 V c 0 t : FVec Ideal S1024x5 .f32) (ix2 p i) = hs V c (ix2 R i) := by
  obtain ⟨e0, e1, -⟩ := idx_facts t
  unfold iblk2
  rw [View.read_apply]
  show V c main_v36 _ = V c main_v36 _
  congr 1
  funext a
  apply Fin.ext
  match a with
  | ⟨0, _⟩ => show win2_0.index t 0 * 1024 + 1 * p.val = R.val; rw [e0, hR]; omega
  | ⟨1, _⟩ => show win2_0.index t 1 * 5 + 1 * i.val = i.val; rw [e1]; omega

/-- Block t of the neighbour sums is their rows 1024 t … 1024 t + 1023. -/
theorem blk1_apply (c : Dev nD) (t : Fin cfg2.N) (p : Fin 1024) (i : Fin 5) (R : Fin 50176) (hR : R.val = t.val * 1024 + p.val) :
    (iblk2 V c 1 t : FVec Ideal S1024x5 .f32) (ix2 p i) = ns V c (ix2 R i) := by
  obtain ⟨-, -, e0, e1, -⟩ := idx_facts t
  unfold iblk2
  rw [View.read_apply]
  show V c main_v49 _ = V c main_v49 _
  congr 1
  funext a
  apply Fin.ext
  match a with
  | ⟨0, _⟩ => show win2_1.index t 0 * 1024 + 1 * p.val = R.val; rw [e0, hR]; omega
  | ⟨1, _⟩ => show win2_1.index t 1 * 5 + 1 * i.val = i.val; rw [e1]; omega

/-- Block t of the weight column is its rows 1024 t … 1024 t + 1023. -/
theorem blk2_apply (c : Dev nD) (t : Fin cfg2.N) (p : Fin 1024) (R : Fin 50176) (hR : R.val = t.val * 1024 + p.val) :
    (iblk2 V c 2 t : FVec Ideal S1024x1 .f32) (ix2 p (0 : Fin 1)) = dis2d V c (ix2 R (0 : Fin 1)) := by
  obtain ⟨-, -, -, -, e0, e1, -⟩ := idx_facts t
  unfold iblk2
  rw [View.read_apply]
  show V c main_v13 _ = V c main_v13 _
  congr 1
  funext a
  apply Fin.ext
  match a with
  | ⟨0, _⟩ => show win2_2.index t 0 * 1024 + 1 * p.val = R.val; rw [e0, hR]; omega
  | ⟨1, _⟩ => show win2_2.index t 1 * 1 + 1 * 0 = 0; rw [e1]

/-- The bias row, A2 and B2 are read whole at every point. -/
theorem blk3_apply (c : Dev nD) (t : Fin cfg2.N) (i : Fin 5) :
    (iblk2 V c 3 t : FVec Ideal S1x5 .f32) (ix2 (0 : Fin 1) i) = brow V c (ix2 (0 : Fin 1) i) := by
  obtain ⟨-, -, -, -, -, -, e0, e1, -⟩ := idx_facts t
  unfold iblk2
  rw [View.read_apply]
  show V c main_v21 _ = V c main_v21 _
  congr 1
  funext a
  apply Fin.ext
  match a with
  | ⟨0, _⟩ => show win2_3.index t 0 * 1 + 1 * 0 = 0; rw [e0]
  | ⟨1, _⟩ => show win2_3.index t 1 * 5 + 1 * i.val = i.val; rw [e1]; omega

theorem blk4_apply (c : Dev nD) (t : Fin cfg2.N) (i : Fin 5) (l : Fin 8) :
    (iblk2 V c 4 t : FVec Ideal S5x8 .f32) (ix2 i l) = A2 V c (ix2 i l) := by
  obtain ⟨-, -, -, -, -, -, -, -, e0, e1, -⟩ := idx_facts t
  unfold iblk2
  rw [View.read_apply]
  show V c main_arg10 _ = V c main_arg10 _
  congr 1
  funext a
  apply Fin.ext
  match a with
  | ⟨0, _⟩ => show win2_4.index t 0 * 5 + 1 * i.val = i.val; rw [e0]; omega
  | ⟨1, _⟩ => show win2_4.index t 1 * 8 + 1 * l.val = l.val; rw [e1]; omega

theorem blk5_apply (c : Dev nD) (t : Fin cfg2.N) (l : Fin 8) (j : Fin 5) :
    (iblk2 V c 5 t : FVec Ideal S8x5 .f32) (ix2 l j) = B2 V c (ix2 l j) := by
  obtain ⟨-, -, -, -, -, -, -, -, -, -, e0, e1, -⟩ := idx_facts t
  unfold iblk2
  rw [View.read_apply]
  show V c main_arg11 _ = V c main_arg11 _
  congr 1
  funext a
  apply Fin.ext
  match a with
  | ⟨0, _⟩ => show win2_5.index t 0 * 8 + 1 * l.val = l.val; rw [e0]; omega
  | ⟨1, _⟩ => show win2_5.index t 1 * 5 + 1 * j.val = j.val; rw [e1]; omega

/-- One entry of a point's result: when the six blocks are the rows 1024 T … of the arrays (and the small operands
    whole), entry (p, q) of the body's result is `G` at row 1024 T + p, column q. -/
theorem point_eq (c : Dev nD) (T : ℕ)
    (x0 x1 : FVec Ideal S1024x5 .f32) (x2 : FVec Ideal S1024x1 .f32) (x3 : FVec Ideal S1x5 .f32) (x4 : FVec Ideal S5x8 .f32) (x5 : FVec Ideal S8x5 .f32)
    (h0 : ∀ (p : Fin 1024) (i : Fin 5) (R : Fin 50176), R.val = T * 1024 + p.val → x0 (ix2 p i) = hs V c (ix2 R i))
    (h1 : ∀ (p : Fin 1024) (i : Fin 5) (R : Fin 50176), R.val = T * 1024 + p.val → x1 (ix2 p i) = ns V c (ix2 R i))
    (h2 : ∀ (p : Fin 1024) (R : Fin 50176), R.val = T * 1024 + p.val → x2 (ix2 p (0 : Fin 1)) = dis2d V c (ix2 R (0 : Fin 1)))
    (h3 : ∀ i : Fin 5, x3 (ix2 (0 : Fin 1) i) = brow V c (ix2 (0 : Fin 1) i))
    (h4 : ∀ (i : Fin 5) (l : Fin 8), x4 (ix2 i l) = A2 V c (ix2 i l))
    (h5 : ∀ (l : Fin 8) (j : Fin 5), x5 (ix2 l j) = B2 V c (ix2 l j))
    (p : Fin 1024) (q : Fin 5) (R : Fin 50176) (hR : R.val = T * 1024 + p.val) :
    lsmBlk (zBlk (aggBlk x1 x0 x2 x3) x4 x5) (ix2 p q) = G V c (ix2 R q) := by
  have hzr : ∀ j : Fin 5, zBlk (aggBlk x1 x0 x2 x3) x4 x5 (ix2 p j) = zRow V c R j := fun j => by
    rw [zBlk_apply]
    unfold zRow
    refine congrArg (· * Spec.c125) (Finset.sum_congr rfl fun l _ => ?_)
    refine congrArg₂ (· * ·) (Finset.sum_congr rfl fun i _ => ?_) (h5 l j)
    rw [aggBlk_apply, h1 p i R hR, h0 p i R hR, h2 p R hR, h3 i, h4 i l]
    rfl
  have hM : rowMaxBlk (zBlk (aggBlk x1 x0 x2 x3) x4 x5) p = maxRow V c R :=
    congrArg (fun f => (Finset.univ : Finset (Fin 5)).fold max Spec.ninf f) (funext hzr)
  rw [lsmBlk_apply, hM, hzr]
  show _ = (zRow V c R q - maxRow V c R) - Ideal.log (∑ k : Fin 5, Ideal.exp (zRow V c R k - maxRow V c R))
  refine congrArg (fun s => (zRow V c R q - maxRow V c R) - Ideal.log s) (Finset.sum_congr rfl fun k _ => ?_)
  rw [hzr]

/-- What grid point t writes back is block t of `G`. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz0]
  simp only [View.ld_unit_zero (S := S1024x5) hz0, View.ld_unit_zero (S := S1024x1) hz0, View.ld_unit_zero (S := S1x5) hz0,
    View.ld_unit_zero (S := S5x8) hz0, View.ld_unit_zero (S := S8x5) hz0]
  rw [pay_eq]
  obtain ⟨-, -, -, -, -, -, -, -, -, -, -, -, e0, e1⟩ := idx_facts t
  funext y
  rw [View.read_apply]
  have hN : t.val < 49 := Nat.lt_of_lt_of_eq t.isLt N_2
  have hy0 : (y 0).val < 1024 := (y 0).isLt
  have hy1 : (y 1).val < 5 := (y 1).isLt
  have he : ((cfg2.win 6).blk t).view.emb y = ix2 (⟨t.val * 1024 + (y 0).val, by omega⟩ : Fin 50176) (⟨(y 1).val, hy1⟩ : Fin 5) := by
    funext a
    apply Fin.ext
    match a with
    | ⟨0, _⟩ => show win2_6.index t 0 * 1024 + 1 * (y 0).val = t.val * 1024 + (y 0).val; rw [e0]; omega
    | ⟨1, _⟩ => show win2_6.index t 1 * 5 + 1 * (y 1).val = (y 1).val; rw [e1]; omega
  have hy : y = ix2 (⟨(y 0).val, hy0⟩ : Fin 1024) (⟨(y 1).val, hy1⟩ : Fin 5) := by
    funext a
    match a with
    | ⟨0, _⟩ => rfl
    | ⟨1, _⟩ => rfl
  rw [he]
  refine (congrArg (lsmBlk (zBlk (aggBlk (iblk2 V c 1 t) (iblk2 V c 0 t) (iblk2 V c 2 t) (iblk2 V c 3 t)) (iblk2 V c 4 t) (iblk2 V c 5 t))) hy).trans ?_
  exact point_eq V c t.val (iblk2 V c 0 t) (iblk2 V c 1 t) (iblk2 V c 2 t) (iblk2 V c 3 t) (iblk2 V c 4 t) (iblk2 V c 5 t)
    (fun p i R h => blk0_apply V c t p i R h) (fun p i R h => blk1_apply V c t p i R h) (fun p R h => blk2_apply V c t p R h)
    (fun i => blk3_apply V c t i) (fun i l => blk4_apply V c t i l) (fun l j => blk5_apply V c t l j)
    ⟨(y 0).val, hy0⟩ ⟨(y 1).val, hy1⟩ ⟨t.val * 1024 + (y 0).val, by omega⟩ rfl

/-- An index of the output array is in point t's block iff each coordinate is in the block's range on its axis. -/
theorem mem_blk (t : Fin cfg2.N) (i : S50176x5.Idx) :
    i ∈ ((cfg2.win 6).blk t).view.set ↔ ∀ a : Fin 2, win2_6.index t a * S1024x5.size a ≤ (i a).val ∧ (i a).val < win2_6.index t a * S1024x5.size a + S1024x5.size a := by
  show i ∈ ((View.whole main_v50).slice (win2_6.rect t)).set ↔ _
  rw [View.set_slice_whole, Rect.mem_set_unit]
  exact Iff.rfl

/-- Row r of the output array is covered by grid point r / 1024 (50176 = 49 · 1024). -/
theorem cover (i : S50176x5.Idx) : ∃ t : Fin cfg2.N, (cfg2.win 6).flush t = true ∧ i ∈ ((cfg2.win 6).blk t).view.set := by
  have hi0 : (i 0).val < 50176 := (i 0).isLt
  have hi1 : (i 1).val < 5 := (i 1).isLt
  obtain ⟨t, ht⟩ : ∃ t : Fin cfg2.N, t.val = (i 0).val / 1024 :=
    ⟨⟨(i 0).val / 1024, Nat.lt_of_lt_of_eq (by omega : (i 0).val / 1024 < 49) N_2.symm⟩, rfl⟩
  obtain ⟨-, -, -, -, -, -, -, -, -, -, -, -, e0, e1⟩ := idx_facts t
  refine ⟨t, flush2_6 t, ?_⟩
  rw [mem_blk]
  intro a
  match a with
  | ⟨0, _⟩ =>
    show win2_6.index t 0 * 1024 ≤ (i 0).val ∧ (i 0).val < win2_6.index t 0 * 1024 + 1024
    rw [e0, ht]; omega
  | ⟨1, _⟩ =>
    show win2_6.index t 1 * 5 ≤ (i 1).val ∧ (i 1).val < win2_6.index t 1 * 5 + 5
    rw [e1]; omega

/-- The output array after the region is `G`. -/
theorem final (c : Dev nD) : outArr V c = G V c :=
  (dat2 V c).arrAt_eq_of_cover 6 (G V c) (fun t _ => flushed_eq V c t) cover

/-- Row v < 50000 of region 2's output: the row-wise log-softmax of the factorised layer result, shifted by the row's maximum. -/
theorem final_row (c : Dev nD) (v : Fin 50000) (j : Fin 5) :
    outArr V c (ix2 (up v) j) = Spec.lsm (z V c) (Spec.rowMax (z V c)) v j := by
  rw [final V c]
  rfl

end Cert.KernelIdeal.R2

end
-- ==== Proof.KArgs.lean ====
/-
  The kernel program's twelve argument arrays as launched, by their literal types, and a node's row in a padded array.
-/
import proofs.«421985_j63694364999884_3_alg».proof.Proof.FrameKI
import proofs.«421985_j63694364999884_3_alg».proof.Proof.Spec

set_option maxRecDepth 16384

noncomputable section

namespace Cert.KernelIdeal.KH

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ) (ρ : Dev nD → PrngReg)

abbrev ax (c : Dev nD) : Spec.Arr2 50000 128 := m ((c : Thread nD τ).loc main_arg0)
abbrev aei (c : Dev nD) : Spec.IArr2 2 1600000 := m ((c : Thread nD τ).loc main_arg1)
abbrev adom (c : Dev nD) : Spec.IArr1 50000 := m ((c : Thread nD τ).loc main_arg2)
abbrev aemb (c : Dev nD) : Spec.Arr2 3 4096 := m ((c : Thread nD τ).loc main_arg3)
abbrev aW1 (c : Dev nD) : Spec.Arr2 4224 32 := m ((c : Thread nD τ).loc main_arg4)
abbrev ab1 (c : Dev nD) : Spec.Arr1 32 := m ((c : Thread nD τ).loc main_arg5)
abbrev aA1 (c : Dev nD) : Spec.Arr2 32 8 := m ((c : Thread nD τ).loc main_arg6)
abbrev aB1 (c : Dev nD) : Spec.Arr2 8 32 := m ((c : Thread nD τ).loc main_arg7)
abbrev aW2 (c : Dev nD) : Spec.Arr2 32 5 := m ((c : Thread nD τ).loc main_arg8)
abbrev ab2 (c : Dev nD) : Spec.Arr1 5 := m ((c : Thread nD τ).loc main_arg9)
abbrev aA2 (c : Dev nD) : Spec.Arr2 5 8 := m ((c : Thread nD τ).loc main_arg10)
abbrev aB2 (c : Dev nD) : Spec.Arr2 8 5 := m ((c : Thread nD τ).loc main_arg11)
/-- A node's row in a padded array. -/
abbrev up (v : Fin 50000) : Fin 50176 := ⟨v.val, by omega⟩

end Cert.KernelIdeal.KH

end
-- ==== Proof.LibScatterGather.lean ====
/-
  A scatter that adds rows into a table, and a take from a vector, read at an index.

  `jax.ops.segment_sum(u, seg, num_segments = N)` over n update rows is a `stablehlo.scatter` with an `add` body whose
  scatter indices are the [n × 1] column of segment numbers: the table's axis 0 is the inserted, scatter-indexed axis
  (and, for a rank-2 table, its axis 1 is the update's one window axis), and the index vector lies on axis 1 of the
  scatter indices. At the extended reals its entry (v, j) is the table's entry plus the sum of the update entries
  (e, j) over the rows e whose segment number, read signed, is v; a row whose number is not a row of the table is
  dropped. `vec[idx]` over a vector of length N and n positions is the `stablehlo.gather` with the same index column,
  the vector's one axis collapsed and start-indexed: entry p is the vector at position p's index read signed and
  clamped into 0 … N − 1.
-/
import Idealize.ShloMosaic.Lib.ValueIdx
import Idealize.ShloMosaic.PureOps.ShapeOps
import Idealize.ShloMosaic.PureOps.Dims
import Idealize.ShloMosaic.PureOps.Contract
import Idealize.ShloMosaic.PureOps.Ideal

noncomputable section

namespace Cert.Lib

open Idealize.ShloMosaic Idealize.ShloMosaic.ValueIdx

/-- WHERE AN UPDATE LANDS. Update index `j` lands at operand index `i` exactly when on every operand axis the start
    (read signed) plus the window coordinate is `i`'s coordinate; a sum outside the operand lands nowhere. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 : (d.start j idx a + (d.window j a : ℤ)).toNat = (i a).val := congrArg Fin.val (congrFun hf a)
      have h2 := h a
      omega
    · intro hf
      funext a
      apply Fin.ext
      have h1 := hf a
      show (d.start j idx a + (d.window j a : ℤ)).toNat = (i a).val
      omega
  · rename_i h
    constructor
    · intro hf
      exact absurd hf (by simp)
    · intro hf
      exfalso
      apply h
      intro a
      have h1 := hf a
      have h2 := (i a).isLt
      omega

/-- A rank-1 index set is its one coordinate's range. -/
def idxFin1 {n : Nat} : (⟨1, ![n]⟩ : Shape).Idx ≃ Fin n where
  toFun i := i 0
  invFun a := ix1 a
  left_inv i := (eq_ix1 i).symm
  right_inv _ := rfl

/-- The start of update (e, c)'s window on the table's axis 0 is row e's scatter index read signed. -/
theorem rows_start0 {N C n w : Nat} (d : ScatterDims ⟨2, ![N, C]⟩ ⟨2, ![n, 1]⟩ ⟨2, ![n, C]⟩)
    (huw : d.updateWindowDims = [1]) (hsd : d.scatterDimsToOperandDims = [0]) (hivd : d.indexVectorDim = 1)
    (idx : IVec ⟨2, ![n, 1]⟩ w) (e : Fin n) (c : Fin C) :
    d.start (ix2 e c) idx 0 = (idx (ix2 e (0 : Fin 1))).toInt := by
  -- the update's axis 1 is its window axis, so each of its scatter axes is axis 0
  have hAll : ∀ y ∈ d.uScatter, y = 0 := by
    intro y hy
    have h1 : y ∉ d.updateWindowDims := by have h0 := (List.mem_filter.1 hy).2; simpa using h0
    rw [huw] at h1
    have h2 : y ≠ 1 := fun e => h1 (List.mem_singleton.2 e)
    apply Fin.ext
    have h3 : y.val ≠ 1 := fun e => h2 (Fin.ext e)
    have := y.isLt
    show y.val = 0
    change y.val < 2 at this
    omega
  have hm : (0 : Fin 2) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [hAll _ (List.getElem_mem _)]
    rfl
  | ⟨1, _⟩ =>
    unfold ScatterDims.siIdx
    rw [dif_pos (by rw [hivd])]
    apply Fin.ext
    show List.idxOf (0 : Fin 2) d.scatterDimsToOperandDims = 0
    rw [hsd]; simp

/-- Update (e, c) lands at entry (v, j) of the table exactly when row e's scatter index, read signed, is v and its
    column c is j: axis 0 of the table is inserted (start only), axis 1 carries the window coordinate (no start). -/
theorem rows_lands {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (idx : IVec ⟨2, ![n, 1]⟩ w) (e : Fin n) (c : Fin C) (v : Fin N) (j : Fin C) :
    d.resultIdx? (ix2 e c) idx = some (ix2 v j) ↔ (idx (ix2 e (0 : Fin 1))).toInt = (v.val : ℤ) ∧ c = j := by
  rw [resultIdx?_eq_some_iff]
  have hk0 : (0 : Fin 2) ∉ d.sKept := by
    intro h
    have h0 := (List.mem_filter.1 h).2
    rw [hiw] at h0
    simp at h0
  have hk1 : (1 : Fin 2) ∈ d.sKept := by
    apply List.mem_filter.2
    refine ⟨List.mem_finRange _, ?_⟩
    rw [hiw]
    simp
  have hw0 : d.window (ix2 e c) 0 = 0 := by unfold ScatterDims.window; rw [dif_neg hk0]
  have hwAll : ∀ y ∈ d.updateWindowDims, y = 1 := by
    intro y hy; rw [huw] at hy; exact List.mem_singleton.1 hy
  have hw1 : d.window (ix2 e c) 1 = c.val := by
    unfold ScatterDims.window
    rw [dif_pos hk1, hwAll _ (List.getElem_mem _)]
    rfl
  have hm1 : (1 : Fin 2) ∉ d.scatterDimsToOperandDims := by rw [hsd]; simp
  have hs1 : d.start (ix2 e c) idx 1 = 0 := by unfold ScatterDims.start; rw [dif_neg hm1]
  constructor
  · intro h
    have h0 : d.start (ix2 e c) idx 0 + (d.window (ix2 e c) 0 : ℤ) = (v.val : ℤ) := h 0
    have h1 : d.start (ix2 e c) idx 1 + (d.window (ix2 e c) 1 : ℤ) = (j.val : ℤ) := h 1
    rw [rows_start0 d huw hsd hivd, hw0] at h0
    rw [hs1, hw1] at h1
    refine ⟨by simpa using h0, ?_⟩
    apply Fin.ext
    have h2 : (c.val : ℤ) = (j.val : ℤ) := by simpa using h1
    exact_mod_cast h2
  · rintro ⟨h, rfl⟩ a
    match a with
    | ⟨0, _⟩ =>
      show d.start (ix2 e c) idx 0 + (d.window (ix2 e c) 0 : ℤ) = (v.val : ℤ)
      rw [rows_start0 d huw hsd hivd, hw0, h]
      simp
    | ⟨1, _⟩ =>
      show d.start (ix2 e c) idx 1 + (d.window (ix2 e c) 1 : ℤ) = (c.val : ℤ)
      rw [hs1, hw1]
      simp

/-- ROWS ADDED INTO A TABLE. An accumulating scatter into an [N × C] table of n update rows [n × C] at an [n × 1]
    column of row numbers (`huw` … `hivd`: the printed dimension numbers, each by `rfl`), at the extended reals:
    entry (v, j) is the table's plus the sum over the update rows e whose number, read signed, is v, of the update's
    entry (e, j). -/
theorem scatterAdd_rows {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (v : Fin N) (j : Fin C) :
    Host.scatterAdd (F := Ideal) (φ := .f32) d x idx upd (ix2 v j)
      = x (ix2 v j) + ∑ e : Fin n, if (idx (ix2 e (0 : Fin 1))).toInt = (v.val : ℤ) then upd (ix2 e j) else 0 := by
  unfold Host.scatterAdd
  rw [Ideal.hostScatterAdd_def]
  unfold Ideal.hostScatterAdd
  congr 1
  -- the filtered sum as a sum over all update entries, row by row
  rw [Finset.sum_filter, sum_idx2]
  refine Finset.sum_congr rfl (fun e _ => ?_)
  by_cases hc : (idx (ix2 e (0 : Fin 1))).toInt = (v.val : ℤ)
  · -- a row whose number is v gives its entry in column j and nothing else
    rw [if_pos hc, Finset.sum_eq_single j]
    · rw [if_pos ((rows_lands d huw hiw hsd hivd idx e j v j).2 ⟨hc, rfl⟩)]
    · intro c _ hcj
      rw [if_neg (fun h => hcj ((rows_lands d huw hiw hsd hivd idx e c v j).1 h).2)]
    · intro h
      exact absurd (Finset.mem_univ _) h
  · -- a row whose number is not v gives nothing
    rw [if_neg hc]
    apply Finset.sum_eq_zero
    intro c _
    rw [if_neg (fun h => hc ((rows_lands d huw hiw hsd hivd idx e c v j).1 h).1)]

/-- The start of update e's window on the vector's axis is its scatter index read signed. -/
theorem vec_start {N n w : Nat} (d : ScatterDims ⟨1, ![N]⟩ ⟨2, ![n, 1]⟩ ⟨1, ![n]⟩)
    (hsd : d.scatterDimsToOperandDims = [0]) (hivd : d.indexVectorDim = 1)
    (idx : IVec ⟨2, ![n, 1]⟩ w) (e : Fin n) :
    d.start (ix1 e) idx 0 = (idx (ix2 e (0 : Fin 1))).toInt := by
  -- the update has one axis, so each of its scatter axes is axis 0
  have hAll : ∀ y ∈ d.uScatter, y = 0 := by
    intro y _
    apply Fin.ext
    have := y.isLt
    change y.val < 1 at this
    show y.val = 0
    omega
  have hm : (0 : Fin 1) ∈ d.scatterDimsToOperandDims := by rw [hsd]; exact List.mem_singleton.mpr rfl
  unfold ScatterDims.start
  rw [dif_pos hm]
  congr 2
  funext b
  match b with
  | ⟨0, _⟩ =>
    unfold ScatterDims.siIdx
    rw [dif_neg (by rw [hivd]; simp)]
    unfold ScatterDims.siCoord
    apply Fin.ext
    simp only [Fin.val_cast]
    rw [hAll _ (List.getElem_mem _)]
    rfl
  | ⟨1, _⟩ =>
    unfold ScatterDims.siIdx
    rw [dif_pos (by rw [hivd])]
    apply Fin.ext
    show List.idxOf (0 : Fin 1) d.scatterDimsToOperandDims = 0
    rw [hsd]; simp

/-- Update e lands at position v of the vector exactly when its scatter index, read signed, is v. -/
theorem vec_lands {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (e : Fin n) (v : Fin N) :
    d.resultIdx? (ix1 e) idx = some (ix1 v) ↔ (idx (ix2 e (0 : Fin 1))).toInt = (v.val : ℤ) := by
  rw [resultIdx?_eq_some_iff]
  -- the vector's axis is inserted: no window coordinate on it
  have hk : (0 : Fin 1) ∉ d.sKept := by
    intro h
    have h0 := (List.mem_filter.1 h).2
    rw [hiw] at h0
    simp at h0
  have hw : d.window (ix1 e) 0 = 0 := by unfold ScatterDims.window; rw [dif_neg hk]
  constructor
  · intro h
    have h0 : d.start (ix1 e) idx 0 + (d.window (ix1 e) 0 : ℤ) = (v.val : ℤ) := h 0
    rw [vec_start d hsd hivd, hw] at h0
    simpa using h0
  · intro h a
    match a with
    | ⟨0, _⟩ =>
      show d.start (ix1 e) idx 0 + (d.window (ix1 e) 0 : ℤ) = _
      rw [vec_start d hsd hivd, hw, h]
      simp

/-- ENTRIES ADDED INTO A VECTOR. The same for a vector of length N and n scalar updates (no window axis). -/
theorem scatterAdd_vec {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![n, 1]⟩ w) (upd : (⟨1, ![n]⟩ : Shape).Idx → EReal)
    (v : Fin N) :
    Host.scatterAdd (F := Ideal) (φ := .f32) d x idx upd (ix1 v)
      = x (ix1 v) + ∑ e : Fin n, if (idx (ix2 e (0 : Fin 1))).toInt = (v.val : ℤ) then upd (ix1 e) else 0 := by
  unfold Host.scatterAdd
  rw [Ideal.hostScatterAdd_def]
  unfold Ideal.hostScatterAdd
  congr 1
  rw [Finset.sum_filter]
  -- the update indices are the numbers of the updates
  refine Fintype.sum_equiv idxFin1 _ _ (fun j => ?_)
  obtain ⟨e, rfl⟩ : ∃ e : Fin n, j = ix1 e := ⟨j 0, eq_ix1 j⟩
  change _ = if (idx (ix2 e (0 : Fin 1))).toInt = (v.val : ℤ) then upd (ix1 e) else 0
  by_cases hc : (idx (ix2 e (0 : Fin 1))).toInt = (v.val : ℤ)
  · rw [if_pos hc, if_pos ((vec_lands d hiw hsd hivd idx e v).2 hc)]
  · rw [if_neg hc, if_neg (fun h => hc ((vec_lands d hiw hsd hivd idx e v).1 h))]

/-- A TAKE FROM A VECTOR. A gather from a vector of length N at an [n × 1] column of start indices, the vector's
    axis collapsed and start-indexed, no offset and no batching axes, the index vector on axis 1: entry p is the
    vector at position p's start index read SIGNED and CLAMPED into 0 … N − 1. -/
theorem gather_vec {α : Type} {N n w : Nat} (d : GatherDims ⟨1, ![N]⟩ ⟨2, ![n, 1]⟩ ⟨1, ![n]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (p : Fin n) (hN : 0 < N) :
    Host.gather d x idx (ix1 p) = x (ix1 ⟨min (idx (ix2 p (0 : Fin 1))).toInt.toNat (N - 1), by omega⟩) := by
  unfold Host.gather
  congr 1
  -- the result has one axis, so each of its batch axes is axis 0
  have hbatchAll : ∀ y ∈ d.batchDims, y = 0 := by
    intro y _
    apply Fin.ext
    have := y.isLt
    change y.val < 1 at this
    show y.val = 0
    omega
  have hb : ∀ a : Fin 1, a ∉ d.operandBatchingDims := by intro a; rw [hob]; exact List.not_mem_nil
  funext a
  apply Fin.ext
  match a with
  | ⟨0, _⟩ =>
    -- the vector's one axis: the clamped start index; no batching and no offset coordinate
    have hk : (0 : Fin 1) ∉ d.sKept := by rw [GatherDims.mem_sKept, hcoll]; simp
    have hm : (0 : Fin 1) ∈ d.startIndexMap := by rw [hsim]; exact List.mem_singleton.mpr rfl
    have hsl : d.sliceSizes 0 = 1 := d.slice_collapsed 0 (by rw [hcoll]; exact List.mem_singleton.mpr rfl)
    show (d.operandIdx (ix1 p) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (0 : Fin 1) d.startIndexMap = 0
      rw [hsim]; simp

end Cert.Lib

end
-- ==== Proof.KHost0.lean ====
/-
  The host operations before the first region, read at an index: what the first region's arrays (and the edge words
  the later stretches read) hold as functions of the argument arrays.
-/
import proofs.«421985_j63694364999884_3_alg».proof.Proof.KArgs
import proofs.«421985_j63694364999884_3_alg».proof.Proof.LibScatterGather
import Idealize.ShloMosaic.Lib.Pipeline.Value
import Idealize.ShloMosaic.Lib.ValueLayout
import Idealize.ShloMosaic.Lib.StackMember
import proofs.«421985_j63694364999884_3_alg».proof.Proof.LibKeepdims
import Idealize.ShloMosaic.Lib.KernelVsHost
import Idealize.ShloMosaic.PureOps.Ideal.Laws

set_option maxRecDepth 16384

noncomputable section

namespace Cert.KernelIdeal.KH

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ) (ρ : Dev nD → PrngReg)

namespace Host0

/-! ### A buffer that a stretch of host operations does not write keeps its contents -/

/-- The buffers the nineteen operations of the first stretch write. -/
abbrev wr0 : List (Ref sig .tc) :=
  [main_v0, main_v1, main_v2, main_v3, main_cst, main_v4, main_cst_0, main_v5, main_v6, main_v7, main_cst_1, main_v8, main_v9,
   main_v10, main_cst_2, main_v11, main_v12, main_v13, main_c]

theorem W1_keep (c : Dev nD) (r : Ref sig .tc) (hr : r ∉ wr0) :
    W1 m ρ c (Proc.devRef .tc r) = W0 m ρ c (Proc.devRef .tc r) :=
  StableHlo.after_of_writes_sub (W := wr0) hostOps0 _ (by
    simp only [hostOps0, List.Forall, StableHlo.nullary_writes, StableHlo.unary_writes, StableHlo.binary_writes,
      StableHlo.ternary_writes, StableHlo.reshape_writes, Finset.singleton_subset_iff, List.mem_toFinset]
    repeat' apply And.intro
    all_goals exact List.mem_map_of_mem (by decide)) hr

theorem W2_keep (c : Dev nD) (r : Ref sig .tc) (hr : r ∉ [main_call0_v0, main_v14]) :
    W2 m ρ c (Proc.devRef .tc r) = W1 m ρ c (Proc.devRef .tc r) :=
  StableHlo.after_of_writes_sub (W := [main_call0_v0, main_v14]) hostOps0_1 _ (by
    simp only [hostOps0_1, List.Forall, StableHlo.unary_writes, StableHlo.binary_writes,
      Finset.singleton_subset_iff, List.mem_toFinset]
    repeat' apply And.intro
    all_goals exact List.mem_map_of_mem (by decide)) hr

theorem W3_keep (c : Dev nD) (r : Ref sig .tc) (hr : r ∉ [main_c_3]) :
    W3 m ρ c (Proc.devRef .tc r) = W2 m ρ c (Proc.devRef .tc r) :=
  StableHlo.after_of_writes_sub (W := [main_c_3]) hostOps0_2 _ (by
    simp only [hostOps0_2, List.Forall, StableHlo.nullary_writes,
      Finset.singleton_subset_iff, List.mem_toFinset]
    repeat' apply And.intro
    all_goals exact List.mem_map_of_mem (by decide)) hr

theorem W4_keep (c : Dev nD) (r : Ref sig .tc) (hr : r ∉ [main_call1_v0, main_v15]) :
    W4 m ρ c (Proc.devRef .tc r) = W3 m ρ c (Proc.devRef .tc r) :=
  StableHlo.after_of_writes_sub (W := [main_call1_v0, main_v15]) hostOps0_3 _ (by
    simp only [hostOps0_3, List.Forall, StableHlo.unary_writes, StableHlo.binary_writes,
      Finset.singleton_subset_iff, List.mem_toFinset]
    repeat' apply And.intro
    all_goals exact List.mem_map_of_mem (by decide)) hr

theorem W5_keep (c : Dev nD) (r : Ref sig .tc) (hr : r ∉ [main_v16, main_v17, main_v18, main_v19, main_v20, main_v21]) :
    W5 m ρ c (Proc.devRef .tc r) = W4 m ρ c (Proc.devRef .tc r) :=
  StableHlo.after_of_writes_sub (W := [main_v16, main_v17, main_v18, main_v19, main_v20, main_v21]) hostOps0_4 _ (by
    simp only [hostOps0_4, List.Forall, StableHlo.unary_writes, StableHlo.binary_writes, StableHlo.reshape_writes,
      Finset.singleton_subset_iff, List.mem_toFinset]
    repeat' apply And.intro
    all_goals exact List.mem_map_of_mem (by decide)) hr

/-- An argument array is as launched at the first region's entry. -/
theorem arg_V5 (c : Dev nD) (r : Ref sig .tc) (h0 : r ∉ wr0) (h1 : r ∉ [main_call0_v0, main_v14]) (h2 : r ∉ [main_c_3])
    (h3 : r ∉ [main_call1_v0, main_v15]) (h4 : r ∉ [main_v16, main_v17, main_v18, main_v19, main_v20, main_v21]) :
    W5 m ρ c (Proc.devRef .tc r) = m ((c : Thread nD τ).loc r) :=
  (W5_keep m ρ c r h4).trans ((W4_keep m ρ c r h3).trans ((W3_keep m ρ c r h2).trans ((W2_keep m ρ c r h1).trans
    ((W1_keep m ρ c r h0).trans rfl))))

/-! ### The edge words -/

theorem v1_W1 (c : Dev nD) : (W1 m ρ c (Proc.devRef .tc main_v1) : Spec.IArr1 1600000)
    = shapeCast S1600000 (extractStridedSlice S1x1600000 ![0, 0] (aei m c) slices_S2x1600000_S1x1600000_0_0)
        shapeCasts_S1x1600000_S1600000 := by
  show StableHlo.after hostOps0 (W0 m ρ c) (Proc.devRef .tc main_v1) = _
  after_results
  rfl

theorem v3_W1 (c : Dev nD) : (W1 m ρ c (Proc.devRef .tc main_v3) : Spec.IArr1 1600000)
    = shapeCast S1600000 (extractStridedSlice S1x1600000 ![1, 0] (aei m c) slices_S2x1600000_S1x1600000_1_0)
        shapeCasts_S1x1600000_S1600000 := by
  show StableHlo.after hostOps0 (W0 m ρ c) (Proc.devRef .tc main_v3) = _
  after_results
  rfl

/-- A buffer the first stretch wrote and no later one does is, at the first region's entry, what the first stretch left. -/
theorem W5_of_W1 (c : Dev nD) (r : Ref sig .tc) (h1 : r ∉ [main_call0_v0, main_v14]) (h2 : r ∉ [main_c_3])
    (h3 : r ∉ [main_call1_v0, main_v15]) (h4 : r ∉ [main_v16, main_v17, main_v18, main_v19, main_v20, main_v21]) :
    W5 m ρ c (Proc.devRef .tc r) = W1 m ρ c (Proc.devRef .tc r) :=
  (W5_keep m ρ c r h4).trans ((W4_keep m ρ c r h3).trans ((W3_keep m ρ c r h2).trans (W2_keep m ρ c r h1)))

/-- The first row of the edge array, as a vector, at e. -/
theorem v1_W1_at (c : Dev nD) (e : Fin 1600000) :
    (W1 m ρ c (Proc.devRef .tc main_v1) : Spec.IArr1 1600000) (ix1 e) = Spec.src (aei m c) e := by
  rw [v1_W1]
  exact (shapeCast_1a_a_apply _ _ e).trans (slice2_axis0_apply 0 _ _ 0 e 0 rfl)

theorem v3_W1_at (c : Dev nD) (e : Fin 1600000) :
    (W1 m ρ c (Proc.devRef .tc main_v3) : Spec.IArr1 1600000) (ix1 e) = Spec.dst (aei m c) e := by
  rw [v3_W1]
  exact (shapeCast_1a_a_apply _ _ e).trans (slice2_axis0_apply 1 _ _ 0 e 1 rfl)

/-! ### The last stretch: the slices of W1 and the bias rows -/

/-- An argument array is as launched when the last stretch starts. -/
theorem arg_W4 (c : Dev nD) (r : Ref sig .tc) (h0 : r ∉ wr0) (h1 : r ∉ [main_call0_v0, main_v14]) (h2 : r ∉ [main_c_3])
    (h3 : r ∉ [main_call1_v0, main_v15]) :
    W4 m ρ c (Proc.devRef .tc r) = m ((c : Thread nD τ).loc r) :=
  (W4_keep m ρ c r h3).trans ((W3_keep m ρ c r h2).trans ((W2_keep m ρ c r h1).trans ((W1_keep m ρ c r h0).trans rfl)))

theorem v18_W5 (c : Dev nD) : (W5 m ρ c (Proc.devRef .tc main_v18) : Spec.Arr2 128 32)
    = extractStridedSlice S128x32 ![4096, 0] (W4 m ρ c (Proc.devRef .tc main_arg4) : Spec.Arr2 4224 32) slices_S4224x32_S128x32_4096_0 := by
  show StableHlo.after hostOps0_4 (W4 m ρ c) (Proc.devRef .tc main_v18) = _
  after_results

theorem v20_W5 (c : Dev nD) : (W5 m ρ c (Proc.devRef .tc main_v20) : Spec.Arr2 1 32)
    = shapeCast S1x32 (W4 m ρ c (Proc.devRef .tc main_arg5) : Spec.Arr1 32) shapeCasts_S32_S1x32 := by
  show StableHlo.after hostOps0_4 (W4 m ρ c) (Proc.devRef .tc main_v20) = _
  after_results
  rfl

theorem v21_W5 (c : Dev nD) : (W5 m ρ c (Proc.devRef .tc main_v21) : Spec.Arr2 1 5)
    = shapeCast S1x5 (W4 m ρ c (Proc.devRef .tc main_arg9) : Spec.Arr1 5) shapeCasts_S5_S1x5 := by
  show StableHlo.after hostOps0_4 (W4 m ρ c) (Proc.devRef .tc main_v21) = _
  after_results
  rfl

/-! ### The two pads -/

theorem v14_W5 (c : Dev nD) : ∃ pv : S_.Idx → EReal, (W5 m ρ c (Proc.devRef .tc main_v14) : Spec.Arr2 50176 128)
    = pad S50176x128 ![0, 0] ![176, 0] ![0, 0] (ax m c) pv pads_S50000x128_S50176x128_01760_000 h_S_ := by
  refine ⟨?pv, ?_⟩
  case pv => exact sitofp (F := Ideal) .f32 (constantI S_ 32 0#32)
  show StableHlo.after hostOps0_4 (W4 m ρ c) (Proc.devRef .tc main_v14) = _
  after_results
  rfl

theorem v16_W5 (c : Dev nD) : ∃ pv : S_.Idx → BitVec 32, (W5 m ρ c (Proc.devRef .tc main_v16) : Spec.IArr2 50176 1)
    = shapeCast S50176x1 (pad S50176 ![0] ![176] ![0] (adom m c) pv pads_S50000_S50176_01760 h_S_) shapeCasts_S50176_S50176x1 := by
  refine ⟨?pv, ?_⟩
  case pv => exact constantI S_ 32 0#32
  show StableHlo.after hostOps0_4 (W4 m ρ c) (Proc.devRef .tc main_v16) = _
  after_results
  rfl

/-! ### The product emb · W1[:4096] -/

theorem v19_W5 (c : Dev nD) : (W5 m ρ c (Proc.devRef .tc main_v19) : Spec.Arr2 3 32)
    = Host.dotGeneral (F := Ideal) (φ₁ := .f32) (φ₂ := .f32) (DotDims.plain 3 4096 32) none (aemb m c)
        (extractStridedSlice S4096x32 ![0, 0] (aW1 m c) slices_S4224x32_S4096x32_0_0) := by
  show StableHlo.after hostOps0_4 (W4 m ρ c) (Proc.devRef .tc main_v19) = _
  after_results
  rfl

/-- The 3 × 4096 by 4096 × 32 product of a table with the first 4096 rows of another, at an entry. -/
theorem embP_dot (A : Spec.Arr2 3 4096) (B : Spec.Arr2 4224 32) (t : Fin 3) (j : Fin 32) :
    Host.dotGeneral (F := Ideal) (φ₁ := .f32) (φ₂ := .f32) (DotDims.plain 3 4096 32) none A
        (extractStridedSlice S4096x32 ![0, 0] B slices_S4224x32_S4096x32_0_0) (ix2 t j) = Spec.embP A B t j := by
  rw [StackMember.dotGeneral_plain_apply]
  unfold Spec.embP
  refine Finset.sum_congr rfl fun k _ => ?_
  rw [slice2_axis0_apply 0 B _ k j ⟨k.val, by omega⟩ (Nat.zero_add _).symm]

/-! ### The degree count, its inverse square root, and the padded weight column

  As functions of the edge array: the target words as a vector; the count of the edges into each node, a scatter that
  adds a one per edge into a table of zeros at the edge's target word; the degree, the count plus one; its inverse
  square root; and that vector continued by 176 ones, as a column. -/

section Column
variable (ei : Spec.IArr2 2 1600000)

def dstT : Spec.IArr1 1600000 :=
  shapeCast S1600000 (extractStridedSlice S1x1600000 ![1, 0] ei slices_S2x1600000_S1x1600000_1_0) shapeCasts_S1x1600000_S1600000

def cntT : Spec.Arr1 50000 :=
  Host.scatterAdd (F := Ideal) (φ := .f32) scatter_S50000_S1600000x1_S1600000_n_0_0_1
    (broadcastInDim S50000 ![] bcast_S_S50000 (constant (F := Ideal) S_ .f32 0x00000000#32))
    (broadcastInDim S1600000x1 ![0] bcast_S1600000_S1600000x1_0 (dstT ei))
    (broadcastInDim S1600000 ![] bcast_S_S1600000 (constant (F := Ideal) S_ .f32 0x3F800000#32))

def degT : Spec.Arr1 50000 :=
  addf (F := Ideal) (φ := .f32) (cntT ei) (broadcastInDim S50000 ![] bcast_S_S50000 (constant (F := Ideal) S_ .f32 0x3F800000#32))

def disT : Spec.Arr1 50000 := Host.rsqrt (F := Ideal) (φ := .f32) (degT ei)

def colT : Spec.Arr2 50176 1 :=
  shapeCast S50176x1
    (concatenate S50176 0 [⟨S50000, disT ei⟩,
      ⟨S176, broadcastInDim S176 ![] bcast_S_S176 (constant (F := Ideal) S_ .f32 0x3F800000#32)⟩] concatenates_S50000_S176_S50176_d0)
    shapeCasts_S50176_S50176x1

theorem dstT_at (e : Fin 1600000) : dstT ei (ix1 e) = Spec.dst ei e :=
  (shapeCast_1a_a_apply _ _ e).trans (slice2_axis0_apply 1 _ _ 0 e 1 rfl)

theorem cntT_at (v : Fin 50000) :
    cntT ei (ix1 v) = ∑ e : Fin 1600000, if (Spec.dst ei e).toInt = (v.val : ℤ) then Spec.oneW else 0 := by
  refine (Cert.Lib.scatterAdd_vec scatter_S50000_S1600000x1_S1600000_n_0_0_1 rfl rfl rfl rfl _ _ _ v).trans ?_
  have h0 : (broadcastInDim S50000 ![] bcast_S_S50000 (constant (F := Ideal) S_ .f32 0x00000000#32) : Spec.Arr1 50000) (ix1 v)
      = (0 : EReal) := Ideal.ofBits_zero_f32
  rw [h0, zero_add]
  refine Finset.sum_congr rfl fun e _ => ?_
  have hi : (broadcastInDim S1600000x1 ![0] bcast_S1600000_S1600000x1_0 (dstT ei) : Spec.IArr2 1600000 1) (ix2 e (0 : Fin 1))
      = Spec.dst ei e := by
    refine (broadcastInDim_apply _ _ _ _ (ix1 e) fun a => ?_).trans (dstT_at ei e)
    match a with
    | ⟨0, _⟩ => show e.val = if (1600000 : ℕ) = 1 then 0 else e.val; rw [if_neg (by decide)]
  rw [hi]
  rfl

/-- The ones the operations broadcast, at an index. -/
theorem ones_at (v : Fin 50000) :
    (broadcastInDim S50000 ![] bcast_S_S50000 (constant (F := Ideal) S_ .f32 0x3F800000#32) : Spec.Arr1 50000) (ix1 v) = Spec.oneW := rfl

theorem degT_at (v : Fin 50000) : degT ei (ix1 v) = Spec.deg ei v := by
  unfold degT Spec.deg
  rw [addf_apply, cntT_at, ones_at]

/-- The host's inverse square root of a vector, at an index. -/
theorem hostRsqrt_at (x : Spec.Arr1 50000) (v : Fin 50000) :
    Host.rsqrt (F := Ideal) (φ := .f32) x (ix1 v) = Ideal.rsqrt (x (ix1 v)) := rfl

theorem disT_at (v : Fin 50000) : disT ei (ix1 v) = Spec.dis ei v :=
  (hostRsqrt_at (degT ei) v).trans (congrArg Ideal.rsqrt (degT_at ei v))

theorem colT_at (v : Fin 50000) : colT ei (ix2 (up v) (0 : Fin 1)) = Spec.dis ei v := by
  unfold colT
  refine (Cert.Keepdims.shapeCast_a_a1_apply _ _ (up v) 0).trans ?_
  refine (concatenate_pair_apply_left (0 : Fin 1) (disT ei) _ concatenates_S50000_S176_S50176_d0 (ix1 (up v)) rfl (ix1 v) fun b => ?_).trans
    (disT_at ei v)
  match b with
  | ⟨0, _⟩ => rfl

end Column

/-- The weight column the first stretch leaves. -/
theorem v13_W1 (c : Dev nD) : (W1 m ρ c (Proc.devRef .tc main_v13) : Spec.Arr2 50176 1) = colT (aei m c) := by
  show StableHlo.after hostOps0 (W0 m ρ c) (Proc.devRef .tc main_v13) = _
  after_results
  rfl

end Host0

open Host0

/-! ### The statements -/

/-- The padded feature array holds the features on the node rows. -/
theorem v14_row (c : Dev nD) (v : Fin 50000) (k : Fin 128) :
    (V5 m ρ c main_v14 : Spec.Arr2 50176 128) (ix2 (up v) k) = ax m c (ix2 v k) := by
  obtain ⟨pv, e⟩ := v14_W5 m ρ c
  show (W5 m ρ c (Proc.devRef .tc main_v14) : Spec.Arr2 50176 128) (ix2 (up v) k) = _
  rw [e]
  refine pad_apply_of_inside _ _ _ _ _ _ _ _ (ix2 v k) fun a => ?_
  match a with
  | ⟨0, _⟩ => show v.val = 0 + v.val * (0 + 1); omega
  | ⟨1, _⟩ => show k.val = 0 + k.val * (0 + 1); omega
/-- The padded domain column holds the domain words on the node rows. -/
theorem v16_row (c : Dev nD) (v : Fin 50000) :
    (V5 m ρ c main_v16 : Spec.IArr2 50176 1) (ix2 (up v) (0 : Fin 1)) = adom m c (ix1 v) := by
  obtain ⟨pv, e⟩ := v16_W5 m ρ c
  show (W5 m ρ c (Proc.devRef .tc main_v16) : Spec.IArr2 50176 1) (ix2 (up v) (0 : Fin 1)) = _
  rw [e]
  refine (Cert.Keepdims.shapeCast_a_a1_apply _ _ (up v) 0).trans ?_
  refine pad_apply_of_inside _ _ _ _ _ _ _ _ (ix1 v) fun a => ?_
  match a with
  | ⟨0, _⟩ => show v.val = 0 + v.val * (0 + 1); omega
/-- The padded weight column holds dis on the node rows. -/
theorem v13_row (c : Dev nD) (v : Fin 50000) :
    (V5 m ρ c main_v13 : Spec.Arr2 50176 1) (ix2 (up v) (0 : Fin 1)) = Spec.dis (aei m c) v := by
  exact (congrFun (W5_of_W1 m ρ c main_v13 (by decide) (by decide) (by decide) (by decide)) (ix2 (up v) (0 : Fin 1))).trans
    ((congrFun (v13_W1 m ρ c) (ix2 (up v) (0 : Fin 1))).trans (colT_at (aei m c) v))
/-- The 3 × 32 product emb · W1[:4096]. -/
theorem v19_at (c : Dev nD) (t : Fin 3) (j : Fin 32) :
    (V5 m ρ c main_v19 : Spec.Arr2 3 32) (ix2 t j) = Spec.embP (aemb m c) (aW1 m c) t j := by
  exact (congrFun (v19_W5 m ρ c) (ix2 t j)).trans (embP_dot (aemb m c) (aW1 m c) t j)
/-- W1[4096:]. -/
theorem v18_at (c : Dev nD) (k : Fin 128) (j : Fin 32) :
    (V5 m ρ c main_v18 : Spec.Arr2 128 32) (ix2 k j) = aW1 m c (ix2 (⟨4096 + k.val, by omega⟩ : Fin 4224) j) := by
  show (W5 m ρ c (Proc.devRef .tc main_v18) : Spec.Arr2 128 32) (ix2 k j) = _
  rw [v18_W5, arg_W4 m ρ c main_arg4 (by decide) (by decide) (by decide) (by decide)]
  exact slice2_axis0_apply 4096 _ _ k j _ rfl
/-- The bias rows. -/
theorem v20_at (c : Dev nD) (i : Fin 32) :
    (V5 m ρ c main_v20 : Spec.Arr2 1 32) (ix2 (0 : Fin 1) i) = ab1 m c (ix1 i) := by
  show (W5 m ρ c (Proc.devRef .tc main_v20) : Spec.Arr2 1 32) (ix2 (0 : Fin 1) i) = _
  rw [v20_W5, arg_W4 m ρ c main_arg5 (by decide) (by decide) (by decide) (by decide)]
  exact shapeCast_a_1a_apply _ _ 0 i
theorem v21_at (c : Dev nD) (i : Fin 5) :
    (V5 m ρ c main_v21 : Spec.Arr2 1 5) (ix2 (0 : Fin 1) i) = ab2 m c (ix1 i) := by
  show (W5 m ρ c (Proc.devRef .tc main_v21) : Spec.Arr2 1 5) (ix2 (0 : Fin 1) i) = _
  rw [v21_W5, arg_W4 m ρ c main_arg9 (by decide) (by decide) (by decide) (by decide)]
  exact shapeCast_a_1a_apply _ _ 0 i
/-- The source and target words of the edges. -/
theorem v1_at (c : Dev nD) (e : Fin 1600000) :
    (V5 m ρ c main_v1 : Spec.IArr1 1600000) (ix1 e) = Spec.src (aei m c) e := by
  exact (congrFun (W5_of_W1 m ρ c main_v1 (by decide) (by decide) (by decide) (by decide)) (ix1 e)).trans (v1_W1_at m ρ c e)
theorem v3_at (c : Dev nD) (e : Fin 1600000) :
    (V5 m ρ c main_v3 : Spec.IArr1 1600000) (ix1 e) = Spec.dst (aei m c) e := by
  exact (congrFun (W5_of_W1 m ρ c main_v3 (by decide) (by decide) (by decide) (by decide)) (ix1 e)).trans (v3_W1_at m ρ c e)
/-- The argument arrays the later regions read are as launched. -/
theorem arg6_V5 (c : Dev nD) : (V5 m ρ c main_arg6 : Spec.Arr2 32 8) = aA1 m c := by
  exact arg_V5 m ρ c main_arg6 (by decide) (by decide) (by decide) (by decide) (by decide)
theorem arg7_V5 (c : Dev nD) : (V5 m ρ c main_arg7 : Spec.Arr2 8 32) = aB1 m c := by
  exact arg_V5 m ρ c main_arg7 (by decide) (by decide) (by decide) (by decide) (by decide)
theorem arg8_V5 (c : Dev nD) : (V5 m ρ c main_arg8 : Spec.Arr2 32 5) = aW2 m c := by
  exact arg_V5 m ρ c main_arg8 (by decide) (by decide) (by decide) (by decide) (by decide)
theorem arg10_V5 (c : Dev nD) : (V5 m ρ c main_arg10 : Spec.Arr2 5 8) = aA2 m c := by
  exact arg_V5 m ρ c main_arg10 (by decide) (by decide) (by decide) (by decide) (by decide)
theorem arg11_V5 (c : Dev nD) : (V5 m ρ c main_arg11 : Spec.Arr2 8 5) = aB2 m c := by
  exact arg_V5 m ρ c main_arg11 (by decide) (by decide) (by decide) (by decide) (by decide)

end Cert.KernelIdeal.KH

end
-- ==== Proof.LibGatherRows.lean ====
/-
  A row take from a rank-2 table, read at an index.

  The row take `table[idx]` over an [N × C] table and a vector of n positions is a `stablehlo.gather` whose start
  indices are the [n × 1] column of positions; the table's axis 0 is collapsed and start-indexed, its axis 1 is the
  result's one offset axis (a whole row is the slice), there are no batching axes, and the index vector lies on axis 1
  of the start indices. This file reads such a gather at a result index.
-/
import Idealize.ShloMosaic.Lib.ValueIdx
import Idealize.ShloMosaic.PureOps.ShapeOps
import Idealize.ShloMosaic.PureOps.Dims

namespace Cert.Lib

open Idealize.ShloMosaic Idealize.ShloMosaic.ValueIdx

/-- THE ROW TAKE. A gather from an [N × C] table at an [n × 1] column of start indices, with the table's axis 0
    collapsed and start-indexed, the result's axis 1 its one offset axis, no batching axes and the index vector on
    axis 1 (`hoff` … `hivd`: the printed dimension numbers, each by `rfl`): the result's entry (p, k) is the table's
    entry (r, k), where the row r is position p's start index read SIGNED and CLAMPED into the table (a negative index
    reads row 0, one past the end reads the last row). -/
theorem gather_rows {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (k : Fin C) (hN : 0 < N) :
    Host.gather d x idx (ix2 p k) = x (ix2 ⟨min (idx (ix2 p 0)).toInt.toNat (N - 1), by omega⟩ k) := by
  unfold Host.gather
  congr 1
  -- every offset axis of the result is axis 1, every batch axis is axis 0
  have hoffAll : ∀ y ∈ d.offsetDims, y = 1 := by
    intro y hy; rw [hoff] at hy; exact List.mem_singleton.1 hy
  have hbatchAll : ∀ y ∈ d.batchDims, y = 0 := by
    intro y hy
    have h1 : y ∉ d.offsetDims := by have h0 := (List.mem_filter.1 hy).2; simpa using h0
    rw [hoff] at h1
    have h2 : y ≠ 1 := fun e => h1 (List.mem_singleton.2 e)
    apply Fin.ext
    have h3 : y.val ≠ 1 := fun e => h2 (Fin.ext e)
    have := y.isLt
    show y.val = 0
    change y.val < 2 at this
    omega
  have hb : ∀ a : Fin 2, a ∉ d.operandBatchingDims := by intro a; rw [hob]; exact List.not_mem_nil
  funext a
  apply Fin.ext
  match a with
  | ⟨0, _⟩ =>
    -- axis 0: the clamped start index; no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show (d.operandIdx (ix2 p k) idx 0).val = _
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      rw [hbatchAll _ (List.getElem_mem _)]
      rfl
    | ⟨1, _⟩ =>
      unfold GatherDims.siIdx
      rw [dif_pos (by rw [hivd])]
      apply Fin.ext
      show List.idxOf (0 : Fin 2) d.startIndexMap = 0
      rw [hsim]; simp
  | ⟨1, _⟩ =>
    -- axis 1: no start (it is not start-indexed), no batching; the offset coordinate is the result's column
    have hk : (1 : Fin 2) ∈ d.sKept := by rw [GatherDims.mem_sKept, hcoll]; exact ⟨by simp, hb 1⟩
    have hm : (1 : Fin 2) ∉ d.startIndexMap := by rw [hsim]; simp
    show (d.operandIdx (ix2 p k) idx 1).val = _
    simp only [GatherDims.operandIdx, GatherDims.batchCoord_eq_zero _ _ _ (hb 1), Nat.add_zero, GatherDims.start,
      dif_neg hm, Nat.zero_add, GatherDims.offCoord, dif_pos hk]
    rw [hoffAll _ (List.getElem_mem _)]
    rfl

end Cert.Lib
-- ==== Proof.KHost1.lean ====
/-
  The host operations between the first and the second region, read at an index: the neighbour sums of the first
  scaled table, and what else the second region's arrays hold.
-/
import proofs.«421985_j63694364999884_3_alg».proof.Proof.KHost0
import proofs.«421985_j63694364999884_3_alg».proof.Proof.LibGatherRows

set_option maxRecDepth 16384

noncomputable section

namespace Cert.KernelIdeal.KH

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ) (ρ : Dev nD → PrngReg)

namespace Host1

/-- A buffer none of the stretch's operations writes holds after it what it held before. -/
local macro "keeps_host1" : tactic => `(tactic| (
  refine StableHlo.after_of_forall_not_mem _ _ (List.forall_iff_forall_mem.mp ?_)
  simp only [hostOps1, List.Forall, StableHlo.nullary_writes, StableHlo.unary_writes, StableHlo.binary_writes,
    StableHlo.ternary_writes, Finset.mem_singleton]
  repeat' apply And.intro
  all_goals exact StableHlo.devRef_ne_of_ne (by decide)))

theorem W7_v22 (c : Dev nD) : W7 m ρ c (Proc.devRef .tc main_v22) = W6 m ρ c (Proc.devRef .tc main_v22) := by
  keeps_host1
theorem W7_v13 (c : Dev nD) : W7 m ρ c (Proc.devRef .tc main_v13) = W6 m ρ c (Proc.devRef .tc main_v13) := by
  keeps_host1
theorem W7_v20 (c : Dev nD) : W7 m ρ c (Proc.devRef .tc main_v20) = W6 m ρ c (Proc.devRef .tc main_v20) := by
  keeps_host1
theorem W7_arg6 (c : Dev nD) : W7 m ρ c (Proc.devRef .tc main_arg6) = W6 m ρ c (Proc.devRef .tc main_arg6) := by
  keeps_host1
theorem W7_arg7 (c : Dev nD) : W7 m ρ c (Proc.devRef .tc main_arg7) = W6 m ρ c (Proc.devRef .tc main_arg7) := by
  keeps_host1
theorem W7_arg8 (c : Dev nD) : W7 m ρ c (Proc.devRef .tc main_arg8) = W6 m ρ c (Proc.devRef .tc main_arg8) := by
  keeps_host1

/-! ### The stretch's operations read at an index, over any table and any two word vectors -/

/-- A vector of words broadcast to a column holds the vector's word e at (e, 0). -/
theorem col_apply (x : Spec.IArr1 1600000) (e : Fin 1600000) :
    broadcastInDim S1600000x1 ![0] bcast_S1600000_S1600000x1_0 x (ix2 e (0 : Fin 1)) = x (ix1 e) :=
  broadcastInDim_apply _ _ x _ (ix1 e) fun a => by
    match a with
    | ⟨0, _⟩ => rfl

/-- The first 50000 rows of a 50176-row table: row r is the table's row r. -/
theorem rows_apply (T : Spec.Arr2 50176 32) (r : Fin 50000) (j : Fin 32) :
    extractStridedSlice S50000x32 ![0, 0] T slices_S50176x32_S50000x32_0_0 (ix2 r j) = T (ix2 (up r) j) :=
  extractStridedSlice_apply _ T _ _ (ix2 (up r) j) fun a => by
    match a with
    | ⟨0, _⟩ => simp
    | ⟨1, _⟩ => simp

/-- The wrapped source words: compare with 0, add 50000, select. -/
theorem wrap_apply (s : Spec.IArr1 1600000) (e : Fin 1600000) :
    select (cmpi .slt s (broadcastInDim S1600000 ![] bcast_S_S1600000 (constantI S_ 32 0#32)))
        (addi s (broadcastInDim S1600000 ![] bcast_S_S1600000 (constantI S_ 32 50000#32))) s (ix1 e)
      = Spec.wrapI 50000#32 (s (ix1 e)) := rfl

/-- The zero table is zero everywhere. -/
theorem zeros_apply (i : S50000x32.Idx) :
    broadcastInDim S50000x32 ![] bcast_S_S50000x32 (constant (F := Ideal) S_ .f32 0x00000000#32) i = (0 : EReal) :=
  Ideal.ofBits_zero_f32

/-- A gathered row: row e of the take is the table's row named by the wrapped source word e. -/
theorem gathered_apply (T : Spec.Arr2 50176 32) (s : Spec.IArr1 1600000) (e : Fin 1600000) (j : Fin 32) :
    Host.gather gather_S50000x32_S1600000x1_S1600000x32_1_0_n_n_0_1_132
        (extractStridedSlice S50000x32 ![0, 0] T slices_S50176x32_S50000x32_0_0)
        (broadcastInDim S1600000x1 ![0] bcast_S1600000_S1600000x1_0
          (select (cmpi .slt s (broadcastInDim S1600000 ![] bcast_S_S1600000 (constantI S_ 32 0#32)))
            (addi s (broadcastInDim S1600000 ![] bcast_S_S1600000 (constantI S_ 32 50000#32))) s)) (ix2 e j)
      = T (ix2 (up (Spec.node (s (ix1 e)))) j) := by
  rw [Cert.Lib.gather_rows gather_S50000x32_S1600000x1_S1600000x32_1_0_n_n_0_1_132 rfl rfl rfl rfl rfl _ _ e j (by decide),
    rows_apply]
  refine congrArg (fun r => T (ix2 (up r) j)) (Fin.ext ?_)
  exact congrArg (fun w : BitVec 32 => min w.toInt.toNat 49999) ((col_apply _ e).trans (wrap_apply s e))

/-- The stretch's arithmetic as a function of the table T and the source and target word vectors s, t: the first
    50000 rows of T taken at the wrapped source words, the taken rows added into a zero table at the target words,
    176 zero rows below. -/
def nbrOps (T : Spec.Arr2 50176 32) (s t : Spec.IArr1 1600000) : Spec.Arr2 50176 32 :=
  concatenate S50176x32 0
    [⟨S50000x32,
        Host.scatterAdd (F := Ideal) (φ := .f32) scatter_S50000x32_S1600000x1_S1600000x32_1_0_0_1
          (broadcastInDim S50000x32 ![] bcast_S_S50000x32 (constant (F := Ideal) S_ .f32 0x00000000#32))
          (broadcastInDim S1600000x1 ![0] bcast_S1600000_S1600000x1_0 t)
          (Host.gather gather_S50000x32_S1600000x1_S1600000x32_1_0_n_n_0_1_132
            (extractStridedSlice S50000x32 ![0, 0] T slices_S50176x32_S50000x32_0_0)
            (broadcastInDim S1600000x1 ![0] bcast_S1600000_S1600000x1_0
              (select (cmpi .slt s (broadcastInDim S1600000 ![] bcast_S_S1600000 (constantI S_ 32 0#32)))
                (addi s (broadcastInDim S1600000 ![] bcast_S_S1600000 (constantI S_ 32 50000#32))) s)))⟩,
      ⟨S176x32, broadcastInDim S176x32 ![] bcast_S_S176x32 (constant (F := Ideal) S_ .f32 0x00000000#32)⟩]
    concatenates_S50000x32_S176x32_S50176x32_d0

/-- At a node's row it is the sum, over the edges whose target word is the node's number, of the table's row named by
    the edge's source word. -/
theorem nbrOps_row (T : Spec.Arr2 50176 32) (s t : Spec.IArr1 1600000) (v : Fin 50000) (j : Fin 32) :
    nbrOps T s t (ix2 (up v) j)
      = ∑ e : Fin 1600000, if (t (ix1 e)).toInt = (v.val : ℤ) then T (ix2 (up (Spec.node (s (ix1 e)))) j) else 0 := by
  unfold nbrOps
  rw [concatenate_pair_apply_left (s₁ := S50000x32) (s₂ := S176x32) (0 : Fin 2) _ _
    concatenates_S50000x32_S176x32_S50176x32_d0 (ix2 (up v) j) rfl (ix2 v j)
    (fun b => by match b with | ⟨0, _⟩ => rfl | ⟨1, _⟩ => rfl)]
  rw [Cert.Lib.scatterAdd_rows scatter_S50000x32_S1600000x1_S1600000x32_1_0_0_1 rfl rfl rfl rfl _ _ _ v j, zeros_apply,
    zero_add]
  refine Finset.sum_congr rfl fun e _ => ?_
  rw [col_apply, gathered_apply]

/-! ### The stretch on the run's contents -/

set_option maxHeartbeats 2000000 in
/-- The padded neighbour sums are the stretch's arithmetic on the first region's table and the edge words. -/
theorem v35_term (c : Dev nD) :
    W7 m ρ c (Proc.devRef .tc main_v35)
      = nbrOps (W6 m ρ c (Proc.devRef .tc main_v22)) (W6 m ρ c (Proc.devRef .tc main_v1))
          (W6 m ρ c (Proc.devRef .tc main_v3)) := by
  dsimp only [W7]
  after_results
  rfl

/-- The source words the stretch reads are the edges' source words, and the target words their target words: neither
    the first region nor the stretch writes them. -/
theorem W6_v1_at (c : Dev nD) (e : Fin 1600000) :
    (W6 m ρ c (Proc.devRef .tc main_v1) : Spec.IArr1 1600000) (ix1 e) = Spec.src (aei m c) e := by
  rw [W6_of_ne m ρ c main_v1 (by decide)]
  exact v1_at m ρ c e
theorem W6_v3_at (c : Dev nD) (e : Fin 1600000) :
    (W6 m ρ c (Proc.devRef .tc main_v3) : Spec.IArr1 1600000) (ix1 e) = Spec.dst (aei m c) e := by
  rw [W6_of_ne m ρ c main_v3 (by decide)]
  exact v3_at m ρ c e

end Host1

open Host1

/-! ### The statements -/

/-- The first scaled table is what the first region left. -/
theorem v22_V7 (c : Dev nD) :
    (V7 m ρ c main_v22 : Spec.Arr2 50176 32) = ((dat0 (V5 m ρ) c).arrAt 5 cfg0.N : Spec.Arr2 50176 32) :=
  (W7_v22 m ρ c).trans (W6_arr m ρ c 5)
/-- The padded neighbour sums: at node v, the sum of the scaled table's rows named by the sources of the edges into v. -/
theorem v35_row (c : Dev nD) (v : Fin 50000) (j : Fin 32) :
    (V7 m ρ c main_v35 : Spec.Arr2 50176 32) (ix2 (up v) j)
      = Spec.nbr (aei m c) (fun u i => (V7 m ρ c main_v22 : Spec.Arr2 50176 32) (ix2 (up u) i)) v j := by
  have h : (V7 m ρ c main_v35 : Spec.Arr2 50176 32) (ix2 (up v) j)
      = nbrOps (W6 m ρ c (Proc.devRef .tc main_v22)) (W6 m ρ c (Proc.devRef .tc main_v1))
          (W6 m ρ c (Proc.devRef .tc main_v3)) (ix2 (up v) j) := congrFun (v35_term m ρ c) (ix2 (up v) j)
  have key : nbrOps (W6 m ρ c (Proc.devRef .tc main_v22)) (W6 m ρ c (Proc.devRef .tc main_v1))
        (W6 m ρ c (Proc.devRef .tc main_v3)) (ix2 (up v) j)
      = Spec.nbr (aei m c) (fun u i => (V7 m ρ c main_v22 : Spec.Arr2 50176 32) (ix2 (up u) i)) v j := by
    rw [nbrOps_row, ← W7_v22]
    unfold Spec.nbr
    refine Finset.sum_congr rfl fun e _ => ?_
    rw [W6_v1_at, W6_v3_at]
  exact h.trans key
/-- What the stretch and the first region leave alone. -/
theorem v13_V7 (c : Dev nD) : (V7 m ρ c main_v13 : Spec.Arr2 50176 1) = (V5 m ρ c main_v13 : Spec.Arr2 50176 1) :=
  (W7_v13 m ρ c).trans ((W6_arr m ρ c 2).trans (((dat0 (V5 m ρ) c).arrAt_in 2 rfl _).trans (A_eq0 (V5 m ρ) c 2)))
theorem v20_V7 (c : Dev nD) : (V7 m ρ c main_v20 : Spec.Arr2 1 32) = (V5 m ρ c main_v20 : Spec.Arr2 1 32) :=
  (W7_v20 m ρ c).trans (W6_of_ne m ρ c main_v20 (by decide))
theorem arg6_V7 (c : Dev nD) : (V7 m ρ c main_arg6 : Spec.Arr2 32 8) = aA1 m c :=
  ((W7_arg6 m ρ c).trans (W6_of_ne m ρ c main_arg6 (by decide))).trans (arg6_V5 m ρ c)
theorem arg7_V7 (c : Dev nD) : (V7 m ρ c main_arg7 : Spec.Arr2 8 32) = aB1 m c :=
  ((W7_arg7 m ρ c).trans (W6_of_ne m ρ c main_arg7 (by decide))).trans (arg7_V5 m ρ c)
theorem arg8_V7 (c : Dev nD) : (V7 m ρ c main_arg8 : Spec.Arr2 32 5) = aW2 m c :=
  ((W7_arg8 m ρ c).trans (W6_of_ne m ρ c main_arg8 (by decide))).trans (arg8_V5 m ρ c)

end Cert.KernelIdeal.KH

end
-- ==== Proof.KHost2.lean ====
/-
  The host operations between the second and the third region, and the one after the third, read at an index: the
  neighbour sums of the second scaled table, what else the third region's arrays hold, and the result as the node rows
  of the third region's output.
-/
import proofs.«421985_j63694364999884_3_alg».proof.Proof.KHost0
import proofs.«421985_j63694364999884_3_alg».proof.Proof.LibGatherRows

set_option maxRecDepth 16384

noncomputable section

namespace Cert.KernelIdeal.KH

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ) (ρ : Dev nD → PrngReg)

/-- A buffer that no operation of a straight line of host operations writes keeps its contents: every operation's
    one result buffer is told apart from it as a reference. -/
local macro "not_written" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, Finset.mem_singleton]
  repeat' apply And.intro
  all_goals exact StableHlo.devRef_ne_of_ne (by decide)))

/-! ### Buffers the stretch between the second and third regions leaves alone -/

theorem W9_v36 (c : Dev nD) : W9 m ρ c (Proc.devRef .tc main_v36) = W8 m ρ c (Proc.devRef .tc main_v36) := by
  not_written hostOps2
theorem W9_v13 (c : Dev nD) : W9 m ρ c (Proc.devRef .tc main_v13) = W8 m ρ c (Proc.devRef .tc main_v13) := by
  not_written hostOps2
theorem W9_v21 (c : Dev nD) : W9 m ρ c (Proc.devRef .tc main_v21) = W8 m ρ c (Proc.devRef .tc main_v21) := by
  not_written hostOps2
theorem W9_arg10 (c : Dev nD) : W9 m ρ c (Proc.devRef .tc main_arg10) = W8 m ρ c (Proc.devRef .tc main_arg10) := by
  not_written hostOps2
theorem W9_arg11 (c : Dev nD) : W9 m ρ c (Proc.devRef .tc main_arg11) = W8 m ρ c (Proc.devRef .tc main_arg11) := by
  not_written hostOps2
theorem W7_v13 (c : Dev nD) : W7 m ρ c (Proc.devRef .tc main_v13) = W6 m ρ c (Proc.devRef .tc main_v13) := by
  not_written hostOps1
theorem W7_v21 (c : Dev nD) : W7 m ρ c (Proc.devRef .tc main_v21) = W6 m ρ c (Proc.devRef .tc main_v21) := by
  not_written hostOps1
theorem W7_arg10 (c : Dev nD) : W7 m ρ c (Proc.devRef .tc main_arg10) = W6 m ρ c (Proc.devRef .tc main_arg10) := by
  not_written hostOps1
theorem W7_arg11 (c : Dev nD) : W7 m ρ c (Proc.devRef .tc main_arg11) = W6 m ρ c (Proc.devRef .tc main_arg11) := by
  not_written hostOps1

/-- The second scaled table is what the second region left. -/
theorem v36_V9 (c : Dev nD) :
    (V9 m ρ c main_v36 : Spec.Arr2 50176 5) = ((dat1 (V7 m ρ) c).arrAt 7 cfg1.N : Spec.Arr2 50176 5) :=
  (W9_v36 m ρ c).trans (W8_arr m ρ c 7)

/-! ### The neighbour sums as the operations compute them

The stretch takes the node rows of the table (its first 50000 rows), takes from them the row named by each edge's source
word (wrapped when negative, then read signed and clamped by the take), adds the taken rows into a table of zeros at the
rows named by the target words (an edge whose target word names no row is dropped), and appends 176 zero rows. -/

/-- The operations' term, as a function of the table, the source words and the target words. -/
def nbrOps (t : Spec.Arr2 50176 5) (s d : Spec.IArr1 1600000) : Spec.Arr2 50176 5 :=
  concatenate S50176x5 0
    [⟨S50000x5, Host.scatterAdd (F := Ideal) (φ := .f32) scatter_S50000x5_S1600000x1_S1600000x5_1_0_0_1
        (broadcastInDim S50000x5 ![] bcast_S_S50000x5 (constant (F := Ideal) S_ .f32 0#32))
        (broadcastInDim S1600000x1 ![0] bcast_S1600000_S1600000x1_0 d)
        (Host.gather gather_S50000x5_S1600000x1_S1600000x5_1_0_n_n_0_1_15
          (extractStridedSlice S50000x5 ![0, 0] t slices_S50176x5_S50000x5_0_0)
          (broadcastInDim S1600000x1 ![0] bcast_S1600000_S1600000x1_0
            (select (cmpi .slt s (broadcastInDim S1600000 ![] bcast_S_S1600000 (constantI S_ 32 0#32)))
              (addi s (broadcastInDim S1600000 ![] bcast_S_S1600000 (constantI S_ 32 50000#32))) s)))⟩,
     ⟨S176x5, broadcastInDim S176x5 ![] bcast_S_S176x5 (constant (F := Ideal) S_ .f32 0#32)⟩]
    concatenates_S50000x5_S176x5_S50176x5_d0

/-- A vector of words made a column, read at a row. -/
theorem col_at (d : Spec.IArr1 1600000) (e : Fin 1600000) :
    broadcastInDim S1600000x1 ![0] bcast_S1600000_S1600000x1_0 d (ix2 e (0 : Fin 1)) = d (ix1 e) :=
  broadcastInDim_apply _ _ d _ (ix1 e) (fun a => by match a with | ⟨0, _⟩ => simp)

/-- The wrapped source words as a column, read at a row: the word, with 50000 added once when it is negative. -/
theorem wrap_at (s : Spec.IArr1 1600000) (e : Fin 1600000) :
    broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 50000#32))) s) (ix2 e (0 : Fin 1))
      = Spec.wrapI 50000#32 (s (ix1 e)) := by
  rw [col_at]
  rfl

/-- The table's first 50000 rows, read at an index. -/
theorem slice_at (t : Spec.Arr2 50176 5) (r : Fin 50000) (j : Fin 5) :
    extractStridedSlice S50000x5 ![0, 0] t slices_S50176x5_S50000x5_0_0 (ix2 r j) = t (ix2 (up r) j) :=
  extractStridedSlice_apply ![0, 0] t slices_S50176x5_S50000x5_0_0 (ix2 r j) (ix2 (up r) j)
    (fun a => by match a with | ⟨0, _⟩ => simp | ⟨1, _⟩ => simp)

/-- The table of zeros the rows are added into. -/
theorem zeros_at (v : Fin 50000) (j : Fin 5) :
    broadcastInDim S50000x5 ![] bcast_S_S50000x5 (constant (F := Ideal) S_ .f32 0#32) (ix2 v j) = (0 : EReal) :=
  (broadcastInDim_apply _ _ _ _ ix0 (fun a => a.elim0)).trans Ideal.ofBits_zero_f32

/-- A word equal to the wrapped source word names, read signed and clamped, the source's node. -/
theorem node_of_wrap (s w : BitVec 32) (h : min w.toInt.toNat (50000 - 1) < 50000) (hw : w = Spec.wrapI 50000#32 s) :
    (⟨min w.toInt.toNat (50000 - 1), h⟩ : Fin 50000) = Spec.node s := by
  subst hw; rfl

/-- The operations' term at a node's row: the sum, over the edges whose target word is the node's number, of the
    table's row named by the edge's source word. -/
theorem nbrOps_row (t : Spec.Arr2 50176 5) (s d : Spec.IArr1 1600000) (v : Fin 50000) (j : Fin 5) :
    nbrOps t s d (ix2 (up v) j)
      = ∑ e : Fin 1600000, if (d (ix1 e)).toInt = (v.val : ℤ) then t (ix2 (up (Spec.node (s (ix1 e)))) j) else 0 := by
  unfold nbrOps
  rw [concatenate_pair_apply_left (t := S50176x5) (s₁ := S50000x5) (s₂ := S176x5) (0 : Fin 2) _ _
    concatenates_S50000x5_S176x5_S50176x5_d0 (ix2 (up v) j) rfl (ix2 v j)
    (fun b => by match b with | ⟨0, _⟩ => rfl | ⟨1, _⟩ => rfl)]
  rw [Cert.Lib.scatterAdd_rows _ rfl rfl rfl rfl, zeros_at, zero_add]
  refine Finset.sum_congr rfl fun e _ => ?_
  rw [col_at, Cert.Lib.gather_rows _ rfl rfl rfl rfl rfl _ _ e j (by decide), slice_at,
    node_of_wrap _ _ _ (wrap_at s e)]

set_option maxHeartbeats 8000000 in
/-- The padded neighbour sums are the operations' term over what the second region left and the edge words. -/
theorem v49_ops (c : Dev nD) :
    (V9 m ρ c main_v49 : Spec.Arr2 50176 5)
      = nbrOps (W8 m ρ c (Proc.devRef .tc main_v36)) (W8 m ρ c (Proc.devRef .tc main_v1))
          (W8 m ρ c (Proc.devRef .tc main_v3)) := by
  show StableHlo.after hostOps2 (W8 m ρ c) (Proc.devRef .tc main_v49) = _
  after_results
  rfl

/-- The edge words reach the stretch as the first region's entry had them: neither region has them as an array and
    no operation in between writes them. -/
theorem W8_v1 (c : Dev nD) : W8 m ρ c (Proc.devRef .tc main_v1) = V5 m ρ c main_v1 :=
  calc W8 m ρ c (Proc.devRef .tc main_v1)
    _ = W7 m ρ c (Proc.devRef .tc main_v1) := W8_of_ne m ρ c main_v1 (by decide)
    _ = W6 m ρ c (Proc.devRef .tc main_v1) := by not_written hostOps1
    _ = W5 m ρ c (Proc.devRef .tc main_v1) := W6_of_ne m ρ c main_v1 (by decide)
theorem W8_v3 (c : Dev nD) : W8 m ρ c (Proc.devRef .tc main_v3) = V5 m ρ c main_v3 :=
  calc W8 m ρ c (Proc.devRef .tc main_v3)
    _ = W7 m ρ c (Proc.devRef .tc main_v3) := W8_of_ne m ρ c main_v3 (by decide)
    _ = W6 m ρ c (Proc.devRef .tc main_v3) := by not_written hostOps1
    _ = W5 m ρ c (Proc.devRef .tc main_v3) := W6_of_ne m ρ c main_v3 (by decide)

/-- The operations' term over what the second region left and the edge words, at a node's row. -/
theorem nbrOps_W8 (c : Dev nD) (v : Fin 50000) (j : Fin 5) :
    nbrOps (W8 m ρ c (Proc.devRef .tc main_v36)) (W8 m ρ c (Proc.devRef .tc main_v1))
        (W8 m ρ c (Proc.devRef .tc main_v3)) (ix2 (up v) j)
      = Spec.nbr (aei m c) (fun u i => (W8 m ρ c (Proc.devRef .tc main_v36) : Spec.Arr2 50176 5) (ix2 (up u) i)) v j := by
  rw [nbrOps_row]
  unfold Spec.nbr
  refine Finset.sum_congr rfl fun e _ => ?_
  rw [W8_v3, W8_v1, v3_at, v1_at]

/-- The padded neighbour sums: at node v, the sum of the scaled table's rows named by the sources of the edges into v. -/
theorem v49_row (c : Dev nD) (v : Fin 50000) (j : Fin 5) :
    (V9 m ρ c main_v49 : Spec.Arr2 50176 5) (ix2 (up v) j)
      = Spec.nbr (aei m c) (fun u i => (V9 m ρ c main_v36 : Spec.Arr2 50176 5) (ix2 (up u) i)) v j := by
  refine (congrFun (v49_ops m ρ c) (ix2 (up v) j)).trans ((nbrOps_W8 m ρ c v j).trans ?_)
  rw [← W9_v36]

/-- What the stretches and the first two regions leave alone. -/
theorem v13_V9 (c : Dev nD) : (V9 m ρ c main_v13 : Spec.Arr2 50176 1) = (V5 m ρ c main_v13 : Spec.Arr2 50176 1) :=
  calc W9 m ρ c (Proc.devRef .tc main_v13)
    _ = W8 m ρ c (Proc.devRef .tc main_v13) := W9_v13 m ρ c
    _ = W7 m ρ c (Proc.devRef .tc main_v13) :=
        (W8_arr m ρ c 2).trans (((dat1 (V7 m ρ) c).arrAt_in 2 rfl _).trans (A_eq1 (V7 m ρ) c 2))
    _ = W6 m ρ c (Proc.devRef .tc main_v13) := W7_v13 m ρ c
    _ = W5 m ρ c (Proc.devRef .tc main_v13) :=
        (W6_arr m ρ c 2).trans (((dat0 (V5 m ρ) c).arrAt_in 2 rfl _).trans (A_eq0 (V5 m ρ) c 2))
theorem v21_V9 (c : Dev nD) : (V9 m ρ c main_v21 : Spec.Arr2 1 5) = (V5 m ρ c main_v21 : Spec.Arr2 1 5) :=
  calc W9 m ρ c (Proc.devRef .tc main_v21)
    _ = W8 m ρ c (Proc.devRef .tc main_v21) := W9_v21 m ρ c
    _ = W7 m ρ c (Proc.devRef .tc main_v21) := W8_of_ne m ρ c main_v21 (by decide)
    _ = W6 m ρ c (Proc.devRef .tc main_v21) := W7_v21 m ρ c
    _ = W5 m ρ c (Proc.devRef .tc main_v21) := W6_of_ne m ρ c main_v21 (by decide)
theorem arg10_V9 (c : Dev nD) : (V9 m ρ c main_arg10 : Spec.Arr2 5 8) = aA2 m c :=
  calc W9 m ρ c (Proc.devRef .tc main_arg10)
    _ = W8 m ρ c (Proc.devRef .tc main_arg10) := W9_arg10 m ρ c
    _ = W7 m ρ c (Proc.devRef .tc main_arg10) := W8_of_ne m ρ c main_arg10 (by decide)
    _ = W6 m ρ c (Proc.devRef .tc main_arg10) := W7_arg10 m ρ c
    _ = W5 m ρ c (Proc.devRef .tc main_arg10) := W6_of_ne m ρ c main_arg10 (by decide)
    _ = aA2 m c := arg10_V5 m ρ c
theorem arg11_V9 (c : Dev nD) : (V9 m ρ c main_arg11 : Spec.Arr2 8 5) = aB2 m c :=
  calc W9 m ρ c (Proc.devRef .tc main_arg11)
    _ = W8 m ρ c (Proc.devRef .tc main_arg11) := W9_arg11 m ρ c
    _ = W7 m ρ c (Proc.devRef .tc main_arg11) := W8_of_ne m ρ c main_arg11 (by decide)
    _ = W6 m ρ c (Proc.devRef .tc main_arg11) := W7_arg11 m ρ c
    _ = W5 m ρ c (Proc.devRef .tc main_arg11) := W6_of_ne m ρ c main_arg11 (by decide)
    _ = aB2 m c := arg11_V5 m ρ c
/-- The result: the node rows of the third region's output. -/
theorem v51_at (c : Dev nD) (v : Fin 50000) (j : Fin 5) :
    (W11 m ρ c (Proc.devRef .tc main_v51) : Spec.Arr2 50000 5) (ix2 v j)
      = ((dat2 (V9 m ρ) c).arrAt 6 cfg2.N : Spec.Arr2 50176 5) (ix2 (up v) j) := by
  have e : (W11 m ρ c (Proc.devRef .tc main_v51) : Spec.Arr2 50000 5)
      = extractStridedSlice S50000x5 ![0, 0] (W10 m ρ c (Proc.devRef .tc main_v50) : Spec.Arr2 50176 5)
          slices_S50176x5_S50000x5_0_0 := by
    show StableHlo.after hostOps3 (W10 m ρ c) (Proc.devRef .tc main_v51) = _
    after_results
  rw [e, extractStridedSlice_apply ![0, 0] _ slices_S50176x5_S50000x5_0_0 (ix2 v j) (ix2 (up v) j)
    (fun a => by match a with | ⟨0, _⟩ => simp | ⟨1, _⟩ => simp)]
  exact congrFun (W10_arr m ρ c 6) (ix2 (up v) j)

end Cert.KernelIdeal.KH

end
-- ==== Proof.KValue.lean ====
/-
  The kernel's result as a function of the argument arrays: the three regions' outputs at a node's row, each over what
  the host stretch before it leaves in the region's arrays, composed.

  Region 0 leaves the scaled first table hs1K on the node rows; the stretch after it the neighbour sums of that table;
  region 1 then leaves the scaled second table hs2K, the stretch after it its neighbour sums; region 2 leaves the
  log-softmax rows, of which the result is the node rows.
-/
import proofs.«421985_j63694364999884_3_alg».proof.Proof.Region0
import proofs.«421985_j63694364999884_3_alg».proof.Proof.Region1
import proofs.«421985_j63694364999884_3_alg».proof.Proof.Region2
import proofs.«421985_j63694364999884_3_alg».proof.Proof.KHost0
import proofs.«421985_j63694364999884_3_alg».proof.Proof.KHost1
import proofs.«421985_j63694364999884_3_alg».proof.Proof.KHost2

set_option maxRecDepth 16384

noncomputable section

namespace Cert.KernelIdeal.KH

open Idealize.ShloMosaic Idealize.ShloMosaic.TcCoe Idealize.ShloMosaic.ValueIdx Idealize.SL.Sem
open Cert.KernelIdeal Cert.KernelIdeal.Gen Cert.KernelIdeal.GenP

variable (m : (ℓ : Loc nD τ sig) → Buf (Elt Ideal) ℓ) (ρ : Dev nD → PrngReg)

/-- Region 0's output on the node rows is the scaled first table. -/
theorem hs1_eq (c : Dev nD) (v : Fin 50000) (j : Fin 32) :
    R1.hs (V7 m ρ) c (ix2 (up v) j) = Spec.hs1K (ax m c) (aei m c) (adom m c) (aemb m c) (aW1 m c) v j := by
  refine (congrFun (v22_V7 m ρ c) (ix2 (up v) j)).trans ?_
  refine (R0.final_row (V5 m ρ) c v j).trans ?_
  have e16 : R0.dompad (V5 m ρ) c (ix2 (R0.up v) (0 : Fin 1)) = adom m c (ix1 v) := v16_row m ρ c v
  have e13 : R0.dis2d (V5 m ρ) c (ix2 (R0.up v) (0 : Fin 1)) = Spec.dis (aei m c) v := v13_row m ρ c v
  have e19 : ∀ t, R0.embproj (V5 m ρ) c (ix2 t j) = Spec.embP (aemb m c) (aW1 m c) t j := fun t => v19_at m ρ c t j
  have e14 : ∀ k, R0.xpad (V5 m ρ) c (ix2 (R0.up v) k) = ax m c (ix2 v k) := fun k => v14_row m ρ c v k
  have e18 : ∀ k : Fin 128, R0.xw1 (V5 m ρ) c (ix2 k j) = aW1 m c (ix2 (⟨4096 + k.val, by omega⟩ : Fin 4224) j) :=
    fun k => v18_at m ρ c k j
  rw [e16, e13]
  simp only [e19, e14, e18]
  rfl

/-- The first layer's result, as region 1 forms it, is `aggK` of the scaled first table. -/
theorem agg1_eq (c : Dev nD) :
    R1.agg (V7 m ρ) c = Spec.aggK (aei m c) (Spec.hs1K (ax m c) (aei m c) (adom m c) (aemb m c) (aW1 m c)) (ab1 m c) := by
  funext v i
  have e13 : R1.dis2d (V7 m ρ) c (ix2 (R1.up v) (0 : Fin 1)) = Spec.dis (aei m c) v :=
    (congrFun (v13_V7 m ρ c) _).trans (v13_row m ρ c v)
  have e20 : R1.brow (V7 m ρ) c (ix2 (0 : Fin 1) i) = ab1 m c (ix1 i) :=
    (congrFun (v20_V7 m ρ c) _).trans (v20_at m ρ c i)
  have ehs : ∀ (u : Fin 50000) (k : Fin 32), R1.hs (V7 m ρ) c (ix2 (up u) k)
      = Spec.hs1K (ax m c) (aei m c) (adom m c) (aemb m c) (aW1 m c) u k := fun u k => hs1_eq m ρ c u k
  have ens : R1.ns (V7 m ρ) c (ix2 (R1.up v) i)
      = Spec.nbr (aei m c) (fun u k => R1.hs (V7 m ρ) c (ix2 (up u) k)) v i := v35_row m ρ c v i
  show R1.dis2d (V7 m ρ) c (ix2 (R1.up v) (0 : Fin 1))
      * (R1.ns (V7 m ρ) c (ix2 (R1.up v) i) + R1.hs (V7 m ρ) c (ix2 (R1.up v) i)) + R1.brow (V7 m ρ) c (ix2 (0 : Fin 1) i) = _
  rw [e13, e20, ens, ehs v i]
  simp only [ehs]
  rfl

/-- Region 1's output on the node rows is the scaled second table. -/
theorem hs2_eq (c : Dev nD) (v : Fin 50000) (j : Fin 5) :
    R2.hs (V9 m ρ) c (ix2 (up v) j)
      = Spec.hs2K (ax m c) (aei m c) (adom m c) (aemb m c) (aW1 m c) (ab1 m c) (aA1 m c) (aB1 m c) (aW2 m c) v j := by
  refine (congrFun (v36_V9 m ρ c) (ix2 (up v) j)).trans ?_
  refine (R1.final_row (V7 m ρ) c v j).trans ?_
  have e13 : R1.dis2d (V7 m ρ) c (ix2 (R1.up v) (0 : Fin 1)) = Spec.dis (aei m c) v :=
    (congrFun (v13_V7 m ρ c) _).trans (v13_row m ρ c v)
  have eA : R1.A1 (V7 m ρ) c = aA1 m c := arg6_V7 m ρ c
  have eB : R1.B1 (V7 m ρ) c = aB1 m c := arg7_V7 m ρ c
  have eW : R1.W2 (V7 m ρ) c = aW2 m c := arg8_V7 m ρ c
  rw [agg1_eq m ρ c, eA, eB, eW, e13]
  rfl

/-- The second layer's result, as region 2 forms it, is `aggK` of the scaled second table. -/
theorem agg2_eq (c : Dev nD) :
    R2.agg (V9 m ρ) c = Spec.aggK (aei m c)
      (Spec.hs2K (ax m c) (aei m c) (adom m c) (aemb m c) (aW1 m c) (ab1 m c) (aA1 m c) (aB1 m c) (aW2 m c)) (ab2 m c) := by
  funext v i
  have e13 : R2.dis2d (V9 m ρ) c (ix2 (R2.up v) (0 : Fin 1)) = Spec.dis (aei m c) v :=
    (congrFun (v13_V9 m ρ c) _).trans (v13_row m ρ c v)
  have e21 : R2.brow (V9 m ρ) c (ix2 (0 : Fin 1) i) = ab2 m c (ix1 i) :=
    (congrFun (v21_V9 m ρ c) _).trans (v21_at m ρ c i)
  have ehs : ∀ (u : Fin 50000) (k : Fin 5), R2.hs (V9 m ρ) c (ix2 (up u) k)
      = Spec.hs2K (ax m c) (aei m c) (adom m c) (aemb m c) (aW1 m c) (ab1 m c) (aA1 m c) (aB1 m c) (aW2 m c) u k :=
    fun u k => hs2_eq m ρ c u k
  have ens : R2.ns (V9 m ρ) c (ix2 (R2.up v) i)
      = Spec.nbr (aei m c) (fun u k => R2.hs (V9 m ρ) c (ix2 (up u) k)) v i := v49_row m ρ c v i
  show R2.dis2d (V9 m ρ) c (ix2 (R2.up v) (0 : Fin 1))
      * (R2.ns (V9 m ρ) c (ix2 (R2.up v) i) + R2.hs (V9 m ρ) c (ix2 (R2.up v) i)) + R2.brow (V9 m ρ) c (ix2 (0 : Fin 1) i) = _
  rw [e13, e21, ens, ehs v i]
  simp only [ehs]
  rfl

/-- The kernel's result array, by its literal type. -/
abbrev result (c : Dev nD) : Spec.Arr2 50000 5 := W11 m ρ c (Proc.devRef .tc main_v51)

/-- THE KERNEL'S RESULT at node v, column j. -/
theorem kernel_value (c : Dev nD) (v : Fin 50000) (j : Fin 5) :
    result m ρ c (ix2 v j)
      = Spec.outK (ax m c) (aei m c) (adom m c) (aemb m c) (aW1 m c) (ab1 m c) (aA1 m c) (aB1 m c) (aW2 m c) (ab2 m c) (aA2 m c) (aB2 m c) v j := by
  refine (v51_at m ρ c v j).trans ?_
  refine (R2.final_row (V9 m ρ) c v j).trans ?_
  have eA : R2.A2 (V9 m ρ) c = aA2 m c := arg10_V9 m ρ c
  have eB : R2.B2 (V9 m ρ) c = aB2 m c := arg11_V9 m ρ c
  have hz : R2.z (V9 m ρ) c
      = Spec.zK (ax m c) (aei m c) (adom m c) (aemb m c) (aW1 m c) (ab1 m c) (aA1 m c) (aB1 m c) (aW2 m c) (ab2 m c) (aA2 m c) (aB2 m c) := by
    show Spec.lora (R2.agg (V9 m ρ) c) (R2.A2 (V9 m ρ) c) (R2.B2 (V9 m ρ) c) = _
    rw [agg2_eq m ρ c, eA, eB]
    rfl
  rw [hz]
  rfl

end Cert.KernelIdeal.KH

end
-- ==== Proof.RefA.lean ====
/-
  The reference's first layer, read at an index: the node weights, the first table [emb[dom] | x] · W1, the
  normalised neighbour sum with self loop and bias, and the second layer's table.
-/
import proofs.«421985_j63694364999884_3_alg».proof.Proof.RefRead
import proofs.«421985_j63694364999884_3_alg».proof.Proof.Spec
import proofs.«421985_j63694364999884_3_alg».proof.Proof.LibScatterGather
import proofs.«421985_j63694364999884_3_alg».proof.Proof.LibGatherRows

set_option maxRecDepth 16384

noncomputable section

namespace Cert.ReferenceIdeal.RefA

open Idealize.ShloMosaic Idealize.ShloMosaic.TcCoe Idealize.ShloMosaic.ValueIdx Idealize.SL.Sem
open Cert.ReferenceIdeal Cert.ReferenceIdeal.Gen Cert.ReferenceIdeal.ReadP

variable (x0 : Spec.Arr2 50000 128) (x1 : Spec.IArr2 2 1600000) (x2 : Spec.IArr1 50000) (x3 : Spec.Arr2 3 4096) (x4 : Spec.Arr2 4224 32)
  (x5 : Spec.Arr1 32) (x6 : Spec.Arr2 32 8) (x7 : Spec.Arr2 8 32) (x8 : Spec.Arr2 32 5) (x9 : Spec.Arr1 5) (x10 : Spec.Arr2 5 8) (x11 : Spec.Arr2 8 5)

/-! ### The index words -/

/-- The source word of edge `e`: row 0 of the index array, through the slice and the cast to a vector. -/
theorem srcw (e : Fin 1600000) : val_main_v1 (F := Ideal) x1 (ix1 e) = Spec.src x1 e := by
  rw [val_main_v1_apply, val_main_v0_apply]
  unfold Spec.src
  congr 1
  funext a
  apply Fin.ext
  match a with
  | ⟨0, _⟩ => rfl
  | ⟨1, _⟩ => exact Nat.mod_eq_of_lt e.isLt

/-- The target word of edge `e`: row 1 of the index array. -/
theorem dstw (e : Fin 1600000) : val_main_v3 (F := Ideal) x1 (ix1 e) = Spec.dst x1 e := by
  rw [val_main_v3_apply, val_main_v2_apply]
  unfold Spec.dst
  congr 1
  funext a
  apply Fin.ext
  match a with
  | ⟨0, _⟩ => rfl
  | ⟨1, _⟩ => exact Nat.mod_eq_of_lt e.isLt

/-- The column of target words the degree count scatters at. -/
theorem dstcol15 (e : Fin 1600000) : val_main_v15 (F := Ideal) x1 (ix2 e (0 : Fin 1)) = Spec.dst x1 e := by
  rw [val_main_v15_apply, ← dstw]
  congr 1
  funext a
  apply Fin.ext
  match a with
  | ⟨0, _⟩ => rfl

/-! ### The node weights -/

/-- The degree: ones added at the target words into zeros, plus one. -/
theorem deg1 (v : Fin 50000) : val_main_v18 (F := Ideal) x1 (ix1 v) = Spec.deg x1 v := by
  rw [val_main_v18_apply, Ideal.addf_def]
  unfold val_main_v16 Spec.deg
  rw [Cert.Lib.scatterAdd_vec _ rfl rfl rfl rfl, val_main_v14_apply, val_main_cst_1_apply, val_main_v17_apply,
    val_main_cst_2_apply]
  have h0 : (FloatOps.ofBits (F := Ideal) .f32 0x00000000#32) = 0 := Ideal.ofBits_zero_f32
  have hone : (FloatOps.ofBits (F := Ideal) .f32 0x3F800000#32) = Spec.oneW := rfl
  rw [h0, zero_add, hone]
  refine congrArg (· + Spec.oneW) (Finset.sum_congr rfl (fun e _ => ?_))
  rw [dstcol15, val_main_v13_apply, val_main_cst_apply, hone]

/-- The node weights: both copies the program computes (one per layer). -/
theorem dis1 (v : Fin 50000) : val_main_v19 (F := Ideal) x1 (ix1 v) = Spec.dis x1 v := by
  rw [val_main_v19_apply, Ideal.hostUnary_rsqrt_def, deg1]
  rfl

theorem dis2 (v : Fin 50000) : val_main_v68 (F := Ideal) x1 (ix1 v) = Spec.dis x1 v := by
  have hsame : val_main_v68 (F := Ideal) x1 = val_main_v19 (F := Ideal) x1 := rfl
  rw [hsame]
  exact dis1 x1 v

/-! ### The first table -/

/-- The wrapped domain word of node `v`, in the column the embedding rows are taken at. -/
theorem domcol (v : Fin 50000) :
    val_main_v9 (F := Ideal) x2 (ix2 v (0 : Fin 1)) = Spec.wrapI 3#32 (x2 (ix1 v)) := by
  rw [val_main_v9_apply, val_main_v8_apply, val_main_v5_apply, val_main_v7_apply, val_main_v4_apply, val_main_c_apply,
    val_main_v6_apply, val_main_c_0_apply]
  have hi : idx_main_v9 (ix2 v (0 : Fin 1)) = ix1 v := funext fun a => Fin.ext (by match a with | ⟨0, _⟩ => rfl)
  rw [hi]
  rfl

/-- Row `v` of the concatenation [emb[dom v] | x v]. -/
theorem cat11 (v : Fin 50000) (k : Fin 4224) :
    val_main_v11 (F := Ideal) x0 x2 x3 (ix2 v k) = Spec.cat x0 x2 x3 v k := by
  unfold val_main_v11 Spec.cat
  by_cases h : k.val < 4096
  · rw [dif_pos h,
      concatenate_pair_apply_left (s₁ := S50000x4096) (s₂ := S50000x128) (1 : Fin 2) _ _ _ (ix2 v k) rfl
        (ix2 v (⟨k.val, h⟩ : Fin 4096)) (fun b => by match b with | ⟨0, _⟩ => rfl | ⟨1, _⟩ => rfl)]
    unfold val_main_v10
    rw [Cert.Lib.gather_rows _ rfl rfl rfl rfl rfl _ _ _ _ (by decide)]
    have hn : ∀ (hlt : min (val_main_v9 (F := Ideal) x2 (ix2 v (0 : Fin 1))).toInt.toNat (3 - 1) < 3),
        (⟨_, hlt⟩ : Fin 3) = Spec.row3 (x2 (ix1 v)) := fun _ => Fin.ext (congrArg (fun w : BitVec 32 => min w.toInt.toNat (3 - 1)) (domcol x2 v))
    rw [hn]
  · rw [dif_neg h,
      concatenate_pair_apply_right (s₁ := S50000x4096) (s₂ := S50000x128) (1 : Fin 2) _ _ _ (ix2 v k) rfl rfl
        (ix2 v (⟨k.val - 4096, by omega⟩ : Fin 128))
        (fun b hb => by match b with | ⟨0, _⟩ => rfl | ⟨1, _⟩ => exact absurd rfl hb)
        (by show (k.val - 4096) + 4096 = k.val; omega)]

/-- The first table. -/
theorem h1 (v : Fin 50000) (j : Fin 32) :
    val_main_v12 (F := Ideal) x0 x2 x3 x4 (ix2 v j) = Spec.h1R x0 x2 x3 x4 v j := by
  rw [val_main_v12_apply]
  unfold Spec.h1R
  refine Finset.sum_congr rfl (fun k _ => ?_)
  have el : lidx_main_v12 (ix2 v j) k = ix2 v k :=
    funext fun a => Fin.ext (by match a with | ⟨0, _⟩ => rfl | ⟨1, _⟩ => rfl)
  have er : ridx_main_v12 (ix2 v j) k = ix2 k j :=
    funext fun a => Fin.ext (by match a with | ⟨0, _⟩ => rfl | ⟨1, _⟩ => rfl)
  rw [el, er, cat11]

/-! ### The first layer's result -/

/-- The wrapped source word of edge `e`, in the column the source weights are taken at. -/
theorem srccol25 (e : Fin 1600000) :
    val_main_v25 (F := Ideal) x1 (ix2 e (0 : Fin 1)) = Spec.wrapI 50000#32 (Spec.src x1 e) := by
  rw [val_main_v25_apply, val_main_v24_apply, val_main_v21_apply, val_main_v23_apply, val_main_v20_apply,
    val_main_c_3_apply, val_main_v22_apply, val_main_c_4_apply]
  have hi : idx_main_v25 (ix2 e (0 : Fin 1)) = ix1 e := funext fun a => Fin.ext (by match a with | ⟨0, _⟩ => rfl)
  rw [hi, srcw]
  rfl

/-- The wrapped target word of edge `e`, in the column the target weights are taken at. -/
theorem dstcol32 (e : Fin 1600000) :
    val_main_v32 (F := Ideal) x1 (ix2 e (0 : Fin 1)) = Spec.wrapI 50000#32 (Spec.dst x1 e) := by
  rw [val_main_v32_apply, val_main_v31_apply, val_main_v28_apply, val_main_v30_apply, val_main_v27_apply,
    val_main_c_5_apply, val_main_v29_apply, val_main_c_6_apply]
  have hi : idx_main_v32 (ix2 e (0 : Fin 1)) = ix1 e := funext fun a => Fin.ext (by match a with | ⟨0, _⟩ => rfl)
  rw [hi, dstw]
  rfl

/-- The wrapped source word of edge `e`, in the column the table's rows are taken at. -/
theorem srccol41 (e : Fin 1600000) :
    val_main_v41 (F := Ideal) x1 (ix2 e (0 : Fin 1)) = Spec.wrapI 50000#32 (Spec.src x1 e) := by
  rw [val_main_v41_apply, val_main_v40_apply, val_main_v37_apply, val_main_v39_apply, val_main_v36_apply,
    val_main_c_7_apply, val_main_v38_apply, val_main_c_8_apply]
  have hi : idx_main_v41 (ix2 e (0 : Fin 1)) = ix1 e := funext fun a => Fin.ext (by match a with | ⟨0, _⟩ => rfl)
  rw [hi, srcw]
  rfl

/-- The raw target word of edge `e`, in the column the weighted rows are added at. -/
theorem dstcol46 (e : Fin 1600000) : val_main_v46 (F := Ideal) x1 (ix2 e (0 : Fin 1)) = Spec.dst x1 e := by
  rw [val_main_v46_apply, ← dstw]
  congr 1
  funext a
  apply Fin.ext
  match a with
  | ⟨0, _⟩ => rfl

/-- The weight at the source of edge `e`. -/
theorem g26 (e : Fin 1600000) :
    val_main_v26 (F := Ideal) x1 (ix1 e) = Spec.dis x1 (Spec.node (Spec.src x1 e)) := by
  unfold val_main_v26
  rw [Cert.Lib.gather_vec _ rfl rfl rfl rfl rfl _ _ _ (by decide)]
  have hn : ∀ (hlt : min (val_main_v25 (F := Ideal) x1 (ix2 e (0 : Fin 1))).toInt.toNat (50000 - 1) < 50000),
      (⟨_, hlt⟩ : Fin 50000) = Spec.node (Spec.src x1 e) := fun _ => Fin.ext (congrArg (fun w : BitVec 32 => min w.toInt.toNat (50000 - 1)) (srccol25 x1 e))
  rw [hn, dis1]

/-- The weight at the target of edge `e`. -/
theorem g33 (e : Fin 1600000) :
    val_main_v33 (F := Ideal) x1 (ix1 e) = Spec.dis x1 (Spec.node (Spec.dst x1 e)) := by
  unfold val_main_v33
  rw [Cert.Lib.gather_vec _ rfl rfl rfl rfl rfl _ _ _ (by decide)]
  have hn : ∀ (hlt : min (val_main_v32 (F := Ideal) x1 (ix2 e (0 : Fin 1))).toInt.toNat (50000 - 1) < 50000),
      (⟨_, hlt⟩ : Fin 50000) = Spec.node (Spec.dst x1 e) := fun _ => Fin.ext (congrArg (fun w : BitVec 32 => min w.toInt.toNat (50000 - 1)) (dstcol32 x1 e))
  rw [hn, dis1]

/-- The table's row at the source of edge `e`. -/
theorem g42 (e : Fin 1600000) (j : Fin 32) :
    val_main_v42 (F := Ideal) x0 x1 x2 x3 x4 (ix2 e j) = Spec.h1R x0 x2 x3 x4 (Spec.node (Spec.src x1 e)) j := by
  unfold val_main_v42
  rw [Cert.Lib.gather_rows _ rfl rfl rfl rfl rfl _ _ _ _ (by decide)]
  have hn : ∀ (hlt : min (val_main_v41 (F := Ideal) x1 (ix2 e (0 : Fin 1))).toInt.toNat (50000 - 1) < 50000),
      (⟨_, hlt⟩ : Fin 50000) = Spec.node (Spec.src x1 e) := fun _ => Fin.ext (congrArg (fun w : BitVec 32 => min w.toInt.toNat (50000 - 1)) (srccol41 x1 e))
  rw [hn, h1]

/-- Edge `e`'s weighted row. -/
theorem m44 (e : Fin 1600000) (j : Fin 32) :
    val_main_v44 (F := Ideal) x0 x1 x2 x3 x4 (ix2 e j)
      = (Spec.dis x1 (Spec.node (Spec.src x1 e)) * Spec.dis x1 (Spec.node (Spec.dst x1 e)))
          * Spec.h1R x0 x2 x3 x4 (Spec.node (Spec.src x1 e)) j := by
  rw [val_main_v44_apply, Ideal.mulf_def, val_main_v43_apply, val_main_v35_apply, val_main_v34_apply, Ideal.mulf_def, g42]
  have hi : idx_main_v35 (idx_main_v43 (ix2 e j)) = ix1 e := funext fun a => Fin.ext (by match a with | ⟨0, _⟩ => rfl)
  rw [hi, g26, g33]

/-- The weighted rows added at the raw target words into zeros: the reference's neighbour sum. -/
theorem s47 (v : Fin 50000) (j : Fin 32) :
    val_main_v47 (F := Ideal) x0 x1 x2 x3 x4 (ix2 v j) = Spec.nbrR x1 (Spec.h1R x0 x2 x3 x4) v j := by
  unfold val_main_v47 Spec.nbrR
  have h0 : (FloatOps.ofBits (F := Ideal) .f32 0x00000000#32) = 0 := Ideal.ofBits_zero_f32
  rw [Cert.Lib.scatterAdd_rows _ rfl rfl rfl rfl, val_main_v45_apply, val_main_cst_9_apply, h0, zero_add]
  refine Finset.sum_congr rfl (fun e _ => ?_)
  rw [dstcol46, m44]

/-- The first layer's result. -/
theorem agg1 (v : Fin 50000) (j : Fin 32) :
    val_main_v55 (F := Ideal) x0 x1 x2 x3 x4 x5 (ix2 v j) = Spec.aggR x1 (Spec.h1R x0 x2 x3 x4) x5 v j := by
  rw [val_main_v55_apply, Ideal.addf_def, val_main_v52_apply, Ideal.addf_def, s47, val_main_v51_apply, Ideal.mulf_def,
    val_main_v50_apply, val_main_v49_apply, val_main_v48_apply, Ideal.mulf_def, val_main_v54_apply, val_main_v53_apply, h1]
  have e1 : idx_main_v49 (idx_main_v50 (ix2 v j)) = ix1 v := funext fun a => Fin.ext (by match a with | ⟨0, _⟩ => rfl)
  have e2 : idx_main_v53 (idx_main_v54 (ix2 v j)) = ix1 j := funext fun a => Fin.ext (by match a with | ⟨0, _⟩ => rfl)
  rw [e1, e2, dis1]
  rfl

/-! ### The second layer's table -/

/-- The first factor of the rank-8 factorisation. -/
theorem p56 (v : Fin 50000) (m : Fin 8) :
    val_main_v56 (F := Ideal) x0 x1 x2 x3 x4 x5 x6 (ix2 v m)
      = ∑ i : Fin 32, Spec.aggR x1 (Spec.h1R x0 x2 x3 x4) x5 v i * x6 (ix2 i m) := by
  rw [val_main_v56_apply]
  refine Finset.sum_congr rfl (fun i _ => ?_)
  have el : lidx_main_v56 (ix2 v m) i = ix2 v i :=
    funext fun a => Fin.ext (by match a with | ⟨0, _⟩ => rfl | ⟨1, _⟩ => rfl)
  have er : ridx_main_v56 (ix2 v m) i = ix2 i m :=
    funext fun a => Fin.ext (by match a with | ⟨0, _⟩ => rfl | ⟨1, _⟩ => rfl)
  rw [el, er, agg1]

/-- The factorised first layer, scaled by 1/8. -/
theorem p59 (v : Fin 50000) (l : Fin 32) :
    val_main_v59 (F := Ideal) x0 x1 x2 x3 x4 x5 x6 x7 (ix2 v l)
      = Spec.lora (Spec.aggR x1 (Spec.h1R x0 x2 x3 x4) x5) x6 x7 v l := by
  rw [val_main_v59_apply, Ideal.mulf_def, val_main_v58_apply, val_main_cst_10_apply, val_main_v57_apply]
  unfold Spec.lora
  have hc : (FloatOps.ofBits (F := Ideal) .f32 0x3E000000#32) = Spec.c125 := rfl
  rw [hc]
  refine congrArg (· * Spec.c125) (Finset.sum_congr rfl (fun m _ => ?_))
  have el : lidx_main_v57 (ix2 v l) m = ix2 v m :=
    funext fun a => Fin.ext (by match a with | ⟨0, _⟩ => rfl | ⟨1, _⟩ => rfl)
  have er : ridx_main_v57 (ix2 v l) m = ix2 m l :=
    funext fun a => Fin.ext (by match a with | ⟨0, _⟩ => rfl | ⟨1, _⟩ => rfl)
  rw [el, er, p56]

/-- The second layer's table. -/
theorem h2 (v : Fin 50000) (j : Fin 5) :
    val_main_v61 (F := Ideal) x0 x1 x2 x3 x4 x5 x6 x7 x8 (ix2 v j) = Spec.h2R x0 x1 x2 x3 x4 x5 x6 x7 x8 v j := by
  rw [val_main_v61_apply]
  unfold Spec.h2R Spec.h2
  refine Finset.sum_congr rfl (fun l _ => ?_)
  have el : lidx_main_v61 (ix2 v j) l = ix2 v l :=
    funext fun a => Fin.ext (by match a with | ⟨0, _⟩ => rfl | ⟨1, _⟩ => rfl)
  have er : ridx_main_v61 (ix2 v j) l = ix2 l j :=
    funext fun a => Fin.ext (by match a with | ⟨0, _⟩ => rfl | ⟨1, _⟩ => rfl)
  have h0 : (FloatOps.ofBits (F := Ideal) .f32 0x00000000#32) = 0 := Ideal.ofBits_zero_f32
  rw [el, er, val_main_v60_apply, Ideal.maximumf_def, val_main_call0_v0_apply, val_main_call0_cst_apply, h0, p59]

end Cert.ReferenceIdeal.RefA

end
-- ==== Proof.RefB.lean ====
/-
  The reference's second layer and its log-softmax, read at an index, over the second layer's table as the program
  computes it.
-/
import proofs.«421985_j63694364999884_3_alg».proof.Proof.RefRead
import proofs.«421985_j63694364999884_3_alg».proof.Proof.Spec
import proofs.«421985_j63694364999884_3_alg».proof.Proof.LibScatterGather
import proofs.«421985_j63694364999884_3_alg».proof.Proof.LibGatherRows
import proofs.«421985_j63694364999884_3_alg».proof.Proof.LibKeepdims

set_option maxRecDepth 16384

noncomputable section

namespace Cert.ReferenceIdeal.RefB

open Idealize.ShloMosaic Idealize.ShloMosaic.TcCoe Idealize.ShloMosaic.ValueIdx Idealize.SL.Sem
open Cert.ReferenceIdeal Cert.ReferenceIdeal.Gen Cert.ReferenceIdeal.ReadP

variable (x0 : Spec.Arr2 50000 128) (x1 : Spec.IArr2 2 1600000) (x2 : Spec.IArr1 50000) (x3 : Spec.Arr2 3 4096) (x4 : Spec.Arr2 4224 32)
  (x5 : Spec.Arr1 32) (x6 : Spec.Arr2 32 8) (x7 : Spec.Arr2 8 32) (x8 : Spec.Arr2 32 5) (x9 : Spec.Arr1 5) (x10 : Spec.Arr2 5 8) (x11 : Spec.Arr2 8 5)

/-- The second layer's table as the program computes it, by node and column. -/
abbrev t2 (v : Fin 50000) (j : Fin 5) : EReal := val_main_v61 (F := Ideal) x0 x1 x2 x3 x4 x5 x6 x7 x8 (ix2 v j)

/-- The source word of edge e, as the program slices it off the index array. -/
theorem srcw (e : Fin 1600000) : val_main_v1 (F := Ideal) x1 (ix1 e) = Spec.src x1 e := by
  rw [val_main_v1_apply, val_main_v0_apply]
  unfold Spec.src
  refine congrArg x1 (funext fun a => Fin.ext ?_)
  match a with
  | ⟨0, _⟩ => rfl
  | ⟨1, _⟩ => exact Nat.mod_eq_of_lt e.isLt

/-- The target word of edge e. -/
theorem dstw (e : Fin 1600000) : val_main_v3 (F := Ideal) x1 (ix1 e) = Spec.dst x1 e := by
  rw [val_main_v3_apply, val_main_v2_apply]
  unfold Spec.dst
  refine congrArg x1 (funext fun a => Fin.ext ?_)
  match a with
  | ⟨0, _⟩ => rfl
  | ⟨1, _⟩ => exact Nat.mod_eq_of_lt e.isLt

/-- The column of target words the second degree count scatters at. -/
theorem v64_at (e : Fin 1600000) : val_main_v64 (F := Ideal) x1 (ix2 e (0 : Fin 1)) = Spec.dst x1 e := by
  rw [val_main_v64_apply, ← dstw]
  refine congrArg _ (funext fun a => Fin.ext ?_)
  match a with
  | ⟨0, _⟩ => rfl

theorem v65_at (v : Fin 50000) : val_main_v65 (F := Ideal) x1 (ix1 v)
    = val_main_v63 (F := Ideal) (ix1 v) + ∑ e : Fin 1600000, if (val_main_v64 (F := Ideal) x1 (ix2 e (0 : Fin 1))).toInt = (v.val : ℤ) then val_main_v62 (F := Ideal) (ix1 e) else 0 :=
  Cert.Lib.scatterAdd_vec scatter_S50000_S1600000x1_S1600000_n_0_0_1 rfl rfl rfl rfl _ _ _ v

/-- The constant vectors: ones over the edges, zeros and ones over the nodes. -/
theorem v62_at (e : Fin 1600000) : val_main_v62 (F := Ideal) (ix1 e) = Spec.oneW := by
  rw [val_main_v62_apply, val_main_cst_11_apply]; rfl
theorem v63_at (v : Fin 50000) : val_main_v63 (F := Ideal) (ix1 v) = 0 := by
  rw [val_main_v63_apply, val_main_cst_12_apply]; exact Ideal.ofBits_zero_f32
theorem v66_at (v : Fin 50000) : val_main_v66 (F := Ideal) (ix1 v) = Spec.oneW := by
  rw [val_main_v66_apply, val_main_cst_13_apply]; rfl

/-- The second copy of the node weights. -/
theorem dis2 (v : Fin 50000) : val_main_v68 (F := Ideal) x1 (ix1 v) = Spec.dis x1 v := by
  rw [val_main_v68_apply, val_main_v67_apply, Ideal.hostUnary_rsqrt_def, Ideal.addf_def, v65_at, v63_at, v66_at, zero_add]
  show _ = Ideal.rsqrt ((∑ e : Fin 1600000, if (Spec.dst x1 e).toInt = (v.val : ℤ) then Spec.oneW else 0) + Spec.oneW)
  refine congrArg (fun s => Ideal.rsqrt (s + Spec.oneW)) (Finset.sum_congr rfl fun e _ => ?_)
  rw [v64_at, v62_at]

/-- A gather's start word, wrapped, read signed and clamped, names the node of the word. -/
theorem node_eq (w s : BitVec 32) (h : w = Spec.wrapI 50000#32 s) (hlt : min w.toInt.toNat (50000 - 1) < 50000) :
    (⟨min w.toInt.toNat (50000 - 1), hlt⟩ : Fin 50000) = Spec.node s := by
  subst h; rfl

/-- The wrapped source and target words of the two weight gathers. -/
theorem v73_at (e : Fin 1600000) : val_main_v73 (F := Ideal) x1 (ix1 e) = Spec.wrapI 50000#32 (Spec.src x1 e) := by
  rw [val_main_v73_apply, val_main_v70_apply, val_main_v72_apply, val_main_v69_apply, val_main_c_14_apply,
    val_main_v71_apply, val_main_c_15_apply, srcw]
  rfl
theorem v74_at (e : Fin 1600000) : val_main_v74 (F := Ideal) x1 (ix2 e (0 : Fin 1)) = Spec.wrapI 50000#32 (Spec.src x1 e) := by
  rw [val_main_v74_apply, ← v73_at]
  refine congrArg _ (funext fun a => Fin.ext ?_)
  match a with
  | ⟨0, _⟩ => rfl
theorem v80_at (e : Fin 1600000) : val_main_v80 (F := Ideal) x1 (ix1 e) = Spec.wrapI 50000#32 (Spec.dst x1 e) := by
  rw [val_main_v80_apply, val_main_v77_apply, val_main_v79_apply, val_main_v76_apply, val_main_c_16_apply,
    val_main_v78_apply, val_main_c_17_apply, dstw]
  rfl
theorem v81_at (e : Fin 1600000) : val_main_v81 (F := Ideal) x1 (ix2 e (0 : Fin 1)) = Spec.wrapI 50000#32 (Spec.dst x1 e) := by
  rw [val_main_v81_apply, ← v80_at]
  refine congrArg _ (funext fun a => Fin.ext ?_)
  match a with
  | ⟨0, _⟩ => rfl

/-- The node weights gathered at the source and at the target of edge e. -/
theorem v75_at (e : Fin 1600000) : val_main_v75 (F := Ideal) x1 (ix1 e) = Spec.dis x1 (Spec.node (Spec.src x1 e)) := by
  refine (Cert.Lib.gather_vec gather_S50000_S1600000x1_S1600000_n_0_n_n_0_1_1 rfl rfl rfl rfl rfl _ _ e (by omega)).trans ?_
  rw [node_eq _ _ (v74_at x1 e)]
  exact dis2 x1 _
theorem v82_at (e : Fin 1600000) : val_main_v82 (F := Ideal) x1 (ix1 e) = Spec.dis x1 (Spec.node (Spec.dst x1 e)) := by
  refine (Cert.Lib.gather_vec gather_S50000_S1600000x1_S1600000_n_0_n_n_0_1_1 rfl rfl rfl rfl rfl _ _ e (by omega)).trans ?_
  rw [node_eq _ _ (v81_at x1 e)]
  exact dis2 x1 _

/-- Their product, as a vector over the edges and as the one-column array. -/
theorem v83_at (e : Fin 1600000) : val_main_v83 (F := Ideal) x1 (ix1 e)
    = Spec.dis x1 (Spec.node (Spec.src x1 e)) * Spec.dis x1 (Spec.node (Spec.dst x1 e)) := by
  rw [val_main_v83_apply, Ideal.mulf_def, v75_at, v82_at]
theorem v84_at (e : Fin 1600000) : val_main_v84 (F := Ideal) x1 (ix2 e (0 : Fin 1))
    = Spec.dis x1 (Spec.node (Spec.src x1 e)) * Spec.dis x1 (Spec.node (Spec.dst x1 e)) := by
  rw [val_main_v84_apply, ← v83_at]
  refine congrArg _ (funext fun a => Fin.ext ?_)
  match a with
  | ⟨0, _⟩ => rfl

/-- The wrapped source word of the row gather. -/
theorem v89_at (e : Fin 1600000) : val_main_v89 (F := Ideal) x1 (ix1 e) = Spec.wrapI 50000#32 (Spec.src x1 e) := by
  rw [val_main_v89_apply, val_main_v86_apply, val_main_v88_apply, val_main_v85_apply, val_main_c_18_apply,
    val_main_v87_apply, val_main_c_19_apply, srcw]
  rfl
theorem v90_at (e : Fin 1600000) : val_main_v90 (F := Ideal) x1 (ix2 e (0 : Fin 1)) = Spec.wrapI 50000#32 (Spec.src x1 e) := by
  rw [val_main_v90_apply, ← v89_at]
  refine congrArg _ (funext fun a => Fin.ext ?_)
  match a with
  | ⟨0, _⟩ => rfl

/-- The table's row at the source of edge e. -/
theorem v91_at (e : Fin 1600000) (j : Fin 5) : val_main_v91 (F := Ideal) x0 x1 x2 x3 x4 x5 x6 x7 x8 (ix2 e j)
    = t2 x0 x1 x2 x3 x4 x5 x6 x7 x8 (Spec.node (Spec.src x1 e)) j := by
  refine (Cert.Lib.gather_rows gather_S50000x5_S1600000x1_S1600000x5_1_0_n_n_0_1_15 rfl rfl rfl rfl rfl _ _ e j (by omega)).trans ?_
  rw [node_eq _ _ (v90_at x1 e)]

/-- The weight of edge e broadcast along the row, and the weighted row. -/
theorem v92_at (e : Fin 1600000) (j : Fin 5) : val_main_v92 (F := Ideal) x1 (ix2 e j)
    = Spec.dis x1 (Spec.node (Spec.src x1 e)) * Spec.dis x1 (Spec.node (Spec.dst x1 e)) := by
  rw [val_main_v92_apply, ← v84_at]
  refine congrArg _ (funext fun a => Fin.ext ?_)
  match a with
  | ⟨0, _⟩ => rfl
  | ⟨1, _⟩ => rfl
theorem v93_at (e : Fin 1600000) (j : Fin 5) : val_main_v93 (F := Ideal) x0 x1 x2 x3 x4 x5 x6 x7 x8 (ix2 e j)
    = (Spec.dis x1 (Spec.node (Spec.src x1 e)) * Spec.dis x1 (Spec.node (Spec.dst x1 e)))
        * t2 x0 x1 x2 x3 x4 x5 x6 x7 x8 (Spec.node (Spec.src x1 e)) j := by
  rw [val_main_v93_apply, Ideal.mulf_def, v92_at, v91_at]

/-- The zero table and the column of raw target words the rows are added at. -/
theorem v94_at (v : Fin 50000) (j : Fin 5) : val_main_v94 (F := Ideal) (ix2 v j) = 0 := by
  rw [val_main_v94_apply, val_main_cst_20_apply]; exact Ideal.ofBits_zero_f32
theorem v95_at (e : Fin 1600000) : val_main_v95 (F := Ideal) x1 (ix2 e (0 : Fin 1)) = Spec.dst x1 e := by
  rw [val_main_v95_apply, ← dstw]
  refine congrArg _ (funext fun a => Fin.ext ?_)
  match a with
  | ⟨0, _⟩ => rfl

/-- The weighted neighbour sum. -/
theorem v96_at (v : Fin 50000) (j : Fin 5) : val_main_v96 (F := Ideal) x0 x1 x2 x3 x4 x5 x6 x7 x8 (ix2 v j)
    = Spec.nbrR x1 (t2 x0 x1 x2 x3 x4 x5 x6 x7 x8) v j := by
  refine (Cert.Lib.scatterAdd_rows scatter_S50000x5_S1600000x1_S1600000x5_1_0_0_1 rfl rfl rfl rfl _ _ _ v j).trans ?_
  rw [v94_at, zero_add]
  show _ = ∑ e : Fin 1600000, if (Spec.dst x1 e).toInt = (v.val : ℤ) then
    (Spec.dis x1 (Spec.node (Spec.src x1 e)) * Spec.dis x1 (Spec.node (Spec.dst x1 e)))
      * t2 x0 x1 x2 x3 x4 x5 x6 x7 x8 (Spec.node (Spec.src x1 e)) j else 0
  refine Finset.sum_congr rfl fun e _ => ?_
  rw [v95_at, v93_at]

/-- The self loop: the squared weight broadcast along the row, times the table. -/
theorem v99_at (v : Fin 50000) (j : Fin 5) : val_main_v99 (F := Ideal) x1 (ix2 v j) = Spec.dis x1 v * Spec.dis x1 v := by
  rw [val_main_v99_apply, val_main_v98_apply, val_main_v97_apply, Ideal.mulf_def]
  have h : idx_main_v98 (idx_main_v99 (ix2 v j)) = ix1 v := funext fun a => Fin.ext (by match a with | ⟨0, _⟩ => rfl)
  rw [h, dis2]
theorem v100_at (v : Fin 50000) (j : Fin 5) : val_main_v100 (F := Ideal) x0 x1 x2 x3 x4 x5 x6 x7 x8 (ix2 v j)
    = (Spec.dis x1 v * Spec.dis x1 v) * t2 x0 x1 x2 x3 x4 x5 x6 x7 x8 v j := by
  rw [val_main_v100_apply, Ideal.mulf_def, v99_at]

/-- The bias broadcast over the nodes. -/
theorem v103_at (v : Fin 50000) (j : Fin 5) : val_main_v103 (F := Ideal) x9 (ix2 v j) = x9 (ix1 j) := by
  rw [val_main_v103_apply, val_main_v102_apply]
  refine congrArg x9 (funext fun a => Fin.ext ?_)
  match a with
  | ⟨0, _⟩ => rfl

/-- The second layer's result. -/
theorem agg2 (v : Fin 50000) (j : Fin 5) :
    val_main_v104 (F := Ideal) x0 x1 x2 x3 x4 x5 x6 x7 x8 x9 (ix2 v j) = Spec.aggR x1 (t2 x0 x1 x2 x3 x4 x5 x6 x7 x8) x9 v j := by
  rw [val_main_v104_apply, val_main_v101_apply, Ideal.addf_def, Ideal.addf_def, v96_at, v100_at, v103_at]
  rfl
/-- The factorised second layer, by node and column. -/
abbrev z2 : Fin 50000 → Fin 5 → EReal := Spec.lora (Spec.aggR x1 (t2 x0 x1 x2 x3 x4 x5 x6 x7 x8) x9) x10 x11

/-- The first factor: the second layer's result times A2. -/
theorem v105_at (v : Fin 50000) (l : Fin 8) : val_main_v105 (F := Ideal) x0 x1 x2 x3 x4 x5 x6 x7 x8 x9 x10 (ix2 v l)
    = ∑ i : Fin 5, Spec.aggR x1 (t2 x0 x1 x2 x3 x4 x5 x6 x7 x8) x9 v i * x10 (ix2 i l) := by
  rw [val_main_v105_apply]
  refine Finset.sum_congr rfl fun i _ => ?_
  have h1 : lidx_main_v105 (ix2 v l) i = ix2 v i :=
    funext fun a => Fin.ext (by match a with | ⟨0, _⟩ => rfl | ⟨1, _⟩ => rfl)
  have h2 : ridx_main_v105 (ix2 v l) i = ix2 i l :=
    funext fun a => Fin.ext (by match a with | ⟨0, _⟩ => rfl | ⟨1, _⟩ => rfl)
  rw [h1, h2, agg2]

/-- The second factor, times B2, times 1/8: the factorised second layer. -/
theorem v108_at (v : Fin 50000) (j : Fin 5) : val_main_v108 (F := Ideal) x0 x1 x2 x3 x4 x5 x6 x7 x8 x9 x10 x11 (ix2 v j)
    = z2 x0 x1 x2 x3 x4 x5 x6 x7 x8 x9 x10 x11 v j := by
  rw [val_main_v108_apply, Ideal.mulf_def, val_main_v107_apply, val_main_cst_21_apply, val_main_v106_apply]
  show _ = (∑ l : Fin 8, (∑ i : Fin 5, Spec.aggR x1 (t2 x0 x1 x2 x3 x4 x5 x6 x7 x8) x9 v i * x10 (ix2 i l)) * x11 (ix2 l j)) * Spec.c125
  refine congrArg (· * Spec.c125) (Finset.sum_congr rfl fun l _ => ?_)
  have h1 : lidx_main_v106 (ix2 v j) l = ix2 v l :=
    funext fun a => Fin.ext (by match a with | ⟨0, _⟩ => rfl | ⟨1, _⟩ => rfl)
  have h2 : ridx_main_v106 (ix2 v j) l = ix2 l j :=
    funext fun a => Fin.ext (by match a with | ⟨0, _⟩ => rfl | ⟨1, _⟩ => rfl)
  rw [h1, h2, v105_at]

/-- The shift of the log-softmax: max(−∞, the row's maximum folded from −∞). -/
abbrev M2 (u : Fin 50000) : EReal := max Spec.ninf (Spec.rowMax (z2 x0 x1 x2 x3 x4 x5 x6 x7 x8 x9 x10 x11) u)

/-- The row's maximum, by the host's reduce from −∞. -/
theorem m0_at (v : Fin 50000) : val_main_call1_v0 (F := Ideal) x0 x1 x2 x3 x4 x5 x6 x7 x8 x9 x10 x11 (ix1 v)
    = Spec.rowMax (z2 x0 x1 x2 x3 x4 x5 x6 x7 x8 x9 x10 x11) v := by
  refine (Cert.Keepdims.hostReduce_max_rows (φ := .f32) _ _ reducesTo_S50000x5_S50000_d1 (by decide) h_S_ v).trans ?_
  show (Finset.univ : Finset (Fin 5)).fold max Spec.ninf (fun k => val_main_v108 (F := Ideal) x0 x1 x2 x3 x4 x5 x6 x7 x8 x9 x10 x11 (ix2 v k))
    = (Finset.univ : Finset (Fin 5)).fold max Spec.ninf (fun k => z2 x0 x1 x2 x3 x4 x5 x6 x7 x8 x9 x10 x11 v k)
  exact congrArg (fun f => (Finset.univ : Finset (Fin 5)).fold max Spec.ninf f) (funext fun k => v108_at x0 x1 x2 x3 x4 x5 x6 x7 x8 x9 x10 x11 v k)

/-- Its maximum with the −∞ vector. -/
theorem m2_at (v : Fin 50000) : val_main_call1_v2 (F := Ideal) x0 x1 x2 x3 x4 x5 x6 x7 x8 x9 x10 x11 (ix1 v)
    = M2 x0 x1 x2 x3 x4 x5 x6 x7 x8 x9 x10 x11 v := by
  rw [val_main_call1_v2_apply, Ideal.maximumf_def, m0_at, val_main_call1_v1_apply, val_main_call1_cst_0_apply]
  rfl

/-- The shift broadcast along the row. -/
theorem m4_at (v : Fin 50000) (j : Fin 5) : val_main_call1_v4 (F := Ideal) x0 x1 x2 x3 x4 x5 x6 x7 x8 x9 x10 x11 (ix2 v j)
    = M2 x0 x1 x2 x3 x4 x5 x6 x7 x8 x9 x10 x11 v := by
  rw [val_main_call1_v4_apply, val_main_call1_v3_apply]
  have h : idx_main_call1_v3 (idx_main_call1_v4 (ix2 v j)) = ix1 v := funext fun a => Fin.ext (by match a with | ⟨0, _⟩ => rfl)
  rw [h, m2_at]

/-- The shifted entry and its exponential. -/
theorem m5_at (v : Fin 50000) (j : Fin 5) : val_main_call1_v5 (F := Ideal) x0 x1 x2 x3 x4 x5 x6 x7 x8 x9 x10 x11 (ix2 v j)
    = z2 x0 x1 x2 x3 x4 x5 x6 x7 x8 x9 x10 x11 v j - M2 x0 x1 x2 x3 x4 x5 x6 x7 x8 x9 x10 x11 v := by
  rw [val_main_call1_v5_apply, Ideal.subf_def, v108_at, m4_at]
theorem m6_at (v : Fin 50000) (j : Fin 5) : val_main_call1_v6 (F := Ideal) x0 x1 x2 x3 x4 x5 x6 x7 x8 x9 x10 x11 (ix2 v j)
    = Ideal.exp (z2 x0 x1 x2 x3 x4 x5 x6 x7 x8 x9 x10 x11 v j - M2 x0 x1 x2 x3 x4 x5 x6 x7 x8 x9 x10 x11 v) := by
  rw [val_main_call1_v6_apply, Ideal.hostUnary_exp_def, m5_at]

/-- The row's sum of exponentials, from zero. -/
theorem m7_at (v : Fin 50000) : val_main_call1_v7 (F := Ideal) x0 x1 x2 x3 x4 x5 x6 x7 x8 x9 x10 x11 (ix1 v)
    = ∑ k : Fin 5, Ideal.exp (z2 x0 x1 x2 x3 x4 x5 x6 x7 x8 x9 x10 x11 v k - M2 x0 x1 x2 x3 x4 x5 x6 x7 x8 x9 x10 x11 v) := by
  have h0 : (FloatOps.ofBits (F := Ideal) .f32 0x00000000#32) = (0 : EReal) := Ideal.ofBits_zero_f32
  rw [val_main_call1_v7_apply, val_main_call1_cst_1_apply, h0, zero_add]
  refine Finset.sum_congr rfl fun k _ => ?_
  have h : idx_main_call1_v7 (ix1 v) k = ix2 v k :=
    funext fun a => Fin.ext (by match a with | ⟨0, _⟩ => rfl | ⟨1, _⟩ => rfl)
  rw [h, m6_at]

/-- Its logarithm broadcast along the row. -/
theorem m10_at (v : Fin 50000) (j : Fin 5) : val_main_call1_v10 (F := Ideal) x0 x1 x2 x3 x4 x5 x6 x7 x8 x9 x10 x11 (ix2 v j)
    = Ideal.log (∑ k : Fin 5, Ideal.exp (z2 x0 x1 x2 x3 x4 x5 x6 x7 x8 x9 x10 x11 v k - M2 x0 x1 x2 x3 x4 x5 x6 x7 x8 x9 x10 x11 v)) := by
  rw [val_main_call1_v10_apply, val_main_call1_v9_apply, Ideal.hostUnary_log_def, val_main_call1_v8_apply]
  have h : idx_main_call1_v8 (idx_main_call1_v10 (ix2 v j)) = ix1 v := funext fun a => Fin.ext (by match a with | ⟨0, _⟩ => rfl)
  rw [h, m7_at]

/-- The result: the row-wise log-softmax, shifted by max(−∞, the row's maximum). -/
theorem out (v : Fin 50000) (j : Fin 5) :
    val_main_v109 (F := Ideal) x0 x1 x2 x3 x4 x5 x6 x7 x8 x9 x10 x11 (ix2 v j)
      = Spec.lsm (z2 x0 x1 x2 x3 x4 x5 x6 x7 x8 x9 x10 x11) (fun u => max Spec.ninf (Spec.rowMax (z2 x0 x1 x2 x3 x4 x5 x6 x7 x8 x9 x10 x11) u)) v j := by
  rw [val_main_v109_apply, Ideal.subf_def, m5_at, m10_at]
  rfl

end Cert.ReferenceIdeal.RefB

end
-- ==== Proof.RefValue.lean ====
/-
  The reference's result as a function of the argument arrays: its two layers and its log-softmax composed, and the
  run's named result read as the last stage.
-/
import proofs.«421985_j63694364999884_3_alg».proof.Proof.RefRun
import proofs.«421985_j63694364999884_3_alg».proof.Proof.RefA
import proofs.«421985_j63694364999884_3_alg».proof.Proof.RefB

set_option maxRecDepth 16384

noncomputable section

namespace Cert.ReferenceIdeal.RefV

open Idealize.ShloMosaic Idealize.ShloMosaic.TcCoe Idealize.ShloMosaic.ValueIdx Idealize.SL.Sem
open Cert.ReferenceIdeal Cert.ReferenceIdeal.Gen Cert.ReferenceIdeal.ReadP

variable (x0 : Spec.Arr2 50000 128) (x1 : Spec.IArr2 2 1600000) (x2 : Spec.IArr1 50000) (x3 : Spec.Arr2 3 4096) (x4 : Spec.Arr2 4224 32)
  (x5 : Spec.Arr1 32) (x6 : Spec.Arr2 32 8) (x7 : Spec.Arr2 8 32) (x8 : Spec.Arr2 32 5) (x9 : Spec.Arr1 5) (x10 : Spec.Arr2 5 8) (x11 : Spec.Arr2 8 5)

/-- THE REFERENCE'S RESULT at node v, column j. -/
theorem ref_value (v : Fin 50000) (j : Fin 5) :
    val_main_v109 (F := Ideal) x0 x1 x2 x3 x4 x5 x6 x7 x8 x9 x10 x11 (ix2 v j)
      = Spec.outR x0 x1 x2 x3 x4 x5 x6 x7 x8 x9 x10 x11 v j := by
  refine (RefB.out x0 x1 x2 x3 x4 x5 x6 x7 x8 x9 x10 x11 v j).trans ?_
  have ht : RefB.t2 x0 x1 x2 x3 x4 x5 x6 x7 x8 = Spec.h2R x0 x1 x2 x3 x4 x5 x6 x7 x8 :=
    funext fun u => funext fun k => RefA.h2 x0 x1 x2 x3 x4 x5 x6 x7 x8 u k
  show Spec.lsm (Spec.lora (Spec.aggR x1 (RefB.t2 x0 x1 x2 x3 x4 x5 x6 x7 x8) x9) x10 x11)
      (fun u => max Spec.ninf (Spec.rowMax (Spec.lora (Spec.aggR x1 (RefB.t2 x0 x1 x2 x3 x4 x5 x6 x7 x8) x9) x10 x11) u)) v j = _
  rw [ht]
  rfl

/-- The run's named result is the last stage at the launch contents of the arguments. -/
theorem res_eq (m : (ℓ : Loc nD τ sig) → Buf (Elt Ideal) ℓ) (c : Dev nD) :
    Cert.ReferenceIdeal.ValueP.res_main_v109 m c = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.ValueP.res_main_v109; rfl

end Cert.ReferenceIdeal.RefV

end
-- ==== Proof.Algebra.lean ====
/-
  The kernel's function and the reference's are one function when every domain word is 0, 1 or 2.
-/
import proofs.«421985_j63694364999884_3_alg».proof.Proof.Spec

noncomputable section

namespace Cert.Algebra

open Idealize.ShloMosaic Idealize.ShloMosaic.ValueIdx Cert.Spec

/-! ### The shared float words -/

/-- The word 0x3F800000 is the extended real one. -/
theorem oneW_eq : oneW = 1 := by
  unfold oneW
  rw [show (1 : EReal) = ((1 : ℝ) : EReal) by norm_cast]
  simp [Ideal.ofBits, Ideal.ieee, -EReal.coe_mul]; norm_num

/-- The word 0xFF800000 is −∞. -/
theorem ninf_eq : ninf = ⊥ := by
  unfold ninf
  simp [Ideal.ofBits, Ideal.ieee]

/-! ### The weight dis v is a nonnegative real -/

/-- A sum of ones and zeros is a nonnegative real. -/
theorem sum_ite_one_real {α : Type} (s : Finset α) (p : α → Prop) [DecidablePred p] :
    ∃ r : ℝ, 0 ≤ r ∧ (∑ e ∈ s, if p e then (1 : EReal) else 0) = (r : EReal) := by
  classical
  induction s using Finset.induction_on with
  | empty => exact ⟨0, le_refl _, by simp⟩
  | insert a s ha ih =>
    obtain ⟨r, hr, hs⟩ := ih
    rw [Finset.sum_insert ha, hs]
    by_cases hp : p a
    · refine ⟨1 + r, by linarith, ?_⟩
      rw [if_pos hp, EReal.coe_add, EReal.coe_one]
    · exact ⟨r, hr, by rw [if_neg hp, zero_add]⟩

/-- deg v is a real that is at least one. -/
theorem deg_real (ei : IArr2 2 1600000) (v : Fin 50000) : ∃ r : ℝ, 1 ≤ r ∧ deg ei v = (r : EReal) := by
  obtain ⟨r, hr, hs⟩ := sum_ite_one_real (Finset.univ : Finset (Fin 1600000)) (fun e => (dst ei e).toInt = (v.val : ℤ))
  refine ⟨r + 1, by linarith, ?_⟩
  unfold deg
  rw [oneW_eq, hs, EReal.coe_add, EReal.coe_one]

/-- The reciprocal square root of a positive real is a nonnegative real. -/
theorem rsqrt_real {r : ℝ} (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- dis v is a nonnegative real. -/
theorem dis_real (ei : IArr2 2 1600000) (v : Fin 50000) : ∃ c : ℝ, 0 ≤ c ∧ dis ei v = (c : EReal) := by
  obtain ⟨r, hr, hd⟩ := deg_real ei v
  refine ⟨(Real.sqrt r)⁻¹, inv_nonneg.mpr (Real.sqrt_nonneg r), ?_⟩
  unfold dis
  rw [hd, rsqrt_real (by linarith)]

theorem dis_nonneg (ei : IArr2 2 1600000) (v : Fin 50000) : 0 ≤ dis ei v := by
  obtain ⟨c, hc, h⟩ := dis_real ei v
  rw [h]; exact EReal.coe_nonneg.mpr hc

theorem dis_ne_top (ei : IArr2 2 1600000) (v : Fin 50000) : dis ei v ≠ ⊤ := by
  obtain ⟨c, _, h⟩ := dis_real ei v
  rw [h]; exact EReal.coe_ne_top c

/-! ### A nonnegative real factor distributes over sums -/

theorem mul_add_of_real {c : EReal} (h0 : 0 ≤ c) (ht : c ≠ ⊤) (a b : EReal) : c * (a + b) = c * a + c * b :=
  EReal.left_distrib_of_nonneg_of_ne_top h0 ht a b

theorem mul_sum_of_real {α : Type} {c : EReal} (h0 : 0 ≤ c) (ht : c ≠ ⊤) (s : Finset α) (f : α → EReal) :
    c * ∑ e ∈ s, f e = ∑ e ∈ s, c * f e := by
  classical
  induction s using Finset.induction_on with
  | empty => simp
  | insert a s ha ih =>
    rw [Finset.sum_insert ha, Finset.sum_insert ha, mul_add_of_real h0 ht, ih]

/-! ### An edge counted at v names v -/

/-- A word whose signed reading is a node's number names that node. -/
theorem node_of_toInt {s : BitVec 32} {v : Fin 50000} (h : s.toInt = (v.val : ℤ)) : node s = v := by
  have hv := v.isLt
  have hslt : s.slt 0#32 = false := by
    simp only [BitVec.slt, h]
    simp
  have hw : wrapI 50000#32 s = s := by
    unfold wrapI Scalar.select IntOp.cmpi
    simp [hslt]
  apply Fin.ext
  show min (wrapI 50000#32 s).toInt.toNat 49999 = v.val
  rw [hw, h]
  simp
  omega

/-! ### One layer: the kernel's form on the scaled table is the reference's form -/

theorem aggK_scaled {C : Nat} (ei : IArr2 2 1600000) (h : Fin 50000 → Fin C → EReal) (b : Arr1 C) (v : Fin 50000) (j : Fin C) :
    aggK ei (fun u i => h u i * dis ei u) b v j = aggR ei h b v j := by
  have h0 := dis_nonneg ei v
  have ht := dis_ne_top ei v
  unfold aggK aggR nbr nbrR
  rw [mul_add_of_real h0 ht, mul_sum_of_real h0 ht]
  refine congrArg₂ (· + ·) (congrArg₂ (· + ·) ?_ ?_) rfl
  · apply Finset.sum_congr rfl
    intro e _
    by_cases he : (dst ei e).toInt = (v.val : ℤ)
    · rw [if_pos he, if_pos he, node_of_toInt he]
      show dis ei v * (h (node (src ei e)) j * dis ei (node (src ei e))) = _
      rw [mul_comm (h _ j), ← mul_assoc, mul_comm (dis ei v)]
    · rw [if_neg he, if_neg he, mul_zero]
  · show dis ei v * (h v j * dis ei v) = _
    rw [mul_comm (h v j), ← mul_assoc]

/-! ### The one-hot row picks the table row the take reads -/

/-- A word whose signed reading is 0, 1 or 2 is one of the three words 0, 1, 2. -/
theorem word_of_range {w : BitVec 32} (h0 : 0 ≤ w.toInt) (h3 : w.toInt < 3) : w = 0#32 ∨ w = 1#32 ∨ w = 2#32 := by
  have hw : BitVec.ofInt 32 w.toInt = w := BitVec.ofInt_toInt
  have hc : w.toInt = 0 ∨ w.toInt = 1 ∨ w.toInt = 2 := by omega
  rcases hc with hc | hc | hc
  · left; rw [← hw, hc]; rfl
  · right; left; rw [← hw, hc]; rfl
  · right; right; rw [← hw, hc]; rfl

theorem row3_zero : row3 0#32 = 0 := by decide
theorem row3_one : row3 1#32 = 1 := by decide
theorem row3_two : row3 2#32 = 2 := by decide

/-- The one-hot row of an in-range word times a 3-row table is the table's row at that word. -/
theorem onehot_row {w : BitVec 32} (h0 : 0 ≤ w.toInt) (h3 : w.toInt < 3) (f : Fin 3 → EReal) :
    ∑ t : Fin 3, oneh w t * f t = f (row3 w) := by
  rcases word_of_range h0 h3 with rfl | rfl | rfl
  · rw [row3_zero, Fin.sum_univ_three]
    have a0 : oneh 0#32 (0 : Fin 3) = 1 := by unfold oneh; rw [if_pos (by decide)]
    have a1 : oneh 0#32 (1 : Fin 3) = 0 := by unfold oneh; rw [if_neg (by decide)]
    have a2 : oneh 0#32 (2 : Fin 3) = 0 := by unfold oneh; rw [if_neg (by decide)]
    rw [a0, a1, a2, one_mul, zero_mul, zero_mul, add_zero, add_zero]
  · rw [row3_one, Fin.sum_univ_three]
    have a0 : oneh 1#32 (0 : Fin 3) = 0 := by unfold oneh; rw [if_neg (by decide)]
    have a1 : oneh 1#32 (1 : Fin 3) = 1 := by unfold oneh; rw [if_pos (by decide)]
    have a2 : oneh 1#32 (2 : Fin 3) = 0 := by unfold oneh; rw [if_neg (by decide)]
    rw [a0, a1, a2, one_mul, zero_mul, zero_mul, add_zero, zero_add]
  · rw [row3_two, Fin.sum_univ_three]
    have a0 : oneh 2#32 (0 : Fin 3) = 0 := by unfold oneh; rw [if_neg (by decide)]
    have a1 : oneh 2#32 (1 : Fin 3) = 0 := by unfold oneh; rw [if_neg (by decide)]
    have a2 : oneh 2#32 (2 : Fin 3) = 1 := by unfold oneh; rw [if_pos (by decide)]
    rw [a0, a1, a2, one_mul, zero_mul, zero_mul, zero_add, zero_add]

/-! ### The 4224-wide row product splits at column 4096 -/

theorem sum_split (f : Fin 4224 → EReal) :
    ∑ k : Fin 4224, f k = (∑ k : Fin 4096, f ⟨k.val, by omega⟩) + ∑ k : Fin 128, f ⟨4096 + k.val, by omega⟩ :=
  Fin.sum_univ_add (a := 4096) (b := 128) f

section First
variable (x : Arr2 50000 128) (dom : IArr1 50000) (emb : Arr2 3 4096) (W1 : Arr2 4224 32)

theorem cat_lo (v : Fin 50000) (k : Fin 4096) :
    cat x dom emb v (⟨k.val, by omega⟩ : Fin 4224) = emb (ix2 (row3 (dom (ix1 v))) k) := by
  unfold cat
  rw [dif_pos k.isLt]

theorem cat_hi (v : Fin 50000) (k : Fin 128) :
    cat x dom emb v (⟨4096 + k.val, by omega⟩ : Fin 4224) = x (ix2 v k) := by
  unfold cat
  have hk : ¬ ((⟨4096 + k.val, by omega⟩ : Fin 4224).val < 4096) := by simp
  rw [dif_neg hk]
  exact congrArg (fun q => x (ix2 v q)) (Fin.ext (by simp))

/-- The first table: one-hot row times emb · W1[:4096] plus x · W1[4096:] is [emb[dom v] | x v] · W1. -/
theorem h1K_eq_h1R (hdom : ∀ v : Fin 50000, 0 ≤ (dom (ix1 v)).toInt ∧ (dom (ix1 v)).toInt < 3) (v : Fin 50000) (j : Fin 32) :
    h1K x dom emb W1 v j = h1R x dom emb W1 v j := by
  unfold h1K h1R
  rw [onehot_row (hdom v).1 (hdom v).2 (fun t => embP emb W1 t j), sum_split]
  unfold embP
  refine congrArg₂ (· + ·) (Finset.sum_congr rfl fun k _ => ?_) (Finset.sum_congr rfl fun k _ => ?_)
  · rw [cat_lo]
  · rw [cat_hi]
end First

/-! ### The row maximum -/

theorem max_ninf (a : EReal) : max ninf a = a := by
  rw [ninf_eq]; exact max_eq_right bot_le

/-- THE TWO PROGRAMS AGREE. With every domain word in 0 … 2 (so that the one-hot row picks exactly the table row the
    reference's take reads), entry (v, j) of the kernel's result is entry (v, j) of the reference's. The weight dis v
    is a positive real (deg v is a count plus one), so multiplication by it distributes over the neighbour sum on the
    extended reals whatever the summands; the rest is commutativity and associativity. -/
theorem outK_eq_outR (x : Arr2 50000 128) (ei : IArr2 2 1600000) (dom : IArr1 50000) (emb : Arr2 3 4096) (W1 : Arr2 4224 32)
    (b1 : Arr1 32) (A1 : Arr2 32 8) (B1 : Arr2 8 32) (W2 : Arr2 32 5) (b2 : Arr1 5) (A2 : Arr2 5 8) (B2 : Arr2 8 5)
    (hdom : ∀ v : Fin 50000, 0 ≤ (dom (ix1 v)).toInt ∧ (dom (ix1 v)).toInt < 3) (v : Fin 50000) (j : Fin 5) :
    outK x ei dom emb W1 b1 A1 B1 W2 b2 A2 B2 v j = outR x ei dom emb W1 b1 A1 B1 W2 b2 A2 B2 v j := by
  -- the first layer's scaled table is the reference's first table times dis
  have t1 : hs1K x ei dom emb W1 = fun u i => h1R x dom emb W1 u i * dis ei u := by
    funext u i
    unfold hs1K
    rw [h1K_eq_h1R x dom emb W1 hdom]
  have e1 : aggK ei (hs1K x ei dom emb W1) b1 = aggR ei (h1R x dom emb W1) b1 := by
    funext u i
    rw [t1]
    exact aggK_scaled ei (h1R x dom emb W1) b1 u i
  -- the second layer's scaled table is the reference's second table times dis
  have t2 : hs2K x ei dom emb W1 b1 A1 B1 W2 = fun u i => h2R x ei dom emb W1 b1 A1 B1 W2 u i * dis ei u := by
    funext u i
    unfold hs2K h2R
    rw [e1]
  have e2 : aggK ei (hs2K x ei dom emb W1 b1 A1 B1 W2) b2 = aggR ei (h2R x ei dom emb W1 b1 A1 B1 W2) b2 := by
    funext u i
    rw [t2]
    exact aggK_scaled ei (h2R x ei dom emb W1 b1 A1 B1 W2) b2 u i
  have e3 : zK x ei dom emb W1 b1 A1 B1 W2 b2 A2 B2 = zR x ei dom emb W1 b1 A1 B1 W2 b2 A2 B2 := by
    funext u i
    unfold zK zR
    rw [e2]
  have e4 : (fun u => max ninf (rowMax (zR x ei dom emb W1 b1 A1 B1 W2 b2 A2 B2) u))
      = rowMax (zR x ei dom emb W1 b1 A1 B1 W2 b2 A2 B2) := funext fun u => max_ninf _
  unfold outK outR
  rw [e3, e4]

end Cert.Algebra

end
-- ==== Proof.PreDom.lean ====
/-
  The precondition makes every domain word one of 0, 1, 2.
-/
import proofs.«421985_j63694364999884_3_alg».proof.Defs
import proofs.«421985_j63694364999884_3_alg».proof.Proof.Spec
import Idealize.ShloMosaic.Lib.ReduceAll
import Idealize.ShloMosaic.Lib.StableHlo.Predicate

noncomputable section

namespace Cert.PreDom

open Idealize.ShloMosaic Idealize.ShloMosaic.TcCoe Idealize.ShloMosaic.ValueIdx Idealize.SL.Sem

/-- A rank-0 array has one index. -/
instance : Subsingleton Cert.Pre_finite_inputs.S_.Idx := ⟨fun _ _ => funext fun d => d.elim0⟩

/-- The precondition's last two conjuncts are "every domain word is at least 0" and "every domain word is less
    than 3", read signed. -/
theorem dom_range [hPre : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (v : Fin 50000) :
    0 ≤ ((m ((c.tc : Thread Cert.KernelIdeal.nD Cert.KernelIdeal.τ).loc Cert.KernelIdeal.main_arg2) : Spec.IArr1 50000) (ix1 v)).toInt
    ∧ ((m ((c.tc : Thread Cert.KernelIdeal.nD Cert.KernelIdeal.τ).loc Cert.KernelIdeal.main_arg2) : Spec.IArr1 50000) (ix1 v)).toInt < 3 := by
  -- the precondition at the one index of its rank-0 result
  have e := congrFun (hpre c) ix0
  unfold Cert.Pre_finite_inputs.fn Cert.Pre_finite_inputs.fn_part1 Cert.Pre_finite_inputs.fn_part2
    Cert.Pre_finite_inputs.fn_part3 at e
  -- a conjunction of twelve words; the last two are the two range tests, each an "all" over the 50000 domain words
  simp only [andi, IntOp.andi_eq_one] at e
  obtain ⟨⟨-, h0⟩, h3⟩ := e
  have b0 := Host.reduce_andi_all _ _ _ _ _ h0 (ix1 v)
  have b3 := Host.reduce_andi_all _ _ _ _ _ h3 (ix1 v)
  -- each test at entry v compares the word, read signed, with the constant 0, respectively 3
  simp only [cmpi, broadcastInDim, constantI, IntOp.cmpi_sge, IntOp.cmpi_slt] at b0 b3
  have z0 : (0#32 : BitVec 32).toInt = 0 := by decide
  have z3 : (3#32 : BitVec 32).toInt = 3 := by decide
  rw [z0] at b0
  rw [z3] at b3
  exact ⟨b0, b3⟩

end Cert.PreDom

end
-- ==== Proof.lean ====
/-
  The certificate. Three frames, the (empty) idealization ledger, and the equivalence of the idealized kernel and
  the idealized reference at the extended reals.

  The kernel is a two-layer graph convolution with rank-8 adapters and a row-wise log-softmax in three regions with two
  gather / segment-sum stretches between them; the reference is the same network in plain array operations. The
  kernel's result is `Spec.outK` of the argument arrays (Proof/KValue.lean: each region's output rows over what the
  host stretch before it leaves), the reference's is `Spec.outR` (Proof/RefValue.lean), and the two functions agree
  when every domain word is 0, 1 or 2 (Proof/Algebra.lean), which the precondition says (Proof/PreDom.lean): the
  node weight dis v is a positive real, so scaling the table before the neighbour sum and multiplying by dis v after
  it is the reference's edge-wise weight dis(src) · dis(dst); and a one-hot row times emb · W1[:4096] is the taken
  row of emb times W1[:4096].
-/
import proofs.«421985_j63694364999884_3_alg».proof.Defs
import proofs.«421985_j63694364999884_3_alg».proof.Proof.FrameK
import proofs.«421985_j63694364999884_3_alg».proof.Proof.FrameKI
import proofs.«421985_j63694364999884_3_alg».proof.Proof.RefRun
import proofs.«421985_j63694364999884_3_alg».proof.Proof.KValue
import proofs.«421985_j63694364999884_3_alg».proof.Proof.RefValue
import proofs.«421985_j63694364999884_3_alg».proof.Proof.Algebra
import proofs.«421985_j63694364999884_3_alg».proof.Proof.PreDom
import proofs.«421985_j63694364999884_3_alg».proof.Proof.Gen.Kernel
import proofs.«421985_j63694364999884_3_alg».proof.Proof.Gen.KernelIdeal
import proofs.«421985_j63694364999884_3_alg».proof.Proof.Gen.ReferenceIdeal
import proofs.«421985_j63694364999884_3_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The two idealized programs, from memories that agree on the arguments, end with equal results. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.KH.result m ρ c, ?_, ?_⟩
  · -- the kernel's run, its last boundary read at the result and at each argument
    refine (θ_run Cert.KernelIdeal.defs _ _).mono (fun r h c => ?_) (Cert.KernelIdeal.GenP.run_main (F := Ideal) m ρ)
    exact ⟨h c _ (Cert.KernelIdeal.GenP.mem_uc Cert.KernelIdeal.main_v51 (by decide)),
      (h c _ (Cert.KernelIdeal.GenP.mem_uc Cert.KernelIdeal.main_arg0 (by decide))).trans (Cert.KernelIdeal.GenP.W11_main_arg0 m ρ c),
      (h c _ (Cert.KernelIdeal.GenP.mem_uc Cert.KernelIdeal.main_arg1 (by decide))).trans (Cert.KernelIdeal.GenP.W11_main_arg1 m ρ c),
      (h c _ (Cert.KernelIdeal.GenP.mem_uc Cert.KernelIdeal.main_arg2 (by decide))).trans (Cert.KernelIdeal.GenP.W11_main_arg2 m ρ c),
      (h c _ (Cert.KernelIdeal.GenP.mem_uc Cert.KernelIdeal.main_arg3 (by decide))).trans (Cert.KernelIdeal.GenP.W11_main_arg3 m ρ c),
      (h c _ (Cert.KernelIdeal.GenP.mem_uc Cert.KernelIdeal.main_arg4 (by decide))).trans (Cert.KernelIdeal.GenP.W11_main_arg4 m ρ c),
      (h c _ (Cert.KernelIdeal.GenP.mem_uc Cert.KernelIdeal.main_arg5 (by decide))).trans (Cert.KernelIdeal.GenP.W11_main_arg5 m ρ c),
      (h c _ (Cert.KernelIdeal.GenP.mem_uc Cert.KernelIdeal.main_arg6 (by decide))).trans (Cert.KernelIdeal.GenP.W11_main_arg6 m ρ c),
      (h c _ (Cert.KernelIdeal.GenP.mem_uc Cert.KernelIdeal.main_arg7 (by decide))).trans (Cert.KernelIdeal.GenP.W11_main_arg7 m ρ c),
      (h c _ (Cert.KernelIdeal.GenP.mem_uc Cert.KernelIdeal.main_arg8 (by decide))).trans (Cert.KernelIdeal.GenP.W11_main_arg8 m ρ c),
      (h c _ (Cert.KernelIdeal.GenP.mem_uc Cert.KernelIdeal.main_arg9 (by decide))).trans (Cert.KernelIdeal.GenP.W11_main_arg9 m ρ c),
      (h c _ (Cert.KernelIdeal.GenP.mem_uc Cert.KernelIdeal.main_arg10 (by decide))).trans (Cert.KernelIdeal.GenP.W11_main_arg10 m ρ c),
      (h c _ (Cert.KernelIdeal.GenP.mem_uc Cert.KernelIdeal.main_arg11 (by decide))).trans (Cert.KernelIdeal.GenP.W11_main_arg11 m ρ c)⟩
  · -- the reference's run; its result is the kernel's, entry by entry
    refine (θ_run Cert.ReferenceIdeal.defs _ _).mono (fun r h c => ⟨(h c).1.trans ?_, (h c).2⟩)
      (Cert.ReferenceIdeal.ValueP.run (F := Ideal) m' ρ')
    rw [Cert.ReferenceIdeal.RefV.res_eq m' c]
    obtain ⟨h0, h1, h2, h3, h4, h5, h6, h7, h8, h9, h10, h11⟩ := hagree c
    rw [h0, h1, h2, h3, h4, h5, h6, h7, h8, h9, h10, h11]
    funext i
    obtain ⟨v, j, rfl⟩ : ∃ (v : Fin 50000) (j : Fin 5), i = ix2 v j := ⟨i 0, i 1, eq_ix2 i⟩
    refine (Cert.ReferenceIdeal.RefV.ref_value _ _ _ _ _ _ _ _ _ _ _ _ v j).trans ?_
    refine Eq.trans ?_ (Cert.KernelIdeal.KH.kernel_value m ρ c v j).symm
    exact (Cert.Algebra.outK_eq_outR _ _ _ _ _ _ _ _ _ _ _ _
      (fun u => Cert.PreDom.dom_range (hPre := Cert.Pre_finite_inputs.Gen.facts) m hpre c u) v j).symm

theorem claim : Cert.Claim :=
  ⟨Cert.Kernel.Gen.facts, Cert.KernelIdeal.Gen.facts, Cert.ReferenceIdeal.Gen.facts, Cert.Pre_finite_inputs.Gen.facts,
    fun m ρ _ => Cert.Kernel.GenP.frame m ρ,
    fun m ρ _ => Cert.KernelIdeal.GenP.frame m ρ,
    fun m ρ _ => (θ_run Cert.ReferenceIdeal.defs _ _).mono (fun _ h c => (h c).2) (Cert.ReferenceIdeal.ValueP.run (F := Ideal) m ρ),
    trivial,
    algebraic⟩

end Cert.Proof

end
